-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S128x128 : Shape := ⟨2, ![128, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S384x128 : Shape := ⟨2, ![384, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v63 : IVec S_ 1) (main_v67 : IVec S1600000 1) (main_v68 : IVec S1x1600000 32) : IVec S_ 1 :=
  let main_v69 : IVec S1600000 32 := shapeCast S1600000 main_v68 shapeCasts_S1x1600000_S1600000
  let main_c_25 : IVec S_ 32 := constantI S_ 32 100000#32
  let main_v70 : IVec S1600000 32 := broadcastInDim S1600000 ![] bcast_S_S1600000 main_c_25
  let main_v71 : IVec S1600000 1 := cmpi .slt main_v69 main_v70
  let main_v72 : IVec S1600000 1 := andi main_v67 main_v71
  let main_c_26 : IVec S_ 1 := constantI S_ 1 1#1
  let main_v73 : IVec S_ 1 := (fun x v => Host.reduce IntOp.andi x v reducesTo_S1600000_S_d0 h_S_) main_v72 main_c_26
  let main_v74 : IVec S_ 1 := andi main_v63 main_v73
  main_v74

def fn_part3 {F : FTy → Type} [FloatOps F] (main_arg3 : IVec S2x1600000 32) (main_arg13 : FVec F S384x128 .f32) (main_arg14 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S384x128 .f32 := Host.absf main_arg13
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : IVec S1x1600000 32 := (extractStridedSlice S1x1600000 ![0, 0] · slices_S2x1600000_S1x1600000_0_0) main_arg3
  let main_v65 : IVec S1600000 32 := shapeCast S1600000 main_v64 shapeCasts_S1x1600000_S1600000
  let main_c_24 : IVec S_ 32 := constantI S_ 32 4294867296#32
  let main_v66 : IVec S1600000 32 := broadcastInDim S1600000 ![] bcast_S_S1600000 main_c_24
  let main_v67 : IVec S1600000 1 := cmpi .sge main_v65 main_v66
  let main_v68 : IVec S1x1600000 32 := (extractStridedSlice S1x1600000 ![0, 0] · slices_S2x1600000_S1x1600000_0_0) main_arg3
  fn_part4 (F := F) main_v63 main_v67 main_v68

def fn_part2 {F : FTy → Type} [FloatOps F] (main_arg3 : IVec S2x1600000 32) (main_arg9 : FVec F S128x64 .f32) (main_arg10 : FVec F S64 .f32) (main_arg11 : FVec F S128x64 .f32) (main_arg12 : FVec F S64 .f32) (main_arg13 : FVec F S384x128 .f32) (main_arg14 : FVec F S128 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg3 main_arg13 main_arg14 main_v48 main_v49 main_v50

def fn_part1 {F : FTy → Type} [FloatOps F] (main_arg3 : IVec S2x1600000 32) (main_arg6 : FVec F S64 .f32) (main_arg7 : FVec F S128x64 .f32) (main_arg8 : FVec F S64 .f32) (main_arg9 : FVec F S128x64 .f32) (main_arg10 : FVec F S64 .f32) (main_arg11 : FVec F S128x64 .f32) (main_arg12 : FVec F S64 .f32) (main_arg13 : FVec F S384x128 .f32) (main_arg14 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg9 main_arg10 main_arg11 main_arg12 main_arg13 main_arg14 main_v33

def fn {F : FTy → Type} [FloatOps F] (main_arg0 : FVec F S100000x128 .f32) (main_arg1 : FVec F S1600000x128 .f32) (main_arg2 : FVec F S128x128 .f32) (main_arg3 : IVec S2x1600000 32) (main_arg4 : IVec S100000 32) (main_arg5 : FVec F S128x64 .f32) (main_arg6 : FVec F S64 .f32) (main_arg7 : FVec F S128x64 .f32) (main_arg8 : FVec F S64 .f32) (main_arg9 : FVec F S128x64 .f32) (main_arg10 : FVec F S64 .f32) (main_arg11 : FVec F S128x64 .f32) (main_arg12 : FVec F S64 .f32) (main_arg13 : FVec F S384x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg3 main_arg6 main_arg7 main_arg8 main_arg9 main_arg10 main_arg11 main_arg12 main_arg13 main_arg14 main_v13 main_v16
-- ==== Kernel.lean ====
abbrev S100000x128 : Shape := ⟨2, ![100000, 128]⟩
abbrev S1600000x128 : Shape := ⟨2, ![1600000, 128]⟩
abbrev S128x128 : Shape := ⟨2, ![128, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S384x128 : Shape := ⟨2, ![384, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x64 : Shape := ⟨2, ![1, 64]⟩
abbrev S1605632x128 : Shape := ⟨2, ![1605632, 128]⟩
abbrev S1605632 : Shape := ⟨1, ![1605632]⟩
abbrev S2x128x128 : Shape := ⟨3, ![2, 128, 128]⟩
abbrev S4096x128 : Shape := ⟨2, ![4096, 128]⟩
abbrev S4096 : Shape := ⟨1, ![4096]⟩
abbrev S1x128x128 : Shape := ⟨3, ![1, 128, 128]⟩
abbrev S4096x64 : Shape := ⟨2, ![4096, 64]⟩
abbrev S1x128 : Shape := ⟨2, ![1, 128]⟩
abbrev S4096x1 : Shape := ⟨2, ![4096, 1]⟩
abbrev S102400x128 : Shape := ⟨2, ![102400, 128]⟩
abbrev S102400 : Shape := ⟨1, ![102400]⟩
abbrev S2048x128 : Shape := ⟨2, ![2048, 128]⟩
abbrev S2048 : Shape := ⟨1, ![2048]⟩
abbrev S2048x64 : Shape := ⟨2, ![2048, 64]⟩
abbrev S2048x1 : Shape := ⟨2, ![2048, 1]⟩
abbrev S128x384 : Shape := ⟨2, ![128, 384]⟩

abbrev nBuf : Space → Nat
  | .hbm => 70
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S384x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000, .i32⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S128x64, .f32⟩
  | .hbm, ⟨40, _⟩ => ⟨S1x64, .f32⟩
  | .hbm, ⟨41, _⟩ => ⟨S128x64, .f32⟩
  | .hbm, ⟨42, _⟩ => ⟨S128x64, .f32⟩
  | .hbm, ⟨43, _⟩ => ⟨S128x64, .f32⟩
  | .hbm, ⟨44, _⟩ => ⟨S1x64, .f32⟩
  | .hbm, ⟨45, _⟩ => ⟨S128x64, .f32⟩
  | .hbm, ⟨46, _⟩ => ⟨S128x64, .f32⟩
  | .hbm, ⟨47, _⟩ => ⟨S_, .i32⟩
  | .hbm, ⟨48, _⟩ => ⟨S_, .f32⟩
  | .hbm, ⟨49, _⟩ => ⟨S1605632x128, .f32⟩
  | .hbm, ⟨50, _⟩ => ⟨S_, .i32⟩
  | .hbm, ⟨51, _⟩ => ⟨S_, .i32⟩
  | .hbm, ⟨52, _⟩ => ⟨S1605632, .i32⟩
  | .hbm, ⟨53, _⟩ => ⟨S128x64, .bf16⟩
  | .hbm, ⟨54, _⟩ => ⟨S128x64, .bf16⟩
  | .hbm, ⟨55, _⟩ => ⟨S2x128x128, .f32⟩
  | .hbm, ⟨56, _⟩ => ⟨S_, .f32⟩
  | .hbm, ⟨57, _⟩ => ⟨S128x128, .f32⟩
  | .hbm, ⟨58, _⟩ => ⟨S_, .i32⟩
  | .hbm, ⟨59, _⟩ => ⟨S_, .f32⟩
  | .hbm, ⟨60, _⟩ => ⟨S102400x128, .f32⟩
  | .hbm, ⟨61, _⟩ => ⟨S_, .i32⟩
  | .hbm, ⟨62, _⟩ => ⟨S_, .i32⟩
  | .hbm, ⟨63, _⟩ => ⟨S102400, .i32⟩
  | .hbm, ⟨64, _⟩ => ⟨S128x64, .bf16⟩
  | .hbm, ⟨65, _⟩ => ⟨S128x64, .bf16⟩
  | .hbm, ⟨66, _⟩ => ⟨S2x128x128, .f32⟩
  | .hbm, ⟨67, _⟩ => ⟨S_, .f32⟩
  | .hbm, ⟨68, _⟩ => ⟨S128x128, .f32⟩
  | .hbm, ⟨69, _⟩ => ⟨S128x128, .f32⟩
  | .local _ .vmem, ⟨0, _⟩ => ⟨S4096x128, .f32⟩
  | .local _ .vmem, ⟨1, _⟩ => ⟨S4096x128, .f32⟩
  | .local _ .vmem, ⟨2, _⟩ => ⟨S4096, .i32⟩
  | .local _ .vmem, ⟨3, _⟩ => ⟨S4096, .i32⟩
  | .local _ .vmem, ⟨4, _⟩ => ⟨S128x64, .bf16⟩
  | .local _ .vmem, ⟨5, _⟩ => ⟨S64, .f32⟩
  | .local _ .vmem, ⟨6, _⟩ => ⟨S128x64, .bf16⟩
  | .local _ .vmem, ⟨7, _⟩ => ⟨S1x128x128, .f32⟩
  | .local _ .vmem, ⟨8, _⟩ => ⟨S1x128x128, .f32⟩
  | .local _ .vmem, ⟨9, _⟩ => ⟨S2048x128, .f32⟩
  | .local _ .vmem, ⟨10, _⟩ => ⟨S2048x128, .f32⟩
  | .local _ .vmem, ⟨11, _⟩ => ⟨S2048, .i32⟩
  | .local _ .vmem, ⟨12, _⟩ => ⟨S2048, .i32⟩
  | .local _ .vmem, ⟨13, _⟩ => ⟨S128x64, .bf16⟩
  | .local _ .vmem, ⟨14, _⟩ => ⟨S64, .f32⟩
  | .local _ .vmem, ⟨15, _⟩ => ⟨S128x64, .bf16⟩
  | .local _ .vmem, ⟨16, _⟩ => ⟨S1x128x128, .f32⟩
  | .local _ .vmem, ⟨17, _⟩ => ⟨S1x128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S384x128, .f32⟩
  | .local _ .vmem, ⟨22, _⟩ => ⟨S128, .f32⟩
  | .local _ .vmem, ⟨23, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_c_4 : Ref sig .tc := ⟨.hbm, 36, rfl⟩
abbrev main_call0_v14 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_c : Ref sig .tc := ⟨.hbm, 47, rfl⟩
abbrev main_call1_v0 : Ref sig .tc := ⟨.hbm, 48, rfl⟩
abbrev main_v11 : Ref sig .tc := ⟨.hbm, 49, rfl⟩
abbrev main_c_0 : Ref sig .tc := ⟨.hbm, 50, rfl⟩
abbrev main_call2_v0 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst : Ref sig .tc := ⟨.hbm, 56, rfl⟩
abbrev main_v16 : Ref sig .tc := ⟨.hbm, 57, rfl⟩
abbrev main_c_1 : Ref sig .tc := ⟨.hbm, 58, rfl⟩
abbrev main_call3_v0 : Ref sig .tc := ⟨.hbm, 59, rfl⟩
abbrev main_v17 : Ref sig .tc := ⟨.hbm, 60, rfl⟩
abbrev main_c_2 : Ref sig .tc := ⟨.hbm, 61, rfl⟩
abbrev main_call4_v0 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_v23 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨2, ![2, 196], ![false, false]⟩

def cc0_transform_0 (i : grid0.Coords) : Fin 2 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 1 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  ![v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  pads_S1600000x128_S1605632x128_056320_000 : S1600000x128.Pads (![0, 0] : Fin 2 → Nat) ![5632, 0] ![0, 0] S1605632x128
  pads_S1600000_S1605632_056320 : S1600000.Pads (![0] : Fin 1 → Nat) ![5632] ![0] S1605632
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096_S4096_0 : ∀ a, (![0] : Fin 1 → Nat) a + S4096.size a ≤ S4096.size a
  h_S4096 : 0 < S4096.numel
  shapeCasts_S4096_S4096 : S4096.ShapeCasts S4096
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  iota_S1x128_d1_w32 : S1x128.Iotas .tc 32 [1]
  shapeCasts_S4096_S4096x1 : S4096.ShapeCasts S4096x1
  broadcasts_S4096x1_S4096x128 : S4096x1.Broadcasts S4096x128
  broadcasts_S1x128_S4096x128 : S1x128.Broadcasts S4096x128
  natLt_1_32 : 1 < 32
  reduces_S4096x64_S4096 : S4096x64.Reduces [1] S4096
  reducesTo_S2x128x128_S128x128_d0 : S2x128x128.ReducesTo [0] S128x128
  pads_S100000x128_S102400x128_024000_000 : S100000x128.Pads (![0, 0] : Fin 2 → Nat) ![2400, 0] ![0, 0] S102400x128
  pads_S100000_S102400_024000 : S100000.Pads (![0] : Fin 1 → Nat) ![2400] ![0] S102400
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048_S2048_0 : ∀ a, (![0] : Fin 1 → Nat) a + S2048.size a ≤ S2048.size a
  h_S2048 : 0 < S2048.numel
  shapeCasts_S2048_S2048 : S2048.ShapeCasts S2048
  broadcasts_S1x64_S2048x64 : S1x64.Broadcasts S2048x64
  shapeCasts_S2048_S2048x1 : S2048.ShapeCasts S2048x1
  broadcasts_S2048x1_S2048x128 : S2048x1.Broadcasts S2048x128
  broadcasts_S1x128_S2048x128 : S1x128.Broadcasts S2048x128
  reduces_S2048x64_S2048 : S2048x64.Reduces [1] S2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S128x128_S128x128_S128x128_S128x384_d1 : Shape.Concatenates [S128x128, S128x128, S128x128] S128x384 1
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  gather_S100000_S1600000x1_S1600000_n_0_n_n_0_1_1_wf : GatherDims.WF S100000 S1600000x1 S1600000 [] [0] [] [0] [] 1 ![1]
  dot_S128x128_S128x64_S128x64_1_0_0_1_n_n_wf : DotDims.WF S128x128 S128x64 S128x64 [1] [0] [0] [1] [] []
  dot_S4096x128_S128x64_S4096x64_1_0_0_1_n_n_wf : DotDims.WF S4096x128 S128x64 S4096x64 [1] [0] [0] [1] [] []
  dot_S4096x128_S4096x128_S128x128_0_0_1_1_n_n_wf : DotDims.WF S4096x128 S4096x128 S128x128 [0] [0] [1] [1] [] []
  dot_S2048x128_S128x64_S2048x64_1_0_0_1_n_n_wf : DotDims.WF S2048x128 S128x64 S2048x64 [1] [0] [0] [1] [] []
  dot_S2048x128_S2048x128_S128x128_0_0_1_1_n_n_wf : DotDims.WF S2048x128 S2048x128 S128x128 [0] [0] [1] [1] [] []
  dot_S128x384_S384x128_S128x128_1_0_0_1_n_n_wf : DotDims.WF S128x384 S384x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1605632x128.size a
  hwx0_0 : ∀ i : grid0.Coords, EltTy.bits .f32 = 32 ∨ (Rect.block (s := S1605632x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1605632.size a
  hwx0_1 : ∀ i : grid0.Coords, EltTy.bits .i32 = 32 ∨ (Rect.block (s := S1605632) S4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x128.size a ≤ S2x128x128.size a
  hwx0_5 : ∀ i : grid0.Coords, EltTy.bits .f32 = 32 ∨ (Rect.block (s := S2x128x128) S1x128x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S102400x128.size a
  hwx1_0 : ∀ i : grid1.Coords, EltTy.bits .f32 = 32 ∨ (Rect.block (s := S102400x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S102400.size a
  hwx1_1 : ∀ i : grid1.Coords, EltTy.bits .i32 = 32 ∨ (Rect.block (s := S102400) S2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x128.size a ≤ S2x128x128.size a
  hwx1_5 : ∀ i : grid1.Coords, EltTy.bits .f32 = 32 ∨ (Rect.block (s := S2x128x128) S1x128x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S128x128.size a
  hwx2_0 : ∀ i : grid2.Coords, EltTy.bits .f32 = 32 ∨ (Rect.block (s := S128x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .f32 = 32 ∨ (Rect.block (s := S384x128) S384x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S128x384_S384x128_S128x128_1_0_0_1_n_n : DotDims S128x384 S384x128 S128x128 where
  lhsContracting := [1]
  rhsContracting := [0]
  lhsNonContracting := [0]
  rhsNonContracting := [1]
  lhsBatch := []
  rhsBatch := []
  wf := dot_S128x384_S384x128_S128x128_1_0_0_1_n_n_wf

abbrev win0_0 : Pipeline.Window sig grid0 :=
  Pipeline.Window.ofSpec (Memref.whole main_v11) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S128x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v16) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S128x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S128x128 : Shape := ⟨2, ![128, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S384x128 : Shape := ⟨2, ![384, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x64 : Shape := ⟨2, ![100000, 64]⟩
abbrev S100000x1 : Shape := ⟨2, ![100000, 1]⟩
abbrev S128x384 : Shape := ⟨2, ![128, 384]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S384x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000, .i32⟩
  | .hbm, ⟨26, _⟩ => ⟨S1600000x64, .f32⟩
  | .hbm, ⟨27, _⟩ => ⟨S1x64, .f32⟩
  | .hbm, ⟨28, _⟩ => ⟨S1600000x64, .f32⟩
  | .hbm, ⟨29, _⟩ => ⟨S1600000x64, .f32⟩
  | .hbm, ⟨30, _⟩ => ⟨S128x64, .f32⟩
  | .hbm, ⟨31, _⟩ => ⟨S1x64, .f32⟩
  | .hbm, ⟨32, _⟩ => ⟨S128x64, .f32⟩
  | .hbm, ⟨33, _⟩ => ⟨S128x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S1600000, .f32⟩
  | .hbm, ⟨46, _⟩ => ⟨S1600000x1, .f32⟩
  | .hbm, ⟨47, _⟩ => ⟨S1600000x1, .f32⟩
  | .hbm, ⟨48, _⟩ => ⟨S1600000x1, .f32⟩
  | .hbm, ⟨49, _⟩ => ⟨S_, .f32⟩
  | .hbm, ⟨50, _⟩ => ⟨S1600000x1, .f32⟩
  | .hbm, ⟨51, _⟩ => ⟨S1600000x1, .f32⟩
  | .hbm, ⟨52, _⟩ => ⟨S_, .f32⟩
  | .hbm, ⟨53, _⟩ => ⟨S1600000x1, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S128x128, .f32⟩
  | .hbm, ⟨59, _⟩ => ⟨S1600000x1, .i32⟩
  | .hbm, ⟨60, _⟩ => ⟨S128x128, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S128x64, .f32⟩
  | .hbm, ⟨66, _⟩ => ⟨S1x64, .f32⟩
  | .hbm, ⟨67, _⟩ => ⟨S128x64, .f32⟩
  | .hbm, ⟨68, _⟩ => ⟨S128x64, .f32⟩
  | .hbm, ⟨69, _⟩ => ⟨S_, .i32⟩
  | .hbm, ⟨70, _⟩ => ⟨S100000, .i32⟩
  | .hbm, ⟨71, _⟩ => ⟨S100000, .i1⟩
  | .hbm, ⟨72, _⟩ => ⟨S_, .i32⟩
  | .hbm, ⟨73, _⟩ => ⟨S100000, .i32⟩
  | .hbm, ⟨74, _⟩ => ⟨S100000, .i32⟩
  | .hbm, ⟨75, _⟩ => ⟨S100000, .i32⟩
  | .hbm, ⟨76, _⟩ => ⟨S100000x1, .i32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S100000x1, .f32⟩
  | .hbm, ⟨83, _⟩ => ⟨S100000x1, .f32⟩
  | .hbm, ⟨84, _⟩ => ⟨S_, .f32⟩
  | .hbm, ⟨85, _⟩ => ⟨S100000x1, .f32⟩
  | .hbm, ⟨86, _⟩ => ⟨S100000x1, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S128x128, .f32⟩
  | .hbm, ⟨94, _⟩ => ⟨S100000x1, .i32⟩
  | .hbm, ⟨95, _⟩ => ⟨S128x128, .f32⟩
  | .hbm, ⟨96, _⟩ => ⟨S128x384, .f32⟩
  | .hbm, ⟨97, _⟩ => ⟨S128x128, .f32⟩
  | .hbm, ⟨98, _⟩ => ⟨S1x128, .f32⟩
  | .hbm, ⟨99, _⟩ => ⟨S128x128, .f32⟩
  | .hbm, ⟨100, _⟩ => ⟨S128x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_6 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S1x64_S128x64_0_1 : S1x64.BroadcastsInDim S128x64 (![0, 1] : Fin 2 → Fin S128x64.rank)
  reducesTo_S1600000x64_S1600000_d1 : S1600000x64.ReducesTo [1] S1600000
  h_S_ : 0 < S_.numel
  bcast_S_S1600000x1 : S_.BroadcastsInDim S1600000x1 (![] : Fin 0 → Fin S1600000x1.rank)
  bcast_S1600000x1_S1600000x128_0_1 : S1600000x1.BroadcastsInDim S1600000x128 (![0, 1] : Fin 2 → Fin S1600000x128.rank)
  bcast_S_S128x128 : S_.BroadcastsInDim S128x128 (![] : Fin 0 → Fin S128x128.rank)
  bcast_S1x64_S100000x64_0_1 : S1x64.BroadcastsInDim S100000x64 (![0, 1] : Fin 2 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  reducesTo_S100000x64_S100000_d1 : S100000x64.ReducesTo [1] S100000
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S128x128_S128x128_S128x128_S128x384_d1 : Shape.Concatenates [S128x128, S128x128, S128x128] S128x384 1
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  gather_S100000_S1600000x1_S1600000_n_0_n_n_0_1_1_wf : GatherDims.WF S100000 S1600000x1 S1600000 [] [0] [] [0] [] 1 ![1]
  dot_S1600000x128_S128x64_S1600000x64_1_0_0_1_n_n_wf : DotDims.WF S1600000x128 S128x64 S1600000x64 [1] [0] [0] [1] [] []
  dot_S128x128_S128x64_S128x64_1_0_0_1_n_n_wf : DotDims.WF S128x128 S128x64 S128x64 [1] [0] [0] [1] [] []
  gather_S128x64_S1600000x1_S1600000x64_1_0_n_n_0_1_164_wf : GatherDims.WF S128x64 S1600000x1 S1600000x64 [1] [0] [] [0] [] 1 ![1, 64]
  scatter_S128x128_S1600000x1_S1600000x128_1_0_0_1_wf : ScatterDims.WF S128x128 S1600000x1 S1600000x128 [1] [0] [0] 1
  dot_S100000x128_S128x64_S100000x64_1_0_0_1_n_n_wf : DotDims.WF S100000x128 S128x64 S100000x64 [1] [0] [0] [1] [] []
  gather_S128x64_S100000x1_S100000x64_1_0_n_n_0_1_164_wf : GatherDims.WF S128x64 S100000x1 S100000x64 [1] [0] [] [0] [] 1 ![1, 64]
  scatter_S128x128_S100000x1_S100000x128_1_0_0_1_wf : ScatterDims.WF S128x128 S100000x1 S100000x128 [1] [0] [0] 1
  dot_S128x384_S384x128_S128x128_1_0_0_1_n_n_wf : DotDims.WF S128x384 S384x128 S128x128 [1] [0] [0] [1] [] []

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def gather_S128x64_S1600000x1_S1600000x64_1_0_n_n_0_1_164 : GatherDims S128x64 S1600000x1 S1600000x64 where
  offsetDims := [1]
  collapsedSliceDims := [0]
  operandBatchingDims := []
  startIndicesBatchingDims := []
  startIndexMap := [0]
  indexVectorDim := 1
  sliceSizes := ![1, 64]
  wf := gather_S128x64_S1600000x1_S1600000x64_1_0_n_n_0_1_164_wf
def scatter_S128x128_S1600000x1_S1600000x128_1_0_0_1 : ScatterDims S128x128 S1600000x1 S1600000x128 where
  updateWindowDims := [1]
  insertedWindowDims := [0]
  scatterDimsToOperandDims := [0]
  indexVectorDim := 1
  wf := scatter_S128x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S128x64_S100000x1_S100000x64_1_0_n_n_0_1_164 : GatherDims S128x64 S100000x1 S100000x64 where
  offsetDims := [1]
  collapsedSliceDims := [0]
  operandBatchingDims := []
  startIndicesBatchingDims := []
  startIndexMap := [0]
  indexVectorDim := 1
  sliceSizes := ![1, 64]
  wf := gather_S128x64_S100000x1_S100000x64_1_0_n_n_0_1_164_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x384_S384x128_S128x128_1_0_0_1_n_n : DotDims S128x384 S384x128 S128x128 where
  lhsContracting := [1]
  rhsContracting := [0]
  lhsNonContracting := [0]
  rhsNonContracting := [1]
  lhsBatch := []
  rhsBatch := []
  wf := dot_S128x384_S384x128_S128x128_1_0_0_1_n_n_wf

class Facts : Prop extends Facts₀ where

variable [Facts]
-- ==== Proof.Region2.lean ====
/-
  The final region's result array: its grid is one point and every window's block is its whole array, so the
  array after the region is the body's one store, the affine layer of the five arrays the region finds.
-/
import proofs.«419372_j26302379720747_1_alg».proof.Proof.Gen.KernelIdeal.Frame
import Idealize.ShloMosaic.Lib.Pipeline.Value
import Idealize.ShloMosaic.Lib.ValueIdx

noncomputable section

namespace Cert.KernelIdeal.Seg

open Idealize.ShloMosaic Idealize.ShloMosaic.TcCoe Idealize.SL.Sem Idealize.ShloMosaic.ValueIdx Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

/-- The final kernel's store, of the five whole arrays. -/
def res2 (c : Dev nD) : Vec F S128x128 .f32 :=
  k2_pay1 (V c main_v22 : Vec F S128x128 .f32) (V c main_v16 : Vec F S128x128 .f32) (V c main_arg2 : Vec F S128x128 .f32)
    (V c main_arg13 : Vec F S384x128 .f32) (V c main_arg14 : Vec F S128 .f32)

/-- Each input window's one block is its whole array: the index map is constantly zero and the block has the
    array's extents. -/
theorem blk2_0 (c : Dev nD) : (iblk2 V c 0 t2_0 : Vec F S128x128 .f32) = V c main_v22 := by
  have hz' : (fun a => win2_0.index t2_0 a * main_v22.ty.shape.size a) = fun _ => 0 := funext fun a => by fin_cases a <;> decide
  exact Memref.read_access_unit_zero (Elt F) main_v22 hz' (fun a => by rw [congrFun hz' a]; simp) (V c main_v22)
theorem blk2_1 (c : Dev nD) : (iblk2 V c 1 t2_0 : Vec F S128x128 .f32) = V c main_v16 := by
  have hz' : (fun a => win2_1.index t2_0 a * main_v16.ty.shape.size a) = fun _ => 0 := funext fun a => by fin_cases a <;> decide
  exact Memref.read_access_unit_zero (Elt F) main_v16 hz' (fun a => by rw [congrFun hz' a]; simp) (V c main_v16)
theorem blk2_2 (c : Dev nD) : (iblk2 V c 2 t2_0 : Vec F S128x128 .f32) = V c main_arg2 := by
  have hz' : (fun a => win2_2.index t2_0 a * main_arg2.ty.shape.size a) = fun _ => 0 := funext fun a => by fin_cases a <;> decide
  exact Memref.read_access_unit_zero (Elt F) main_arg2 hz' (fun a => by rw [congrFun hz' a]; simp) (V c main_arg2)
theorem blk2_3 (c : Dev nD) : (iblk2 V c 3 t2_0 : Vec F S384x128 .f32) = V c main_arg13 := by
  have hz' : (fun a => win2_3.index t2_0 a * main_arg13.ty.shape.size a) = fun _ => 0 := funext fun a => by fin_cases a <;> decide
  exact Memref.read_access_unit_zero (Elt F) main_arg13 hz' (fun a => by rw [congrFun hz' a]; simp) (V c main_arg13)
theorem blk2_4 (c : Dev nD) : (iblk2 V c 4 t2_0 : Vec F S128 .f32) = V c main_arg14 := by
  have hz' : (fun a => win2_4.index t2_0 a * main_arg14.ty.shape.size a) = fun _ => 0 := funext fun a => by fin_cases a; decide
  exact Memref.read_access_unit_zero (Elt F) main_arg14 hz' (fun a => by rw [congrFun hz' a]; simp) (V c main_arg14)

/-- The one write-back writes the body's store of the five whole arrays. -/
theorem flushed2_eq (c : Dev nD) (t : Fin cfg2.N) :
    (dat2 V c).flushed 5 t = ((cfg2.win 5).blk t).view.read (Elt F) (res2 V c) := by
  obtain rfl : t = t2_0 := fin_N2 t
  show (cfg2.win 5).cut (grid2.coords t2_0) ((dat2 V c).after 5 t2_0) = _
  rw [after2_5]
  unfold out2_5
  rw [View.canon_unit_zero hz2]
  simp only [View.ld_unit_zero (S := S128x128) hz2, View.ld_unit_zero (S := S384x128) hz2, View.ld_unit_zero (S := S128) hz1]
  rw [blk2_0, blk2_1, blk2_2, blk2_3, blk2_4]
  have hz' : (fun a => win2_5.index t2_0 a * main_v23.ty.shape.size a) = fun _ => 0 := funext fun a => by fin_cases a <;> decide
  exact (Memref.read_access_unit_zero (Elt F) main_v23 hz' (fun a => by rw [congrFun hz' a]; simp) (res2 V c)).symm

/-- The result array after the final region. -/
theorem final2 (c : Dev nD) : (dat2 V c).arrAt 5 cfg2.N = res2 V c :=
  (dat2 V c).arrAt_eq_of_cover 5 (res2 V c) (fun t _ => flushed2_eq V c t) fun i =>
    ⟨t2_0, flush2_5 t2_0, by
      show i ∈ ((View.whole main_v23).slice (win2_5.rect t2_0)).set
      rw [View.set_slice_whole, Rect.mem_set_unit]
      intro a
      have h0 : (i 0 : Nat) < 128 := (i 0).isLt
      have h1 : (i 1 : Nat) < 128 := (i 1).isLt
      match a with
      | ⟨0, _⟩ => show win2_5.index t2_0 0 * win2_5.size 0 ≤ (i 0 : Nat) ∧ (i 0 : Nat) < win2_5.index t2_0 0 * win2_5.size 0 + win2_5.xsize (grid2.coords t2_0) 0
                  rw [show win2_5.index t2_0 0 * win2_5.size 0 = 0 from by decide +kernel, show win2_5.xsize (grid2.coords t2_0) 0 = 128 from by decide +kernel]; omega
      | ⟨1, _⟩ => show win2_5.index t2_0 1 * win2_5.size 1 ≤ (i 1 : Nat) ∧ (i 1 : Nat) < win2_5.index t2_0 1 * win2_5.size 1 + win2_5.xsize (grid2.coords t2_0) 1
                  rw [show win2_5.index t2_0 1 * win2_5.size 1 = 0 from by decide +kernel, show win2_5.xsize (grid2.coords t2_0) 1 = 128 from by decide +kernel]; omega⟩

end Cert.KernelIdeal.Seg

end
-- ==== Proof.Glue2.lean ====
/-
  The arrays the final region finds, as functions of what came before: each aggregate is the sum over the two
  shards of its aggregation region's result array (a host reduce-add from zero), and the graphs' features, the
  weight matrix and the bias are as launched.  The edge aggregate is computed before the node region runs and is
  carried across it unchanged.
-/
import proofs.«419372_j26302379720747_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Seg

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ) (ρ : Dev nD → PrngReg)

/-- The aggregation regions' result arrays, at their literal type. -/
abbrev arrE (c : Dev nD) : Vec Ideal S2x128x128 .f32 := (dat0 (V7 m ρ) c).arrAt 5 cfg0.N
abbrev arrX (c : Dev nD) : Vec Ideal S2x128x128 .f32 := (dat1 (V13 m ρ) c).arrAt 5 cfg1.N
/-- The aggregates the final region finds, at their literal type. -/
abbrev xaggV (c : Dev nD) : Vec Ideal S128x128 .f32 := V15 m ρ c main_v22
abbrev eaggV (c : Dev nD) : Vec Ideal S128x128 .f32 := V15 m ρ c main_v16

/-- The host's sum over the shard axis from zero, at (`b`, `f`): the two shards' entries added. -/
theorem shardSum (x : Vec Ideal S2x128x128 .f32) (b f : Fin 128) :
    Host.reduceAdd x (constant (F := Ideal) S_ .f32 0x00000000#32) reducesTo_S2x128x128_S128x128_d0 h_S_ (ix2 b f)
      = ∑ s : Fin 2, x (ix3 s b f) := by
  simp only [Host.reduceAdd, Ideal.hostReduceAdd_def]
  rw [Ideal.hostReduceAdd_single reducesTo_S2x128x128_S128x128_d0 (by decide)]
  rw [show (constant (F := Ideal) S_ .f32 0x00000000#32) (Shape.Idx.first h_S_) = 0 from Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-- The node aggregate the final region finds: the node region's result array summed over its shards. -/
theorem xagg_at (c : Dev nD) (b f : Fin 128) :
    xaggV m ρ c (ix2 b f) = ∑ s : Fin 2, arrX m ρ c (ix3 s b f) := by
  have h5 : W14 m ρ c (Proc.devRef .tc main_v21) = (dat1 (V13 m ρ) c).arrAt 5 cfg1.N := W14_arr m ρ c 5
  have e : xaggV m ρ c
      = Host.reduceAdd (arrX m ρ c) (constant (F := Ideal) S_ .f32 0x00000000#32) reducesTo_S2x128x128_S128x128_d0 h_S_ := by
    have e0 : (W15 m ρ c (Proc.devRef .tc main_v22) : Vec Ideal S128x128 .f32)
        = Host.reduceAdd (W14 m ρ c (Proc.devRef .tc main_v21) : Vec Ideal S2x128x128 .f32) (constant (F := Ideal) S_ .f32 0x00000000#32) reducesTo_S2x128x128_S128x128_d0 h_S_ := by
      show StableHlo.after hostOps2 (W14 m ρ c) (Proc.devRef .tc main_v22) = _
      after_results
    exact e0.trans (congrArg (fun x : Vec Ideal S2x128x128 .f32 => Host.reduceAdd (x : Vec Ideal S2x128x128 .f32) (constant (F := Ideal) S_ .f32 0x00000000#32) reducesTo_S2x128x128_S128x128_d0 h_S_) h5)
  rw [e, shardSum]

/-- The edge aggregate the final region finds: the edge region's result array summed over its shards, carried
    unchanged across the node region and the host operations around it. -/
theorem eagg_at (c : Dev nD) (b f : Fin 128) :
    eaggV m ρ c (ix2 b f) = ∑ s : Fin 2, arrE m ρ c (ix3 s b f) := by
  have h5 : W8 m ρ c (Proc.devRef .tc main_v15) = (dat0 (V7 m ρ) c).arrAt 5 cfg0.N := W8_arr m ρ c 5
  have carry : W15 m ρ c (Proc.devRef .tc main_v16) = W9 m ρ c (Proc.devRef .tc main_v16) :=
    calc W15 m ρ c (Proc.devRef .tc main_v16)
      _ = W14 m ρ c (Proc.devRef .tc main_v16) := StableHlo.after_of_forall_not_mem (b := Proc.devRef .tc main_v16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W13 m ρ c (Proc.devRef .tc main_v16) := W14_of_ne m ρ c main_v16 (by decide)
      _ = W12 m ρ c (Proc.devRef .tc main_v16) := StableHlo.after_of_forall_not_mem (b := Proc.devRef .tc main_v16) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W11 m ρ c (Proc.devRef .tc main_v16) := StableHlo.after_of_forall_not_mem (b := Proc.devRef .tc main_v16) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W10 m ρ c (Proc.devRef .tc main_v16) := StableHlo.after_of_forall_not_mem (b := Proc.devRef .tc main_v16) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W9 m ρ c (Proc.devRef .tc main_v16) := StableHlo.after_of_forall_not_mem (b := Proc.devRef .tc main_v16) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e : eaggV m ρ c
      = Host.reduceAdd (arrE m ρ c) (constant (F := Ideal) S_ .f32 0x00000000#32) reducesTo_S2x128x128_S128x128_d0 h_S_ := by
    have e0 : (W9 m ρ c (Proc.devRef .tc main_v16) : Vec Ideal S128x128 .f32)
        = Host.reduceAdd (W8 m ρ c (Proc.devRef .tc main_v15) : Vec Ideal S2x128x128 .f32) (constant (F := Ideal) S_ .f32 0x00000000#32) reducesTo_S2x128x128_S128x128_d0 h_S_ := by
      show StableHlo.after hostOps1 (W8 m ρ c) (Proc.devRef .tc main_v16) = _
      after_results
    exact (carry.trans e0).trans (congrArg (fun x : Vec Ideal S2x128x128 .f32 => Host.reduceAdd (x : Vec Ideal S2x128x128 .f32) (constant (F := Ideal) S_ .f32 0x00000000#32) reducesTo_S2x128x128_S128x128_d0 h_S_) h5)
  rw [e, shardSum]

/-- The graphs' features, the weight matrix and the bias the final region finds are as launched. -/
theorem u_at (c : Dev nD) : V15 m ρ c main_arg2 = m ((c : Thread nD τ).loc main_arg2) :=
  ((W16_arr m ρ c 2).trans (((dat2 (V15 m ρ) c).arrAt_in 2 rfl _).trans (A_eq2 (V15 m ρ) c 2))).symm.trans (W16_main_arg2 m ρ c)
theorem wu_at (c : Dev nD) : V15 m ρ c main_arg13 = m ((c : Thread nD τ).loc main_arg13) :=
  ((W16_arr m ρ c 3).trans (((dat2 (V15 m ρ) c).arrAt_in 3 rfl _).trans (A_eq2 (V15 m ρ) c 3))).symm.trans (W16_main_arg13 m ρ c)
theorem bu_at (c : Dev nD) : V15 m ρ c main_arg14 = m ((c : Thread nD τ).loc main_arg14) :=
  ((W16_arr m ρ c 4).trans (((dat2 (V15 m ρ) c).arrAt_in 4 rfl _).trans (A_eq2 (V15 m ρ) c 4))).symm.trans (W16_main_arg14 m ρ c)

end Cert.KernelIdeal.Seg

end
-- ==== Proof.Spec.lean ====
/-
  The mathematics both programs compute, as plain functions over finite index ranges.

  A graph network's global update: every edge (and every node) carries a feature row; a row is assigned to a graph
  by an integer id; its gate is the logistic of the inner product of its key projection with its graph's query
  projection; each graph sums its rows weighted by their gates; the two aggregates and the graphs' own features are
  concatenated and passed through one affine layer.  A row whose id is not a graph number contributes nothing.
  An edge's id is read from the node table at the edge's source index, a negative index counting from the end and
  the index then clamped into the table.
-/
import Idealize.ShloMosaic.PureOps.Ideal
import Mathlib.Algebra.BigOperators.Fin

noncomputable section

namespace Cert.SegAttn

open Idealize.ShloMosaic

/-- A row's gate against a query row: the logistic of the inner product over the 64 head coordinates of the row's key
    projection (an affine map of its 128 features) with the query. -/
def gate (x : Fin 128 → EReal) (Wk : Fin 128 → Fin 64 → EReal) (bk : Fin 64 → EReal) (q : Fin 64 → EReal) : EReal :=
  Ideal.logistic (∑ h : Fin 64, (∑ f : Fin 128, x f * Wk f h + bk h) * q h)

/-- What a row with id `id` adds to graph `b`'s aggregate at feature `f`: its gated feature if the id is `b`, else
    nothing. -/
def term (x : Fin 128 → EReal) (id : BitVec 32) (Wk : Fin 128 → Fin 64 → EReal) (bk : Fin 64 → EReal)
    (Q : Fin 128 → Fin 64 → EReal) (b f : Fin 128) : EReal :=
  if id.toInt = (b.val : ℤ) then gate x Wk bk (Q b) * x f else 0

/-- Graph `b`'s aggregate at feature `f` over `L` rows. -/
def agg {L : ℕ} (X : Fin L → Fin 128 → EReal) (ids : Fin L → BitVec 32) (Wk : Fin 128 → Fin 64 → EReal)
    (bk : Fin 64 → EReal) (Q : Fin 128 → Fin 64 → EReal) (b f : Fin 128) : EReal :=
  ∑ i : Fin L, term (X i) (ids i) Wk bk Q b f

/-- The graphs' query rows: an affine map of the graphs' 128 features to the 64 head coordinates. -/
def qproj (u : Fin 128 → Fin 128 → EReal) (Wq : Fin 128 → Fin 64 → EReal) (bq : Fin 64 → EReal)
    (b : Fin 128) (h : Fin 64) : EReal :=
  ∑ k : Fin 128, u b k * Wq k h + bq h

/-- The three 128-wide blocks side by side. -/
def cat (xa ea u : Fin 128 → Fin 128 → EReal) (b : Fin 128) (k : Fin 384) : EReal :=
  if h1 : k.val < 128 then xa b ⟨k.val, h1⟩
  else if h2 : k.val < 256 then ea b ⟨k.val - 128, by omega⟩
  else u b ⟨k.val - 256, by have := k.isLt; omega⟩

/-- The affine layer on the concatenation. -/
def out (xa ea u : Fin 128 → Fin 128 → EReal) (Wu : Fin 384 → Fin 128 → EReal) (bu : Fin 128 → EReal)
    (b o : Fin 128) : EReal :=
  ∑ k : Fin 384, cat xa ea u b k * Wu k o + bu o

/-- A signed index into a table of `n` entries, a negative one counting from the end. -/
def wrapIdx (n : ℕ) (s : BitVec 32) : ℤ := if s.toInt < 0 then s.toInt + n else s.toInt

/-- The table read at a signed index, wrapped and then clamped into the table. -/
def takeAt {n : ℕ} (hn : 0 < n) (tbl : Fin n → BitVec 32) (s : BitVec 32) : BitVec 32 :=
  tbl ⟨min (wrapIdx n s).toNat (n - 1), by omega⟩

/-- The whole update: node aggregate, edge aggregate (an edge's graph is its source node's), the graphs' features,
    one affine layer. -/
def result (x : Fin 100000 → Fin 128 → EReal) (e : Fin 1600000 → Fin 128 → EReal) (u : Fin 128 → Fin 128 → EReal)
    (src : Fin 1600000 → BitVec 32) (batch : Fin 100000 → BitVec 32)
    (Wk_e : Fin 128 → Fin 64 → EReal) (bk_e : Fin 64 → EReal) (Wq_e : Fin 128 → Fin 64 → EReal) (bq_e : Fin 64 → EReal)
    (Wk_x : Fin 128 → Fin 64 → EReal) (bk_x : Fin 64 → EReal) (Wq_x : Fin 128 → Fin 64 → EReal) (bq_x : Fin 64 → EReal)
    (Wu : Fin 384 → Fin 128 → EReal) (bu : Fin 128 → EReal) (b o : Fin 128) : EReal :=
  out (agg x batch Wk_x bk_x (qproj u Wq_x bq_x))
    (agg e (fun i => takeAt (by decide : 0 < 100000) batch (src i)) Wk_e bk_e (qproj u Wq_e bq_e))
    u Wu bu b o

end Cert.SegAttn

end
-- ==== Proof.Arrays.lean ====
/-
  Names for the arrays the three kernel regions read, at their literal types, and for the position of a tile's row
  in the padded row range.

  The edge region runs over 2 shards of 196 tiles of 4096 rows (1605632 rows, of which the first 1600000 are edges);
  the node region over 2 shards of 25 tiles of 2048 rows (102400 rows, of which the first 100000 are nodes).
-/
import proofs.«419372_j26302379720747_1_alg».proof.KernelIdeal
import proofs.«419372_j26302379720747_1_alg».proof.Proof.Spec
import Idealize.ShloMosaic.Lib.ValueIdx

noncomputable section

namespace Cert.KernelIdeal.Seg

open Idealize.ShloMosaic Idealize.ShloMosaic.TcCoe Idealize.SL.Sem Idealize.ShloMosaic.ValueIdx Cert.KernelIdeal

variable (V : (c : Dev nD) → (b : Ref sig .tc) → Buf (Elt Ideal) ((c : Thread nD τ).loc b))

/-- The edge region's arrays as it finds them: padded edge features, padded graph ids, key weights, key bias, the
    graphs' query rows. -/
abbrev featE (c : Dev nD) : Vec Ideal S1605632x128 .f32 := V c main_v11
abbrev idsE (c : Dev nD) : Vec Ideal S1605632 .i32 := V c main_v12
abbrev wkE (c : Dev nD) : Vec Ideal S128x64 .bf16 := V c main_v13
abbrev bkE (c : Dev nD) : Vec Ideal S64 .f32 := V c main_arg6
abbrev qE (c : Dev nD) : Vec Ideal S128x64 .bf16 := V c main_v14

/-- The node region's arrays as it finds them. -/
abbrev featX (c : Dev nD) : Vec Ideal S102400x128 .f32 := V c main_v17
abbrev idsX (c : Dev nD) : Vec Ideal S102400 .i32 := V c main_v18
abbrev wkX (c : Dev nD) : Vec Ideal S128x64 .bf16 := V c main_v19
abbrev bkX (c : Dev nD) : Vec Ideal S64 .f32 := V c main_arg10
abbrev qX (c : Dev nD) : Vec Ideal S128x64 .bf16 := V c main_v20

/-- Row `r` of tile `j` of shard `s`, among the padded edge rows. -/
def rowE (s : Fin 2) (j : Fin 196) (r : Fin 4096) : Fin 1605632 :=
  ⟨(s.val * 196 + j.val) * 4096 + r.val, by have := s.isLt; have := j.isLt; have := r.isLt; omega⟩

/-- Row `r` of tile `j` of shard `s`, among the padded node rows. -/
def rowX (s : Fin 2) (j : Fin 25) (r : Fin 2048) : Fin 102400 :=
  ⟨(s.val * 25 + j.val) * 2048 + r.val, by have := s.isLt; have := j.isLt; have := r.isLt; omega⟩

/-- One padded edge row's contribution to graph `b` at feature `f`. -/
def termE (c : Dev nD) (n : Fin 1605632) (b f : Fin 128) : EReal :=
  Cert.SegAttn.term (fun f' => featE V c (ix2 n f')) (idsE V c (ix1 n)) (fun f' h => wkE V c (ix2 f' h))
    (fun h => bkE V c (ix1 h)) (fun b' h => qE V c (ix2 b' h)) b f

/-- One padded node row's contribution to graph `b` at feature `f`. -/
def termX (c : Dev nD) (n : Fin 102400) (b f : Fin 128) : EReal :=
  Cert.SegAttn.term (fun f' => featX V c (ix2 n f')) (idsX V c (ix1 n)) (fun f' h => wkX V c (ix2 f' h))
    (fun h => bkX V c (ix1 h)) (fun b' h => qX V c (ix2 b' h)) b f

end Cert.KernelIdeal.Seg

end
-- ==== Proof.Take.lean ====
/-
  The kernel's read of each edge's graph id.

  The kernel reads the node table at the edge's source index through a take that wraps a negative index, checks the
  wrapped index against the table's range and fills an index outside it with the least 32-bit integer; the reference
  reads the table at the wrapped index clamped into range.  The two agree exactly when the source index lies in
  [-100000, 100000), which is what the precondition's last conjunct states of every edge.
-/
import proofs.«419372_j26302379720747_1_alg».proof.Defs
import proofs.«419372_j26302379720747_1_alg».proof.Proof.Gen.KernelIdeal
import proofs.«419372_j26302379720747_1_alg».proof.Proof.Gen.Pre_finite_inputs
import proofs.«419372_j26302379720747_1_alg».proof.Proof.Spec
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Seg

open Idealize.ShloMosaic Idealize.ShloMosaic.TcCoe Idealize.SL.Sem Idealize.ShloMosaic.ValueIdx Cert.KernelIdeal Cert.KernelIdeal.Gen

/-- Row 0 of the edge index array: every edge's source node. -/
def srcOf (x3 : IVec S2x1600000 32) : IVec S1600000 32 :=
  shapeCast S1600000 (extractStridedSlice S1x1600000 ![0, 0] x3 slices_S2x1600000_S1x1600000_0_0) shapeCasts_S1x1600000_S1600000

/-- The source indices with a negative one counted from the end of the 100000-entry table, as a column. -/
def wrappedCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The kernel's take of the node table `x4` at the source indices `src`: in range, the table's entry; out of range,
    the least 32-bit integer. -/
def takeK (x4 : IVec S100000 32) (src : IVec S1600000 32) : IVec S1600000 32 :=
  select
    (Host.reduce IntOp.andi
      (andi (cmpi .sge (wrappedCol src) (broadcastInDim S1600000x1 ![] bcast_S_S1600000x1 (constantI S_ 32 0#32)))
        (cmpi .sle (wrappedCol src)
          (broadcastInDim S1600000x1 ![0, 1] bcast_S1x1_S1600000x1_0_1
            (broadcastInDim S1x1 ![1] bcast_S1_S1x1_1 (constantI S1 32 99999#32)))))
      (constantI S_ 1 1#1) reducesTo_S1600000x1_S1600000_d1 h_S_)
    (Host.gather gather_S100000_S1600000x1_S1600000_n_0_n_n_0_1_1 x4 (wrappedCol src))
    (broadcastInDim S1600000 ![] bcast_S_S1600000 (constantI S_ 32 2147483648#32))

/-! ## Indices -/

/-- The rank-1 index built from a coordinate, in its two spellings. -/
theorem Take_ix1_eq_ofFin {n : Nat} (p : Fin n) : (ix1 p : (⟨1, ![n]⟩ : Shape).Idx) = Shape.Idx.ofFin p := by
  funext d
  match d with
  | ⟨0, _⟩ => exact Fin.ext rfl

/-- Every index of an [n × 1] column is its row, column 0. -/
theorem Take_eq_ixP {n : Nat} (k : (⟨2, ![n, 1]⟩ : Shape).Idx) : k = StableHlo.Predicate.ixP (k 0) := by
  funext d
  match d with
  | ⟨0, _⟩ => rfl
  | ⟨1, _⟩ =>
    apply Fin.ext
    have h : (k 1).val < 1 := (k 1).isLt
    show (k 1).val = 0
    omega

/-! ## Row 0 of a [2 × 1600000] array: a slice, then a reshape -/

/-- The slice of row 0 reshaped to a vector reads, at position i, the array at (0, i); whatever the proofs of the two
    shape conditions. -/
theorem Take_row0_apply {α : Type} (x3 : (⟨2, ![2, 1600000]⟩ : Shape).Idx → α)
    (hs : (⟨2, ![2, 1600000]⟩ : Shape).Slices ![0, 0] ⟨2, ![1, 1600000]⟩)
    (hc : (⟨2, ![1, 1600000]⟩ : Shape).ShapeCasts ⟨1, ![1600000]⟩) (i : Fin 1600000) :
    shapeCast (⟨1, ![1600000]⟩ : Shape) (extractStridedSlice (⟨2, ![1, 1600000]⟩ : Shape) ![0, 0] x3 hs) hc (ix1 i)
      = x3 (ix2 (0 : Fin 2) i) := by
  refine (shapeCast_apply _ hc (ix1 i) (ix2 (0 : Fin 1) i) ?_).trans ?_
  · rw [Shape.rowMajor_val_two, Shape.rowMajor_val_one]
    show 0 * 1600000 + i.val = i.val
    omega
  · exact extractStridedSlice_apply ![0, 0] x3 hs (ix2 (0 : Fin 1) i) (ix2 (0 : Fin 2) i) (fun a => match a with
      | ⟨0, _⟩ => by show (0 : Nat) = 0 + 0; rfl
      | ⟨1, _⟩ => by show i.val = 0 + i.val; omega)

/-- Row 0 of the edge index array, entry by entry. -/
theorem srcOf_apply (x3 : IVec S2x1600000 32) (i : Fin 1600000) : srcOf x3 (ix1 i) = x3 (ix2 (0 : Fin 2) i) := by
  unfold srcOf
  exact Take_row0_apply x3 _ _ i

/-! ## The wrapped index word -/

/-- A source index in [-100000, 100000), a negative one moved up by 100000: the word's signed value is the wrapped
    index (the addition does not leave the 32-bit range, the index being negative there). -/
theorem Take_wrap_word (s : BitVec 32) (hlo : -100000 ≤ s.toInt) (hhi : s.toInt < 100000) :
    (Scalar.select (IntOp.cmpi .slt s 0#32) (IntOp.addi s 100000#32) s).toInt = Cert.SegAttn.wrapIdx 100000 s := by
  have h0 : (0#32 : BitVec 32).toInt = 0 := by decide
  have hk : (100000#32 : BitVec 32).toInt = 100000 := by decide
  unfold Cert.SegAttn.wrapIdx
  by_cases h : s.toInt < 0
  · have hc : IntOp.cmpi .slt s 0#32 = 1#1 := IntOp.cmpi_slt.2 (by rw [h0]; exact h)
    rw [hc, select_one, if_pos h]
    show (s + 100000#32).toInt = _
    rw [BitVec.toInt_add, hk]
    have hb : (s.toInt + 100000).bmod (2 ^ 32) = s.toInt + 100000 := Int.bmod_eq_of_le (by omega) (by omega)
    rw [hb]
    omega
  · have hc : IntOp.cmpi .slt s 0#32 = 0#1 :=
      eq_zero_of_ne_one (fun e => h (by have h1 := IntOp.cmpi_slt.1 e; rw [h0] at h1; exact h1))
    rw [hc, select_zero, if_neg h]

/-- The wrapped index lies in the table. -/
theorem Take_wrapIdx_range (s : BitVec 32) (hlo : -100000 ≤ s.toInt) (hhi : s.toInt < 100000) :
    0 ≤ Cert.SegAttn.wrapIdx 100000 s ∧ Cert.SegAttn.wrapIdx 100000 s ≤ 99999 := by
  unfold Cert.SegAttn.wrapIdx
  split <;> constructor <;> omega

/-- The column of wrapped indices read at a row. -/
theorem Take_wrappedCol_apply (src : IVec S1600000 32) (p : Fin 1600000) :
    wrappedCol src (StableHlo.Predicate.ixP p)
      = Scalar.select (IntOp.cmpi .slt (src (ix1 p)) 0#32) (IntOp.addi (src (ix1 p)) 100000#32) (src (ix1 p)) := by
  unfold wrappedCol
  refine (StableHlo.Predicate.bcast_col1 bcast_S1600000_S1600000x1_0 _ p).trans ?_
  rw [← Take_ix1_eq_ofFin]
  rfl

/-! ## A reduction by "and" of ones is one -/

/-- A fold by "and" from 1 over words that are all 1 is 1. -/
theorem Take_fold_andi_eq_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons_of_mem hi))]
    rfl

/-- A reduction by "and" from 1 is 1 at a result index when every operand element reducing into it is 1. -/
theorem Take_reduce_andi_eq_one_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_fold, hinit]
  exact Take_fold_andi_eq_one _ _ (fun i hi => hx i (Finset.mem_filter.1 hi).2)

/-! ## The take -/

/-- Inside the table's signed range the kernel's take is the table read at the wrapped, clamped index. -/
theorem takeK_apply (x4 : IVec S100000 32) (src : IVec S1600000 32) (i : Fin 1600000)
    (hlo : -100000 ≤ (src (ix1 i)).toInt) (hhi : (src (ix1 i)).toInt < 100000) :
    takeK x4 src (ix1 i) = Cert.SegAttn.takeAt (by decide : 0 < 100000) (fun n => x4 (ix1 n)) (src (ix1 i)) := by
  have hW := Take_wrap_word (src (ix1 i)) hlo hhi
  have hR := Take_wrapIdx_range (src (ix1 i)) hlo hhi
  have hWc : (wrappedCol src (StableHlo.Predicate.ixP i)).toInt = Cert.SegAttn.wrapIdx 100000 (src (ix1 i)) := by
    rw [Take_wrappedCol_apply]; exact hW
  -- the range check is 1 at edge i: the one row reducing into i is row i, whose wrapped index is in [0, 99999]
  have hc : Host.reduce IntOp.andi
      (andi (cmpi .sge (wrappedCol src) (broadcastInDim S1600000x1 ![] bcast_S_S1600000x1 (constantI S_ 32 0#32)))
        (cmpi .sle (wrappedCol src)
          (broadcastInDim S1600000x1 ![0, 1] bcast_S1x1_S1600000x1_0_1
            (broadcastInDim S1x1 ![1] bcast_S1_S1x1_1 (constantI S1 32 99999#32)))))
      (constantI S_ 1 1#1) reducesTo_S1600000x1_S1600000_d1 h_S_ (ix1 i) = 1#1 := by
    refine Take_reduce_andi_eq_one_of_all _ _ _ _ _ rfl (fun k hk => ?_)
    have hk0 : k 0 = i := by
      apply Fin.ext
      have hv := Shape.ReducesTo.drop_apply_val_of_eq reducesTo_S1600000x1_S1600000_d1 k 0 0
      rw [hk] at hv
      exact hv.symm
    have hkP : k = StableHlo.Predicate.ixP i := by rw [← hk0]; exact Take_eq_ixP k
    subst hkP
    show IntOp.andi (IntOp.cmpi .sge (wrappedCol src (StableHlo.Predicate.ixP i)) 0#32)
      (IntOp.cmpi .sle (wrappedCol src (StableHlo.Predicate.ixP i)) 99999#32) = 1#1
    refine IntOp.andi_eq_one.2 ⟨IntOp.cmpi_sge.2 ?_, IntOp.cmpi_sle.2 ?_⟩
    · rw [hWc, show (0#32 : BitVec 32).toInt = 0 from by decide]; exact hR.1
    · rw [hWc, show (99999#32 : BitVec 32).toInt = 99999 from by decide]; exact hR.2
  unfold takeK
  rw [select_apply, hc, select_one]
  refine ((congrArg (Host.gather gather_S100000_S1600000x1_S1600000_n_0_n_n_0_1_1 x4 (wrappedCol src))
    (Take_ix1_eq_ofFin i)).trans (StableHlo.Predicate.gather_take gather_S100000_S1600000x1_S1600000_n_0_n_n_0_1_1
      rfl rfl rfl rfl x4 (wrappedCol src) i (by decide))).trans ?_
  unfold Cert.SegAttn.takeAt
  refine congrArg x4 ?_
  funext d
  match d with
  | ⟨0, _⟩ =>
    apply Fin.ext
    show min (wrappedCol src (StableHlo.Predicate.ixP i)).toInt.toNat (100000 - 1)
      = min (Cert.SegAttn.wrapIdx 100000 (src (ix1 i))).toNat (100000 - 1)
    rw [hWc]

/-! ## The precondition's index range -/

/-- The precondition's last conjunct, read: every edge's source index lies in [-100000, 100000). -/
theorem range_of_pre (m : (ℓ : Loc nD τ sig) → Buf (Elt Ideal) ℓ) (hpre : Cert.Pre_KernelIdeal m) (c : Dev nD)
    (i : Fin 1600000) :
    -100000 ≤ (m ((c.tc : Thread nD τ).loc main_arg3) (ix2 (0 : Fin 2) i)).toInt
      ∧ (m ((c.tc : Thread nD τ).loc main_arg3) (ix2 (0 : Fin 2) i)).toInt < 100000 := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  -- the outermost "and": its right half is the all-edges reduction
  have h2 := (IntOp.andi_eq_one.1 h).2
  haveI : Subsingleton Cert.Pre_finite_inputs.S_.Idx := ⟨fun a b => funext fun d => d.elim0⟩
  have h3 := Host.reduce_andi_all _ _ _ _ _ h2 (ix1 i)
  obtain ⟨hge, hlt⟩ := IntOp.andi_eq_one.1 h3
  have hge' := IntOp.cmpi_sge.1 hge
  have hlt' := IntOp.cmpi_slt.1 hlt
  -- both copies of the source row read, at edge i, the index array at (0, i)
  have e1 := Take_row0_apply (α := BitVec 32) (m ((c.tc : Thread nD τ).loc main_arg3))
    Cert.Pre_finite_inputs.Gen.slices_S2x1600000_S1x1600000_0_0 Cert.Pre_finite_inputs.Gen.shapeCasts_S1x1600000_S1600000 i
  have hge'' : (4294867296#32 : BitVec 32).toInt
      ≤ (m ((c.tc : Thread nD τ).loc main_arg3) (ix2 (0 : Fin 2) i)).toInt := by
    rw [← e1]; exact hge'
  have hlt'' : (m ((c.tc : Thread nD τ).loc main_arg3) (ix2 (0 : Fin 2) i)).toInt
      < (100000#32 : BitVec 32).toInt := by
    rw [← e1]; exact hlt'
  -- the two bounds' words, read signed
  have hm : (4294867296#32 : BitVec 32).toInt = -100000 := by decide
  have hk : (100000#32 : BitVec 32).toInt = 100000 := by decide
  rw [hm] at hge''
  rw [hk] at hlt''
  exact ⟨hge'', hlt''⟩

end Cert.KernelIdeal.Seg

end
-- ==== Proof.GlueE.lean ====
/-
  The arrays the edge region finds, as functions of the program's arguments: the edge features padded with zero
  rows, the edges' graph ids (the take of the node table at the source indices) padded, the key weights and bias
  unchanged (a change of float format is the identity), and the graphs' query rows, an affine map of their features.
-/
import proofs.«419372_j26302379720747_1_alg».proof.Proof.Gen.KernelIdeal.Frame
import proofs.«419372_j26302379720747_1_alg».proof.Proof.Arrays
import proofs.«419372_j26302379720747_1_alg».proof.Proof.Take
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

noncomputable section

namespace Cert.KernelIdeal.Seg

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-! ## A buffer that a stretch of host operations does not write -/

/-- A buffer that no operation of a stretch writes holds after the stretch what it held before it. -/
local macro "glueE_kept " b:term " across " ops:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## What each stretch writes, from any contents before it -/

/-- Row 0 of the edge index array, flattened: the source indices. -/
private theorem GlueE_src_host (V : Valuation τ sig (Elt Ideal)) :
    StableHlo.after hostOps0 V (Proc.devRef .tc main_v1) = srcOf (V (Proc.devRef .tc main_arg3)) := by
  after_results <;> rfl

/-- Carrying a value along an equation of types and back along its converse gives the value. -/
private theorem GlueE_cast_cast {A B : Type} (h : A = B) (h' : B = A) (v : B) : cast h (cast h' v) = v := by
  cases h; rfl

/-- The take of the node table at the source indices: the operations' composed term, each value read at its own
    type, is the term of the definition. -/
private theorem GlueE_take_host (V : Valuation τ sig (Elt Ideal)) :
    StableHlo.after hostOps0_1 V (Proc.devRef .tc main_v2)
      = takeK (V (Proc.devRef .tc main_arg4)) (V (Proc.devRef .tc main_v1)) := by
  have e1 : (StableHlo.TRef.of main_v1 : StableHlo.TRef sig ⟨S1600000, .i32⟩).ofBuf (V (Proc.devRef .tc main_v1))
      = V (Proc.devRef .tc main_v1) := rfl
  have e4 : (StableHlo.TRef.of main_arg4 : StableHlo.TRef sig ⟨S100000, .i32⟩).ofBuf (V (Proc.devRef .tc main_arg4))
      = V (Proc.devRef .tc main_arg4) := rfl
  have e2 : ∀ v : (⟨S1600000, .i32⟩ : BufTy).Contents (Elt Ideal),
      (StableHlo.TRef.of main_v2 : StableHlo.TRef sig ⟨S1600000, .i32⟩).toBuf v = v := fun _ => rfl
  after_results_simp
  simp only [e1, e4, e2]
  simp only [StableHlo.TRef.ofBuf, StableHlo.TRef.toBuf, GlueE_cast_cast]
  unfold takeK wrappedCol
  rfl

/-- The host's affine map of the graphs' features to the head coordinates: a contraction over the 128 features plus
    the bias laid along every row. -/
private def GlueE_qHost (u : FVec Ideal S128x128 .f32) (Wq : FVec Ideal S128x64 .f32) (bq : FVec Ideal S64 .f32) :
    FVec Ideal S128x64 .f32 :=
  addf (Host.dotGeneral (F := Ideal) dot_S128x128_S128x64_S128x64_1_0_0_1_n_n none u Wq)
    (broadcastInDim S128x64 ![0, 1] bcast_S1x64_S128x64_0_1 (broadcastInDim S1x64 ![1] bcast_S64_S1x64_1 bq))

/-- The edge attention's query rows before the change of format. -/
private theorem GlueE_q_host (V : Valuation τ sig (Elt Ideal)) :
    StableHlo.after hostOps0_2 V (Proc.devRef .tc main_v6)
      = GlueE_qHost (V (Proc.devRef .tc main_arg2)) (V (Proc.devRef .tc main_arg7)) (V (Proc.devRef .tc main_arg8)) := by
  after_results <;> rfl

/-- The integer zero that is converted into the features' padding value. -/
private theorem GlueE_zero_host (V : Valuation τ sig (Elt Ideal)) :
    StableHlo.after hostOps0_2 V (Proc.devRef .tc main_c) = (constantI S_ 32 0#32 : IVec S_ 32) := by
  after_results <;> rfl

/-- The edge features with 5632 rows of the converted integer appended. -/
private theorem GlueE_feat_host (V : Valuation τ sig (Elt Ideal)) :
    StableHlo.after hostOps0_3 V (Proc.devRef .tc main_v11)
      = pad (s := S1600000x128) S1605632x128 ![0, 0] ![5632, 0] ![0, 0] (V (Proc.devRef .tc main_arg1))
          (sitofp (F := Ideal) .f32 (V (Proc.devRef .tc main_c) : IVec S_ 32))
          pads_S1600000x128_S1605632x128_056320_000 h_S_ := by
  after_results <;> rfl

/-- The edges' ids with 5632 entries of an integer constant appended. -/
private theorem GlueE_ids_host (V : Valuation τ sig (Elt Ideal)) :
    StableHlo.after hostOps0_5 V (Proc.devRef .tc main_v12)
      = pad (s := S1600000) S1605632 ![0] ![5632] ![0] (V (Proc.devRef .tc main_v2))
          (V (Proc.devRef .tc main_c_0) : IVec S_ 32) pads_S1600000_S1605632_056320 h_S_ := by
  after_results <;> rfl

/-- The key weights in the narrower float format. -/
private theorem GlueE_wk_host (V : Valuation τ sig (Elt Ideal)) :
    StableHlo.after hostOps0_6 V (Proc.devRef .tc main_v13)
      = truncf (F := Ideal) .bf16 (V (Proc.devRef .tc main_arg5) : FVec Ideal S128x64 .f32) bitsLt_bf16_f32 := by
  after_results <;> rfl

/-- The query rows in the narrower float format. -/
private theorem GlueE_qtrunc_host (V : Valuation τ sig (Elt Ideal)) :
    StableHlo.after hostOps0_6 V (Proc.devRef .tc main_v14)
      = truncf (F := Ideal) .bf16 (V (Proc.devRef .tc main_v6) : FVec Ideal S128x64 .f32) bitsLt_bf16_f32 := by
  after_results <;> rfl

/-! ## The host's affine map read at an index -/

private theorem GlueE_lhs_0 (i : S128x64.Idx) (q : dot_S128x128_S128x64_S128x64_1_0_0_1_n_n.contr.Idx) :
    (dot_S128x128_S128x64_S128x64_1_0_0_1_n_n.lhsIdx i q 0).val = (i 0).val := by
  unfold DotDims.lhsIdx
  rw [dif_neg (show ¬(0 : Fin S128x128.rank) ∈ dot_S128x128_S128x64_S128x64_1_0_0_1_n_n.lhsBatch by decide), dif_pos (show (0 : Fin S128x128.rank) ∈ dot_S128x128_S128x64_S128x64_1_0_0_1_n_n.lhsNonContracting by decide)]
  rfl
private theorem GlueE_lhs_1 (i : S128x64.Idx) (q : dot_S128x128_S128x64_S128x64_1_0_0_1_n_n.contr.Idx) :
    (dot_S128x128_S128x64_S128x64_1_0_0_1_n_n.lhsIdx i q 1).val = (q ⟨0, by decide⟩).val :=
  dot_S128x128_S128x64_S128x64_1_0_0_1_n_n.lhsIdx_val_of_single rfl i q
private theorem GlueE_rhs_0 (i : S128x64.Idx) (q : dot_S128x128_S128x64_S128x64_1_0_0_1_n_n.contr.Idx) :
    (dot_S128x128_S128x64_S128x64_1_0_0_1_n_n.rhsIdx i q 0).val = (q ⟨0, by decide⟩).val :=
  dot_S128x128_S128x64_S128x64_1_0_0_1_n_n.rhsIdx_val_of_single rfl i q
private theorem GlueE_rhs_1 (i : S128x64.Idx) (q : dot_S128x128_S128x64_S128x64_1_0_0_1_n_n.contr.Idx) :
    (dot_S128x128_S128x64_S128x64_1_0_0_1_n_n.rhsIdx i q 1).val = (i 1).val := by
  unfold DotDims.rhsIdx
  rw [dif_neg (show ¬(1 : Fin S128x64.rank) ∈ dot_S128x128_S128x64_S128x64_1_0_0_1_n_n.rhsBatch by decide), dif_pos (show (1 : Fin S128x64.rank) ∈ dot_S128x128_S128x64_S128x64_1_0_0_1_n_n.rhsNonContracting by decide)]
  rfl

/-- Entry (b, h) of the host's affine map: the sum over the 128 features of graph b's feature times the weight into
    head coordinate h, plus the bias at h. -/
private theorem GlueE_qHost_apply (u : FVec Ideal S128x128 .f32) (Wq : FVec Ideal S128x64 .f32) (bq : FVec Ideal S64 .f32)
    (b : Fin 128) (h : Fin 64) :
    GlueE_qHost u Wq bq (ix2 b h) = ∑ k : Fin 128, u (ix2 b k) * Wq (ix2 k h) + bq (ix1 h) := by
  unfold GlueE_qHost
  refine (addf_apply _ _ _).trans ?_
  refine congrArg₂ (· + ·) ?_ ?_
  · simp only [Host.dotGeneral]
    rw [Ideal.dotGeneral_apply, ← Equiv.sum_comp (contrEquiv1 dot_S128x128_S128x64_S128x64_1_0_0_1_n_n 128 rfl rfl).symm]
    refine Finset.sum_congr rfl fun k _ => ?_
    have hk := contrEquiv1_symm_val dot_S128x128_S128x64_S128x64_1_0_0_1_n_n 128 rfl rfl k
    have el : dot_S128x128_S128x64_S128x64_1_0_0_1_n_n.lhsIdx (ix2 b h) ((contrEquiv1 dot_S128x128_S128x64_S128x64_1_0_0_1_n_n 128 rfl rfl).symm k) = ix2 b k := funext fun a => Fin.ext (by
      match a with
      | ⟨0, _⟩ => exact GlueE_lhs_0 _ _
      | ⟨1, _⟩ => exact (GlueE_lhs_1 _ _).trans hk)
    have er : dot_S128x128_S128x64_S128x64_1_0_0_1_n_n.rhsIdx (ix2 b h) ((contrEquiv1 dot_S128x128_S128x64_S128x64_1_0_0_1_n_n 128 rfl rfl).symm k) = ix2 k h := funext fun a => Fin.ext (by
      match a with
      | ⟨0, _⟩ => exact (GlueE_rhs_0 _ _).trans hk
      | ⟨1, _⟩ => exact GlueE_rhs_1 _ _)
    rw [el, er]
  · refine (broadcastInDim_apply _ bcast_S1x64_S128x64_0_1 _ (ix2 b h) (ix2 (0 : Fin 1) h) (fun a => match a with
      | ⟨0, _⟩ => by show 0 = if (1 : Nat) = 1 then 0 else b.val; rw [if_pos rfl]
      | ⟨1, _⟩ => by show h.val = if (64 : Nat) = 1 then 0 else h.val; rw [if_neg (by decide)])).trans ?_
    exact broadcastInDim_apply _ bcast_S64_S1x64_1 bq (ix2 (0 : Fin 1) h) (ix1 h) (fun a => match a with
      | ⟨0, _⟩ => by show h.val = if (64 : Nat) = 1 then 0 else h.val; rw [if_neg (by decide)])

/-! ## The edge region's arrays as functions of the launch memory -/

/-- The padded edge features: the launched edge features with rows of the converted integer zero appended. -/
private theorem GlueE_featE_fun (c : Dev nD) :
    featE (V7 m ρ) c
      = pad (s := S1600000x128) S1605632x128 ![0, 0] ![5632, 0] ![0, 0] (m ((c.tc : Thread nD τ).loc main_arg1))
          (sitofp (F := Ideal) .f32 (constantI S_ 32 0#32 : IVec S_ 32))
          pads_S1600000x128_S1605632x128_056320_000 h_S_ := by
  have h1 : W3 m ρ c (Proc.devRef .tc main_arg1) = m ((c.tc : Thread nD τ).loc main_arg1) :=
    calc W3 m ρ c (Proc.devRef .tc main_arg1)
      _ = W2 m ρ c (Proc.devRef .tc main_arg1) := by glueE_kept main_arg1 across hostOps0_2
      _ = W1 m ρ c (Proc.devRef .tc main_arg1) := by glueE_kept main_arg1 across hostOps0_1
      _ = W0 m ρ c (Proc.devRef .tc main_arg1) := by glueE_kept main_arg1 across hostOps0
      _ = m ((c.tc : Thread nD τ).loc main_arg1) := rfl
  have h2 : W3 m ρ c (Proc.devRef .tc main_c) = (constantI S_ 32 0#32 : IVec S_ 32) := GlueE_zero_host (W2 m ρ c)
  calc featE (V7 m ρ) c
    _ = W6 m ρ c (Proc.devRef .tc main_v11) := by glueE_kept main_v11 across hostOps0_6
    _ = W5 m ρ c (Proc.devRef .tc main_v11) := by glueE_kept main_v11 across hostOps0_5
    _ = W4 m ρ c (Proc.devRef .tc main_v11) := by glueE_kept main_v11 across hostOps0_4
    _ = pad (s := S1600000x128) S1605632x128 ![0, 0] ![5632, 0] ![0, 0] (W3 m ρ c (Proc.devRef .tc main_arg1))
          (sitofp (F := Ideal) .f32 (W3 m ρ c (Proc.devRef .tc main_c) : IVec S_ 32))
          pads_S1600000x128_S1605632x128_056320_000 h_S_ := GlueE_feat_host (W3 m ρ c)
    _ = _ := by rw [h1, h2]

/-- The padded ids: the kernel's take of the launched node table at row 0 of the launched edge index array, with
    entries of an integer constant appended. -/
private theorem GlueE_idsE_fun (c : Dev nD) :
    idsE (V7 m ρ) c
      = pad (s := S1600000) S1605632 ![0] ![5632] ![0]
          (takeK (m ((c.tc : Thread nD τ).loc main_arg4)) (srcOf (m ((c.tc : Thread nD τ).loc main_arg3))))
          (W5 m ρ c (Proc.devRef .tc main_c_0) : IVec S_ 32) pads_S1600000_S1605632_056320 h_S_ := by
  have hv1 : W1 m ρ c (Proc.devRef .tc main_v1) = srcOf (m ((c.tc : Thread nD τ).loc main_arg3)) :=
    GlueE_src_host (W0 m ρ c)
  have ha4 : W1 m ρ c (Proc.devRef .tc main_arg4) = m ((c.tc : Thread nD τ).loc main_arg4) :=
    calc W1 m ρ c (Proc.devRef .tc main_arg4)
      _ = W0 m ρ c (Proc.devRef .tc main_arg4) := by glueE_kept main_arg4 across hostOps0
      _ = m ((c.tc : Thread nD τ).loc main_arg4) := rfl
  have hv2 : W5 m ρ c (Proc.devRef .tc main_v2)
      = takeK (m ((c.tc : Thread nD τ).loc main_arg4)) (srcOf (m ((c.tc : Thread nD τ).loc main_arg3))) :=
    calc W5 m ρ c (Proc.devRef .tc main_v2)
      _ = W4 m ρ c (Proc.devRef .tc main_v2) := by glueE_kept main_v2 across hostOps0_4
      _ = W3 m ρ c (Proc.devRef .tc main_v2) := by glueE_kept main_v2 across hostOps0_3
      _ = W2 m ρ c (Proc.devRef .tc main_v2) := by glueE_kept main_v2 across hostOps0_2
      _ = takeK (W1 m ρ c (Proc.devRef .tc main_arg4)) (W1 m ρ c (Proc.devRef .tc main_v1)) := GlueE_take_host (W1 m ρ c)
      _ = _ := by rw [ha4, hv1]
  calc idsE (V7 m ρ) c
    _ = W6 m ρ c (Proc.devRef .tc main_v12) := by glueE_kept main_v12 across hostOps0_6
    _ = pad (s := S1600000) S1605632 ![0] ![5632] ![0] (W5 m ρ c (Proc.devRef .tc main_v2))
          (W5 m ρ c (Proc.devRef .tc main_c_0) : IVec S_ 32) pads_S1600000_S1605632_056320 h_S_ := GlueE_ids_host (W5 m ρ c)
    _ = _ := by rw [hv2]

/-! ## The arrays read at an index -/

/-- A real edge row of the padded features is the edge's row. -/
theorem featE_in (c : Dev nD) (i : Fin 1600000) (f : Fin 128) :
    featE (V7 m ρ) c (ix2 (⟨i.val, by have := i.isLt; omega⟩ : Fin 1605632) f) = m ((c.tc : Thread nD τ).loc main_arg1) (ix2 i f) := by
  refine (congrFun (GlueE_featE_fun m ρ c) _).trans ?_
  exact pad_apply_of_inside _ _ _ _ _ pads_S1600000x128_S1605632x128_056320_000 h_S_ _ (ix2 i f) (fun a => by
    match a with
    | ⟨0, _⟩ => show i.val = 0 + i.val * (0 + 1); omega
    | ⟨1, _⟩ => show f.val = 0 + f.val * (0 + 1); omega)

/-- A padding row of the padded features is zero. -/
theorem featE_pad (c : Dev nD) (n : Fin 1605632) (hn : 1600000 ≤ n.val) (f : Fin 128) :
    featE (V7 m ρ) c (ix2 n f) = 0 := by
  refine (congrFun (GlueE_featE_fun m ρ c) _).trans ?_
  refine (pad_apply_of_not_inside _ _ _ _ _ pads_S1600000x128_S1605632x128_056320_000 h_S_ (ix2 n f) (0 : Fin 2)
    (fun hin => ?_)).trans ?_
  · have e : (n.val - 0) / (0 + 1) < 1600000 := hin.2.2
    omega
  · show ((((0#32 : BitVec 32).toInt : ℤ) : ℝ) : EReal) = 0
    simp

/-- A real edge's id is the kernel's take of the node table at the edge's source index. -/
theorem idsE_in (c : Dev nD) (i : Fin 1600000) :
    idsE (V7 m ρ) c (ix1 (⟨i.val, by have := i.isLt; omega⟩ : Fin 1605632))
      = takeK (m ((c.tc : Thread nD τ).loc main_arg4)) (srcOf (m ((c.tc : Thread nD τ).loc main_arg3))) (ix1 i) := by
  refine (congrFun (GlueE_idsE_fun m ρ c) _).trans ?_
  exact pad_apply_of_inside _ _ _ _ _ pads_S1600000_S1605632_056320 h_S_ _ (ix1 i) (fun a => by
    match a with
    | ⟨0, _⟩ => show i.val = 0 + i.val * (0 + 1); omega)

theorem wkE_eq (c : Dev nD) (f' : Fin 128) (h : Fin 64) :
    wkE (V7 m ρ) c (ix2 f' h) = m ((c.tc : Thread nD τ).loc main_arg5) (ix2 f' h) := by
  have e : wkE (V7 m ρ) c
      = truncf (F := Ideal) .bf16 (W6 m ρ c (Proc.devRef .tc main_arg5) : FVec Ideal S128x64 .f32) bitsLt_bf16_f32 :=
    GlueE_wk_host (W6 m ρ c)
  have e5 : W6 m ρ c (Proc.devRef .tc main_arg5) = m ((c.tc : Thread nD τ).loc main_arg5) :=
    calc W6 m ρ c (Proc.devRef .tc main_arg5)
      _ = W5 m ρ c (Proc.devRef .tc main_arg5) := by glueE_kept main_arg5 across hostOps0_5
      _ = W4 m ρ c (Proc.devRef .tc main_arg5) := by glueE_kept main_arg5 across hostOps0_4
      _ = W3 m ρ c (Proc.devRef .tc main_arg5) := by glueE_kept main_arg5 across hostOps0_3
      _ = W2 m ρ c (Proc.devRef .tc main_arg5) := by glueE_kept main_arg5 across hostOps0_2
      _ = W1 m ρ c (Proc.devRef .tc main_arg5) := by glueE_kept main_arg5 across hostOps0_1
      _ = W0 m ρ c (Proc.devRef .tc main_arg5) := by glueE_kept main_arg5 across hostOps0
      _ = m ((c.tc : Thread nD τ).loc main_arg5) := rfl
  refine (congrFun e (ix2 f' h)).trans ?_
  refine (truncf_apply (φ := .f32) (ψ := .bf16) _ bitsLt_bf16_f32 _).trans ?_
  exact congrFun e5 (ix2 f' h)

theorem bkE_eq (c : Dev nD) (h : Fin 64) :
    bkE (V7 m ρ) c (ix1 h) = m ((c.tc : Thread nD τ).loc main_arg6) (ix1 h) := by
  have e : bkE (V7 m ρ) c = m ((c.tc : Thread nD τ).loc main_arg6) :=
    calc bkE (V7 m ρ) c
      _ = W6 m ρ c (Proc.devRef .tc main_arg6) := by glueE_kept main_arg6 across hostOps0_6
      _ = W5 m ρ c (Proc.devRef .tc main_arg6) := by glueE_kept main_arg6 across hostOps0_5
      _ = W4 m ρ c (Proc.devRef .tc main_arg6) := by glueE_kept main_arg6 across hostOps0_4
      _ = W3 m ρ c (Proc.devRef .tc main_arg6) := by glueE_kept main_arg6 across hostOps0_3
      _ = W2 m ρ c (Proc.devRef .tc main_arg6) := by glueE_kept main_arg6 across hostOps0_2
      _ = W1 m ρ c (Proc.devRef .tc main_arg6) := by glueE_kept main_arg6 across hostOps0_1
      _ = W0 m ρ c (Proc.devRef .tc main_arg6) := by glueE_kept main_arg6 across hostOps0
      _ = m ((c.tc : Thread nD τ).loc main_arg6) := rfl
  exact congrFun e (ix1 h)

/-- The graphs' query rows for the edge attention. -/
theorem qE_eq (c : Dev nD) (b : Fin 128) (h : Fin 64) :
    qE (V7 m ρ) c (ix2 b h)
      = Cert.SegAttn.qproj (fun b' k => m ((c.tc : Thread nD τ).loc main_arg2) (ix2 b' k))
          (fun k h' => m ((c.tc : Thread nD τ).loc main_arg7) (ix2 k h')) (fun h' => m ((c.tc : Thread nD τ).loc main_arg8) (ix1 h')) b h := by
  have e14 : qE (V7 m ρ) c
      = truncf (F := Ideal) .bf16 (W6 m ρ c (Proc.devRef .tc main_v6) : FVec Ideal S128x64 .f32) bitsLt_bf16_f32 :=
    GlueE_qtrunc_host (W6 m ρ c)
  have h2 : W2 m ρ c (Proc.devRef .tc main_arg2) = m ((c.tc : Thread nD τ).loc main_arg2) :=
    calc W2 m ρ c (Proc.devRef .tc main_arg2)
      _ = W1 m ρ c (Proc.devRef .tc main_arg2) := by glueE_kept main_arg2 across hostOps0_1
      _ = W0 m ρ c (Proc.devRef .tc main_arg2) := by glueE_kept main_arg2 across hostOps0
      _ = m ((c.tc : Thread nD τ).loc main_arg2) := rfl
  have h7 : W2 m ρ c (Proc.devRef .tc main_arg7) = m ((c.tc : Thread nD τ).loc main_arg7) :=
    calc W2 m ρ c (Proc.devRef .tc main_arg7)
      _ = W1 m ρ c (Proc.devRef .tc main_arg7) := by glueE_kept main_arg7 across hostOps0_1
      _ = W0 m ρ c (Proc.devRef .tc main_arg7) := by glueE_kept main_arg7 across hostOps0
      _ = m ((c.tc : Thread nD τ).loc main_arg7) := rfl
  have h8 : W2 m ρ c (Proc.devRef .tc main_arg8) = m ((c.tc : Thread nD τ).loc main_arg8) :=
    calc W2 m ρ c (Proc.devRef .tc main_arg8)
      _ = W1 m ρ c (Proc.devRef .tc main_arg8) := by glueE_kept main_arg8 across hostOps0_1
      _ = W0 m ρ c (Proc.devRef .tc main_arg8) := by glueE_kept main_arg8 across hostOps0
      _ = m ((c.tc : Thread nD τ).loc main_arg8) := rfl
  have e6 : W6 m ρ c (Proc.devRef .tc main_v6)
      = GlueE_qHost (m ((c.tc : Thread nD τ).loc main_arg2)) (m ((c.tc : Thread nD τ).loc main_arg7))
          (m ((c.tc : Thread nD τ).loc main_arg8)) :=
    calc W6 m ρ c (Proc.devRef .tc main_v6)
      _ = W5 m ρ c (Proc.devRef .tc main_v6) := by glueE_kept main_v6 across hostOps0_5
      _ = W4 m ρ c (Proc.devRef .tc main_v6) := by glueE_kept main_v6 across hostOps0_4
      _ = W3 m ρ c (Proc.devRef .tc main_v6) := by glueE_kept main_v6 across hostOps0_3
      _ = GlueE_qHost (W2 m ρ c (Proc.devRef .tc main_arg2)) (W2 m ρ c (Proc.devRef .tc main_arg7))
            (W2 m ρ c (Proc.devRef .tc main_arg8)) := GlueE_q_host (W2 m ρ c)
      _ = _ := by rw [h2, h7, h8]
  refine (congrFun e14 (ix2 b h)).trans ?_
  refine (truncf_apply (φ := .f32) (ψ := .bf16) _ bitsLt_bf16_f32 _).trans ?_
  refine (congrFun e6 (ix2 b h)).trans ?_
  exact GlueE_qHost_apply _ _ _ b h

end Cert.KernelIdeal.Seg

end
-- ==== Proof.GlueX.lean ====
/-
  The arrays the node region finds, as functions of the program's arguments: the node features padded with zero
  rows, the nodes' graph ids padded, the key weights and bias unchanged, and the graphs' query rows.  The node
  region runs after the edge region, which writes none of these.
-/
import proofs.«419372_j26302379720747_1_alg».proof.Proof.Gen.KernelIdeal.Frame
import proofs.«419372_j26302379720747_1_alg».proof.Proof.Arrays
import proofs.«419372_j26302379720747_1_alg».proof.Proof.Take
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

noncomputable section

namespace Cert.KernelIdeal.Seg

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-! ## A buffer that a stretch of host operations does not write keeps its contents -/

/-- Closes "the buffer holds after the stretch what it held before": no operation of the stretch writes it. -/
local macro "glueX_keep " ops:ident " at " b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The arguments the node region's arrays are made from are as launched where they are read -/

/-- The node features, where the padding reads them. -/
theorem GlueX_arg0_W9 (c : Dev nD) : W9 m ρ c (Proc.devRef .tc main_arg0) = m ((c.tc : Thread nD τ).loc main_arg0) :=
  calc W9 m ρ c (Proc.devRef .tc main_arg0)
    _ = W8 m ρ c (Proc.devRef .tc main_arg0) := by glueX_keep hostOps1 at main_arg0
    _ = W7 m ρ c (Proc.devRef .tc main_arg0) := W8_of_ne m ρ c main_arg0 (by decide)
    _ = W6 m ρ c (Proc.devRef .tc main_arg0) := by glueX_keep hostOps0_6 at main_arg0
    _ = W5 m ρ c (Proc.devRef .tc main_arg0) := by glueX_keep hostOps0_5 at main_arg0
    _ = W4 m ρ c (Proc.devRef .tc main_arg0) := by glueX_keep hostOps0_4 at main_arg0
    _ = W3 m ρ c (Proc.devRef .tc main_arg0) := by glueX_keep hostOps0_3 at main_arg0
    _ = W2 m ρ c (Proc.devRef .tc main_arg0) := by glueX_keep hostOps0_2 at main_arg0
    _ = W1 m ρ c (Proc.devRef .tc main_arg0) := by glueX_keep hostOps0_1 at main_arg0
    _ = W0 m ρ c (Proc.devRef .tc main_arg0) := by glueX_keep hostOps0 at main_arg0
    _ = m ((c.tc : Thread nD τ).loc main_arg0) := rfl

/-- The nodes' graph ids, where the padding reads them. -/
theorem GlueX_arg4_W11 (c : Dev nD) : W11 m ρ c (Proc.devRef .tc main_arg4) = m ((c.tc : Thread nD τ).loc main_arg4) :=
  calc W11 m ρ c (Proc.devRef .tc main_arg4)
    _ = W10 m ρ c (Proc.devRef .tc main_arg4) := by glueX_keep hostOps1_2 at main_arg4
    _ = W9 m ρ c (Proc.devRef .tc main_arg4) := by glueX_keep hostOps1_1 at main_arg4
    _ = W8 m ρ c (Proc.devRef .tc main_arg4) := by glueX_keep hostOps1 at main_arg4
    _ = W7 m ρ c (Proc.devRef .tc main_arg4) := W8_of_ne m ρ c main_arg4 (by decide)
    _ = W6 m ρ c (Proc.devRef .tc main_arg4) := by glueX_keep hostOps0_6 at main_arg4
    _ = W5 m ρ c (Proc.devRef .tc main_arg4) := by glueX_keep hostOps0_5 at main_arg4
    _ = W4 m ρ c (Proc.devRef .tc main_arg4) := by glueX_keep hostOps0_4 at main_arg4
    _ = W3 m ρ c (Proc.devRef .tc main_arg4) := by glueX_keep hostOps0_3 at main_arg4
    _ = W2 m ρ c (Proc.devRef .tc main_arg4) := by glueX_keep hostOps0_2 at main_arg4
    _ = W1 m ρ c (Proc.devRef .tc main_arg4) := by glueX_keep hostOps0_1 at main_arg4
    _ = W0 m ρ c (Proc.devRef .tc main_arg4) := by glueX_keep hostOps0 at main_arg4
    _ = m ((c.tc : Thread nD τ).loc main_arg4) := rfl

/-- The node key weights, where the format change reads them. -/
theorem GlueX_arg9_W12 (c : Dev nD) : W12 m ρ c (Proc.devRef .tc main_arg9) = m ((c.tc : Thread nD τ).loc main_arg9) :=
  calc W12 m ρ c (Proc.devRef .tc main_arg9)
    _ = W11 m ρ c (Proc.devRef .tc main_arg9) := by glueX_keep hostOps1_3 at main_arg9
    _ = W10 m ρ c (Proc.devRef .tc main_arg9) := by glueX_keep hostOps1_2 at main_arg9
    _ = W9 m ρ c (Proc.devRef .tc main_arg9) := by glueX_keep hostOps1_1 at main_arg9
    _ = W8 m ρ c (Proc.devRef .tc main_arg9) := by glueX_keep hostOps1 at main_arg9
    _ = W7 m ρ c (Proc.devRef .tc main_arg9) := W8_of_ne m ρ c main_arg9 (by decide)
    _ = W6 m ρ c (Proc.devRef .tc main_arg9) := by glueX_keep hostOps0_6 at main_arg9
    _ = W5 m ρ c (Proc.devRef .tc main_arg9) := by glueX_keep hostOps0_5 at main_arg9
    _ = W4 m ρ c (Proc.devRef .tc main_arg9) := by glueX_keep hostOps0_4 at main_arg9
    _ = W3 m ρ c (Proc.devRef .tc main_arg9) := by glueX_keep hostOps0_3 at main_arg9
    _ = W2 m ρ c (Proc.devRef .tc main_arg9) := by glueX_keep hostOps0_2 at main_arg9
    _ = W1 m ρ c (Proc.devRef .tc main_arg9) := by glueX_keep hostOps0_1 at main_arg9
    _ = W0 m ρ c (Proc.devRef .tc main_arg9) := by glueX_keep hostOps0 at main_arg9
    _ = m ((c.tc : Thread nD τ).loc main_arg9) := rfl

/-- The node key bias, at the node region's entry. -/
theorem GlueX_arg10_W13 (c : Dev nD) : W13 m ρ c (Proc.devRef .tc main_arg10) = m ((c.tc : Thread nD τ).loc main_arg10) :=
  calc W13 m ρ c (Proc.devRef .tc main_arg10)
    _ = W12 m ρ c (Proc.devRef .tc main_arg10) := by glueX_keep hostOps1_4 at main_arg10
    _ = W11 m ρ c (Proc.devRef .tc main_arg10) := by glueX_keep hostOps1_3 at main_arg10
    _ = W10 m ρ c (Proc.devRef .tc main_arg10) := by glueX_keep hostOps1_2 at main_arg10
    _ = W9 m ρ c (Proc.devRef .tc main_arg10) := by glueX_keep hostOps1_1 at main_arg10
    _ = W8 m ρ c (Proc.devRef .tc main_arg10) := by glueX_keep hostOps1 at main_arg10
    _ = W7 m ρ c (Proc.devRef .tc main_arg10) := W8_of_ne m ρ c main_arg10 (by decide)
    _ = W6 m ρ c (Proc.devRef .tc main_arg10) := by glueX_keep hostOps0_6 at main_arg10
    _ = W5 m ρ c (Proc.devRef .tc main_arg10) := by glueX_keep hostOps0_5 at main_arg10
    _ = W4 m ρ c (Proc.devRef .tc main_arg10) := by glueX_keep hostOps0_4 at main_arg10
    _ = W3 m ρ c (Proc.devRef .tc main_arg10) := by glueX_keep hostOps0_3 at main_arg10
    _ = W2 m ρ c (Proc.devRef .tc main_arg10) := by glueX_keep hostOps0_2 at main_arg10
    _ = W1 m ρ c (Proc.devRef .tc main_arg10) := by glueX_keep hostOps0_1 at main_arg10
    _ = W0 m ρ c (Proc.devRef .tc main_arg10) := by glueX_keep hostOps0 at main_arg10
    _ = m ((c.tc : Thread nD τ).loc main_arg10) := rfl

/-- The graphs' features, where the query projection reads them. -/
theorem GlueX_arg2_W2 (c : Dev nD) : W2 m ρ c (Proc.devRef .tc main_arg2) = m ((c.tc : Thread nD τ).loc main_arg2) :=
  calc W2 m ρ c (Proc.devRef .tc main_arg2)
    _ = W1 m ρ c (Proc.devRef .tc main_arg2) := by glueX_keep hostOps0_1 at main_arg2
    _ = W0 m ρ c (Proc.devRef .tc main_arg2) := by glueX_keep hostOps0 at main_arg2
    _ = m ((c.tc : Thread nD τ).loc main_arg2) := rfl

/-- The node query weights, where the query projection reads them. -/
theorem GlueX_arg11_W2 (c : Dev nD) : W2 m ρ c (Proc.devRef .tc main_arg11) = m ((c.tc : Thread nD τ).loc main_arg11) :=
  calc W2 m ρ c (Proc.devRef .tc main_arg11)
    _ = W1 m ρ c (Proc.devRef .tc main_arg11) := by glueX_keep hostOps0_1 at main_arg11
    _ = W0 m ρ c (Proc.devRef .tc main_arg11) := by glueX_keep hostOps0 at main_arg11
    _ = m ((c.tc : Thread nD τ).loc main_arg11) := rfl

/-- The node query bias, where the query projection reads it. -/
theorem GlueX_arg12_W2 (c : Dev nD) : W2 m ρ c (Proc.devRef .tc main_arg12) = m ((c.tc : Thread nD τ).loc main_arg12) :=
  calc W2 m ρ c (Proc.devRef .tc main_arg12)
    _ = W1 m ρ c (Proc.devRef .tc main_arg12) := by glueX_keep hostOps0_1 at main_arg12
    _ = W0 m ρ c (Proc.devRef .tc main_arg12) := by glueX_keep hostOps0 at main_arg12
    _ = m ((c.tc : Thread nD τ).loc main_arg12) := rfl

/-! ## The arrays written before the node region are carried to its entry -/

/-- The graphs' node query rows are carried from the stretch that computes them, across the edge region, to where
    the format change reads them. -/
theorem GlueX_v10_W12 (c : Dev nD) : W12 m ρ c (Proc.devRef .tc main_v10) = W3 m ρ c (Proc.devRef .tc main_v10) :=
  calc W12 m ρ c (Proc.devRef .tc main_v10)
    _ = W11 m ρ c (Proc.devRef .tc main_v10) := by glueX_keep hostOps1_3 at main_v10
    _ = W10 m ρ c (Proc.devRef .tc main_v10) := by glueX_keep hostOps1_2 at main_v10
    _ = W9 m ρ c (Proc.devRef .tc main_v10) := by glueX_keep hostOps1_1 at main_v10
    _ = W8 m ρ c (Proc.devRef .tc main_v10) := by glueX_keep hostOps1 at main_v10
    _ = W7 m ρ c (Proc.devRef .tc main_v10) := W8_of_ne m ρ c main_v10 (by decide)
    _ = W6 m ρ c (Proc.devRef .tc main_v10) := by glueX_keep hostOps0_6 at main_v10
    _ = W5 m ρ c (Proc.devRef .tc main_v10) := by glueX_keep hostOps0_5 at main_v10
    _ = W4 m ρ c (Proc.devRef .tc main_v10) := by glueX_keep hostOps0_4 at main_v10
    _ = W3 m ρ c (Proc.devRef .tc main_v10) := by glueX_keep hostOps0_3 at main_v10

/-- The padded node features are carried from the padding to the node region's entry. -/
theorem GlueX_v17_W13 (c : Dev nD) : W13 m ρ c (Proc.devRef .tc main_v17) = W10 m ρ c (Proc.devRef .tc main_v17) :=
  calc W13 m ρ c (Proc.devRef .tc main_v17)
    _ = W12 m ρ c (Proc.devRef .tc main_v17) := by glueX_keep hostOps1_4 at main_v17
    _ = W11 m ρ c (Proc.devRef .tc main_v17) := by glueX_keep hostOps1_3 at main_v17
    _ = W10 m ρ c (Proc.devRef .tc main_v17) := by glueX_keep hostOps1_2 at main_v17

/-- The padded graph ids are carried from the padding to the node region's entry. -/
theorem GlueX_v18_W13 (c : Dev nD) : W13 m ρ c (Proc.devRef .tc main_v18) = W12 m ρ c (Proc.devRef .tc main_v18) := by
  glueX_keep hostOps1_4 at main_v18

/-! ## What the stretches write, as terms of what they read -/

/-- The padded node features: the features padded by 2400 rows of the converted integer zero. -/
theorem GlueX_after_feat (X : Valuation τ sig (Elt Ideal)) (x0 : FVec Ideal S100000x128 .f32) (z : IVec S_ 32)
    (h0 : X (Proc.devRef .tc main_arg0) = x0) (hz : X (Proc.devRef .tc main_c_1) = z) :
    StableHlo.after (hostOps1_1 (F := Ideal)) X (Proc.devRef .tc main_v17)
      = pad S102400x128 ![0, 0] ![2400, 0] ![0, 0] x0 (sitofp (F := Ideal) .f32 z) pads_S100000x128_S102400x128_024000_000 h_S_ := by
  subst h0 hz
  after_results
  rfl

/-- The integer zero the feature padding converts. -/
theorem GlueX_after_c1 (X : Valuation τ sig (Elt Ideal)) :
    StableHlo.after (hostOps1 (F := Ideal)) X (Proc.devRef .tc main_c_1) = constantI S_ 32 0#32 := by
  after_results

/-- The padded graph ids: the node table padded by 2400 entries. -/
theorem GlueX_after_ids (X : Valuation τ sig (Elt Ideal)) (x4 : IVec S100000 32) (h4 : X (Proc.devRef .tc main_arg4) = x4) :
    StableHlo.after (hostOps1_3 (F := Ideal)) X (Proc.devRef .tc main_v18)
      = pad S102400 ![0] ![2400] ![0] x4 (X (Proc.devRef .tc main_c_2) : IVec S_ 32) pads_S100000_S102400_024000 h_S_ := by
  subst h4
  after_results
  rfl

/-- The node key weights in the narrower format. -/
theorem GlueX_after_wk (X : Valuation τ sig (Elt Ideal)) (w : FVec Ideal S128x64 .f32) (hw : X (Proc.devRef .tc main_arg9) = w) :
    StableHlo.after (hostOps1_4 (F := Ideal)) X (Proc.devRef .tc main_v19) = truncf .bf16 w bitsLt_bf16_f32 := by
  subst hw
  after_results

/-- The graphs' node query rows in the narrower format. -/
theorem GlueX_after_q (X : Valuation τ sig (Elt Ideal)) (q : FVec Ideal S128x64 .f32) (hq : X (Proc.devRef .tc main_v10) = q) :
    StableHlo.after (hostOps1_4 (F := Ideal)) X (Proc.devRef .tc main_v20) = truncf .bf16 q bitsLt_bf16_f32 := by
  subst hq
  after_results

/-- The graphs' node query rows: the graphs' features times the query weights, plus the bias on every row. -/
theorem GlueX_after_q32 (X : Valuation τ sig (Elt Ideal)) (u : FVec Ideal S128x128 .f32) (wq : FVec Ideal S128x64 .f32)
    (bq : FVec Ideal S64 .f32) (hu : X (Proc.devRef .tc main_arg2) = u) (hw : X (Proc.devRef .tc main_arg11) = wq)
    (hb : X (Proc.devRef .tc main_arg12) = bq) :
    StableHlo.after (hostOps0_2 (F := Ideal)) X (Proc.devRef .tc main_v10)
      = addf (Host.dotGeneral (F := Ideal) dot_S128x128_S128x64_S128x64_1_0_0_1_n_n none u wq)
          (broadcastInDim S128x64 ![0, 1] bcast_S1x64_S128x64_0_1 (broadcastInDim S1x64 ![1] bcast_S64_S1x64_1 bq)) := by
  subst hu hw hb
  after_results

/-! ## The launch contents the query rows and the key weights are made from, at their literal types -/

/-- The graphs' features as launched. -/
abbrev GlueX_u (c : Dev nD) : FVec Ideal S128x128 .f32 := m ((c.tc : Thread nD τ).loc main_arg2)
/-- The node query weights as launched. -/
abbrev GlueX_wq (c : Dev nD) : FVec Ideal S128x64 .f32 := m ((c.tc : Thread nD τ).loc main_arg11)
/-- The node query bias as launched. -/
abbrev GlueX_bq (c : Dev nD) : FVec Ideal S64 .f32 := m ((c.tc : Thread nD τ).loc main_arg12)
/-- The node key weights as launched. -/
abbrev GlueX_wk (c : Dev nD) : FVec Ideal S128x64 .f32 := m ((c.tc : Thread nD τ).loc main_arg9)

/-! ## The node region's arrays as terms of the launch memory -/

theorem GlueX_featX_term (c : Dev nD) :
    featX (V13 m ρ) c
      = pad S102400x128 ![0, 0] ![2400, 0] ![0, 0] (m ((c.tc : Thread nD τ).loc main_arg0))
          (sitofp (F := Ideal) .f32 (constantI S_ 32 0#32)) pads_S100000x128_S102400x128_024000_000 h_S_ :=
  (GlueX_v17_W13 m ρ c).trans
    (GlueX_after_feat (W9 m ρ c) _ _ (GlueX_arg0_W9 m ρ c) (GlueX_after_c1 (W8 m ρ c)))

theorem GlueX_idsX_term (c : Dev nD) :
    idsX (V13 m ρ) c
      = pad S102400 ![0] ![2400] ![0] (m ((c.tc : Thread nD τ).loc main_arg4))
          (W11 m ρ c (Proc.devRef .tc main_c_2) : IVec S_ 32) pads_S100000_S102400_024000 h_S_ :=
  (GlueX_v18_W13 m ρ c).trans (GlueX_after_ids (W11 m ρ c) _ (GlueX_arg4_W11 m ρ c))

theorem GlueX_wkX_term (c : Dev nD) :
    wkX (V13 m ρ) c = truncf (F := Ideal) (s := S128x64) (φ := .f32) .bf16 (GlueX_wk m c) bitsLt_bf16_f32 :=
  GlueX_after_wk (W12 m ρ c) (GlueX_wk m c) (GlueX_arg9_W12 m ρ c)

theorem GlueX_qX_term (c : Dev nD) :
    qX (V13 m ρ) c
      = truncf (F := Ideal) (s := S128x64) (φ := .f32) .bf16
          (addf (F := Ideal) (s := S128x64) (φ := .f32)
            (Host.dotGeneral (F := Ideal) (φ₁ := .f32) (φ₂ := .f32) dot_S128x128_S128x64_S128x64_1_0_0_1_n_n none (GlueX_u m c) (GlueX_wq m c))
            (broadcastInDim S128x64 ![0, 1] bcast_S1x64_S128x64_0_1
              (broadcastInDim S1x64 ![1] bcast_S64_S1x64_1 (GlueX_bq m c))))
          bitsLt_bf16_f32 :=
  GlueX_after_q (W12 m ρ c) _
    ((GlueX_v10_W12 m ρ c).trans
      (GlueX_after_q32 (W2 m ρ c) (GlueX_u m c) (GlueX_wq m c) (GlueX_bq m c)
        (GlueX_arg2_W2 m ρ c) (GlueX_arg11_W2 m ρ c) (GlueX_arg12_W2 m ρ c)))

/-! ## The query projection read at an index -/

/-- The operand indices of the 128×128 by 128×64 product at an output index and a contraction index. -/
theorem GlueX_dot_lhs_0 (i : S128x64.Idx) (q : dot_S128x128_S128x64_S128x64_1_0_0_1_n_n.contr.Idx) :
    (dot_S128x128_S128x64_S128x64_1_0_0_1_n_n.lhsIdx i q 0).val = (i 0).val := by
  unfold DotDims.lhsIdx
  rw [dif_neg (show ¬(0 : Fin S128x128.rank) ∈ dot_S128x128_S128x64_S128x64_1_0_0_1_n_n.lhsBatch by decide),
    dif_pos (show (0 : Fin S128x128.rank) ∈ dot_S128x128_S128x64_S128x64_1_0_0_1_n_n.lhsNonContracting by decide)]
  rfl
theorem GlueX_dot_lhs_1 (i : S128x64.Idx) (q : dot_S128x128_S128x64_S128x64_1_0_0_1_n_n.contr.Idx) :
    (dot_S128x128_S128x64_S128x64_1_0_0_1_n_n.lhsIdx i q 1).val = (q ⟨0, by decide⟩).val :=
  dot_S128x128_S128x64_S128x64_1_0_0_1_n_n.lhsIdx_val_of_single rfl i q
theorem GlueX_dot_rhs_0 (i : S128x64.Idx) (q : dot_S128x128_S128x64_S128x64_1_0_0_1_n_n.contr.Idx) :
    (dot_S128x128_S128x64_S128x64_1_0_0_1_n_n.rhsIdx i q 0).val = (q ⟨0, by decide⟩).val :=
  dot_S128x128_S128x64_S128x64_1_0_0_1_n_n.rhsIdx_val_of_single rfl i q
theorem GlueX_dot_rhs_1 (i : S128x64.Idx) (q : dot_S128x128_S128x64_S128x64_1_0_0_1_n_n.contr.Idx) :
    (dot_S128x128_S128x64_S128x64_1_0_0_1_n_n.rhsIdx i q 1).val = (i 1).val := by
  unfold DotDims.rhsIdx
  rw [dif_neg (show ¬(1 : Fin S128x64.rank) ∈ dot_S128x128_S128x64_S128x64_1_0_0_1_n_n.rhsBatch by decide),
    dif_pos (show (1 : Fin S128x64.rank) ∈ dot_S128x128_S128x64_S128x64_1_0_0_1_n_n.rhsNonContracting by decide)]
  rfl

/-- The product at row b and column h is the sum over the 128 shared coordinates. -/
theorem GlueX_dot_apply (u : FVec Ideal S128x128 .f32) (wq : FVec Ideal S128x64 .f32) (b : Fin 128) (h : Fin 64) :
    Host.dotGeneral (F := Ideal) dot_S128x128_S128x64_S128x64_1_0_0_1_n_n none u wq (ix2 b h) = ∑ k : Fin 128, u (ix2 b k) * wq (ix2 k h) := by
  simp only [Host.dotGeneral]
  rw [Ideal.dotGeneral_apply, ← Equiv.sum_comp (contrEquiv1 dot_S128x128_S128x64_S128x64_1_0_0_1_n_n 128 rfl rfl).symm]
  refine Finset.sum_congr rfl fun k _ => ?_
  have hk := contrEquiv1_symm_val dot_S128x128_S128x64_S128x64_1_0_0_1_n_n 128 rfl rfl k
  have el : dot_S128x128_S128x64_S128x64_1_0_0_1_n_n.lhsIdx (ix2 b h) ((contrEquiv1 dot_S128x128_S128x64_S128x64_1_0_0_1_n_n 128 rfl rfl).symm k) = ix2 b k :=
    funext fun a => Fin.ext (by
      match a with
      | ⟨0, _⟩ => exact GlueX_dot_lhs_0 _ _
      | ⟨1, _⟩ => exact (GlueX_dot_lhs_1 _ _).trans hk)
  have er : dot_S128x128_S128x64_S128x64_1_0_0_1_n_n.rhsIdx (ix2 b h) ((contrEquiv1 dot_S128x128_S128x64_S128x64_1_0_0_1_n_n 128 rfl rfl).symm k) = ix2 k h :=
    funext fun a => Fin.ext (by
      match a with
      | ⟨0, _⟩ => exact (GlueX_dot_rhs_0 _ _).trans hk
      | ⟨1, _⟩ => exact GlueX_dot_rhs_1 _ _)
  rw [el, er]

/-- The bias spread over the rows reads the bias at the column. -/
theorem GlueX_bias_apply (bq : FVec Ideal S64 .f32) (b : Fin 128) (h : Fin 64) :
    broadcastInDim S128x64 ![0, 1] bcast_S1x64_S128x64_0_1 (broadcastInDim S1x64 ![1] bcast_S64_S1x64_1 bq) (ix2 b h)
      = bq (ix1 h) := by
  refine (broadcastInDim_apply _ bcast_S1x64_S128x64_0_1 _ (ix2 b h) (ix2 (0 : Fin 1) h) (fun a => match a with
    | ⟨0, _⟩ => by show (0 : ℕ) = if (1 : Nat) = 1 then 0 else b.val; rw [if_pos rfl]
    | ⟨1, _⟩ => by show h.val = if (64 : Nat) = 1 then 0 else h.val; rw [if_neg (by decide)])).trans ?_
  exact broadcastInDim_apply _ bcast_S64_S1x64_1 bq (ix2 (0 : Fin 1) h) (ix1 h) (fun a => match a with
    | ⟨0, _⟩ => by show h.val = if (64 : Nat) = 1 then 0 else h.val; rw [if_neg (by decide)])

/-- The query rows at an index are the affine map of the graphs' features. -/
theorem GlueX_q_apply (u : FVec Ideal S128x128 .f32) (wq : FVec Ideal S128x64 .f32) (bq : FVec Ideal S64 .f32)
    (b : Fin 128) (h : Fin 64) :
    (truncf .bf16 (addf (Host.dotGeneral (F := Ideal) dot_S128x128_S128x64_S128x64_1_0_0_1_n_n none u wq)
        (broadcastInDim S128x64 ![0, 1] bcast_S1x64_S128x64_0_1 (broadcastInDim S1x64 ![1] bcast_S64_S1x64_1 bq)))
      bitsLt_bf16_f32 : FVec Ideal S128x64 .bf16) (ix2 b h)
      = Cert.SegAttn.qproj (fun b' k => u (ix2 b' k)) (fun k h' => wq (ix2 k h')) (fun h' => bq (ix1 h')) b h := by
  refine (truncf_apply (s := S128x64) (φ := .f32) (ψ := .bf16) _ bitsLt_bf16_f32 (ix2 b h)).trans ?_
  refine (addf_apply (s := S128x64) (φ := .f32) _ _ (ix2 b h)).trans ?_
  rw [GlueX_dot_apply, GlueX_bias_apply]
  rfl

/-- A real node row of the padded features is the node's row. -/
theorem featX_in (c : Dev nD) (i : Fin 100000) (f : Fin 128) :
    featX (V13 m ρ) c (ix2 (⟨i.val, by have := i.isLt; omega⟩ : Fin 102400) f) = m ((c.tc : Thread nD τ).loc main_arg0) (ix2 i f) := by
  refine (congrFun (GlueX_featX_term m ρ c) _).trans ?_
  refine pad_apply_of_inside (s := S100000x128) (t := S102400x128) ![0, 0] ![2400, 0] ![0, 0] _ _
    pads_S100000x128_S102400x128_024000_000 h_S_ _ (ix2 i f) ?_
  intro a
  match a with
  | ⟨0, _⟩ => show i.val = 0 + i.val * (0 + 1); omega
  | ⟨1, _⟩ => show f.val = 0 + f.val * (0 + 1); omega

/-- A padding row of the padded features is zero. -/
theorem featX_pad (c : Dev nD) (n : Fin 102400) (hn : 100000 ≤ n.val) (f : Fin 128) :
    featX (V13 m ρ) c (ix2 n f) = 0 := by
  refine (congrFun (GlueX_featX_term m ρ c) _).trans ?_
  refine (pad_apply_of_not_inside (s := S100000x128) (t := S102400x128) ![0, 0] ![2400, 0] ![0, 0] _ _
    pads_S100000x128_S102400x128_024000_000 h_S_ (ix2 n f) ⟨0, by decide⟩ ?_).trans ?_
  · intro hin
    have h3 : (n.val - 0) / (0 + 1) < 100000 := hin.2.2
    omega
  · show ((((0#32 : BitVec 32).toInt : ℤ) : ℝ) : EReal) = 0
    simp

/-- A real node's id is its entry of the node table. -/
theorem idsX_in (c : Dev nD) (i : Fin 100000) :
    idsX (V13 m ρ) c (ix1 (⟨i.val, by have := i.isLt; omega⟩ : Fin 102400)) = m ((c.tc : Thread nD τ).loc main_arg4) (ix1 i) := by
  refine (congrFun (GlueX_idsX_term m ρ c) _).trans ?_
  refine pad_apply_of_inside (s := S100000) (t := S102400) ![0] ![2400] ![0] _ _
    pads_S100000_S102400_024000 h_S_ _ (ix1 i) ?_
  intro a
  match a with
  | ⟨0, _⟩ => show i.val = 0 + i.val * (0 + 1); omega

theorem wkX_eq (c : Dev nD) (f' : Fin 128) (h : Fin 64) :
    wkX (V13 m ρ) c (ix2 f' h) = m ((c.tc : Thread nD τ).loc main_arg9) (ix2 f' h) := by
  refine (congrFun (GlueX_wkX_term m ρ c) _).trans ?_
  exact truncf_apply (s := S128x64) (φ := .f32) (ψ := .bf16) (GlueX_wk m c) bitsLt_bf16_f32 (ix2 f' h)

theorem bkX_eq (c : Dev nD) (h : Fin 64) :
    bkX (V13 m ρ) c (ix1 h) = m ((c.tc : Thread nD τ).loc main_arg10) (ix1 h) := by
  exact congrFun (GlueX_arg10_W13 m ρ c) (ix1 h)

/-- The graphs' query rows for the node attention. -/
theorem qX_eq (c : Dev nD) (b : Fin 128) (h : Fin 64) :
    qX (V13 m ρ) c (ix2 b h)
      = Cert.SegAttn.qproj (fun b' k => m ((c.tc : Thread nD τ).loc main_arg2) (ix2 b' k))
          (fun k h' => m ((c.tc : Thread nD τ).loc main_arg11) (ix2 k h')) (fun h' => m ((c.tc : Thread nD τ).loc main_arg12) (ix1 h')) b h := by
  refine (congrFun (GlueX_qX_term m ρ c) _).trans ?_
  exact GlueX_q_apply (GlueX_u m c) (GlueX_wq m c) (GlueX_bq m c) b h

end Cert.KernelIdeal.Seg

end
-- ==== Proof.Bodies.lean ====
/-
  What one run of an aggregation kernel's body leaves in its output block, as a value: the block's previous
  contents (zero at a shard's first tile) plus the tile's partial aggregate.
-/
import proofs.«419372_j26302379720747_1_alg».proof.Proof.Gen.KernelIdeal.Frame
import Idealize.ShloMosaic.Lib.Pipeline.Value
import Idealize.ShloMosaic.Lib.Tactic

noncomputable section

namespace Cert.KernelIdeal.Seg

open Idealize.ShloMosaic Idealize.ShloMosaic.TcCoe Idealize.SL.Sem Cert.KernelIdeal Cert.KernelIdeal.Gen

variable {F : FTy → Type} [FloatOps F]

/-- The zero offset at rank 3 (and, below, ranks 2 and 1): every store and load of the body sits at the origin of its block. -/
private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- Region 0, a shard's first tile: the accumulator is reset to zero and the tile's partial aggregate added. -/
theorem out0_A (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S128x64 .bf16) (harg4 : arg4.IsWhole) (arg5 : Memref sig .tc .vmem S64 .f32) (harg5 : arg5.IsWhole) (arg6 : Memref sig .tc .vmem S128x64 .bf16) (harg6 : arg6.IsWhole) (arg7 : Memref sig .tc .vmem S1x128x128 .f32) (harg7 : arg7.IsWhole) (hc0 : cond0_0 i)
    (x0 : Vec F S4096x128 .f32) (x1 : Vec F S4096 .i32) (x2 : Vec F S128x64 .bf16) (x3 : Vec F S64 .f32) (x4 : Vec F S128x64 .bf16) :
    out0_A_5 c i arg2 harg2 arg3 harg3 arg4 harg4 arg5 harg5 arg6 harg6 arg7 harg7 hc0 x0 x1 x2 x3 x4 = k0_pay1 (k0_pay3 x0 x1 x2 x3 x4 (k0_pay2 (F := F))) := by
  -- two stores, the later covering: its payload is what is left; its load of the block reads the first store's zero
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  rw [View.canon_cons_unit_zero (S := S1x128x128) hz3, View.readCov_unit_zero (S := S1x128x128) _ hz3]
  simp only [View.readAt_eq_ld, harg2.read_unread, harg3.read_unread, harg4.read_unread, harg5.read_unread, harg6.read_unread,
    View.ld_unit_zero (S := S4096x128) hz2, View.ld_unit_zero (S := S4096) hz1,
    View.ld_unit_zero (S := S128x64) hz2, View.ld_unit_zero (S := S64) hz1]

/-- Region 0, a later tile of a shard: the tile's partial aggregate is added to what the tile before left. -/
theorem out0_B (c : Dev nD) (i : grid0.Coords) (arg2 : Memref sig .tc .vmem S4096x128 .f32) (harg2 : arg2.IsWhole) (arg3 : Memref sig .tc .vmem S4096 .i32) (harg3 : arg3.IsWhole) (arg4 : Memref sig .tc .vmem S128x64 .bf16) (harg4 : arg4.IsWhole) (arg5 : Memref sig .tc .vmem S64 .f32) (harg5 : arg5.IsWhole) (arg6 : Memref sig .tc .vmem S128x64 .bf16) (harg6 : arg6.IsWhole) (arg7 : Memref sig .tc .vmem S1x128x128 .f32) (harg7 : arg7.IsWhole) (hc0 : ¬cond0_0 i)
    (x0 : Vec F S4096x128 .f32) (x1 : Vec F S4096 .i32) (x2 : Vec F S128x64 .bf16) (x3 : Vec F S64 .f32) (x4 : Vec F S128x64 .bf16) (xo5 : Vec F S1x128x128 .f32) :
    out0_B_5 c i arg2 harg2 arg3 harg3 arg4 harg4 arg5 harg5 arg6 harg6 arg7 harg7 hc0 x0 x1 x2 x3 x4 xo5 = k0_pay1 (k0_pay3 x0 x1 x2 x3 x4 xo5) := by
  -- the one covering store's payload, read back whole; each of its loads reads a whole block at the origin
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, View.ld_unit_zero (S := S4096x128) hz2, View.ld_unit_zero (S := S4096) hz1,
    View.ld_unit_zero (S := S128x64) hz2, View.ld_unit_zero (S := S64) hz1, View.ld_unit_zero (S := S1x128x128) hz3]

/-- Region 1, a shard's first tile: the accumulator is reset to zero and the tile's partial aggregate added. -/
theorem out1_A (c : Dev nD) (i : grid1.Coords) (arg2 : Memref sig .tc .vmem S2048x128 .f32) (harg2 : arg2.IsWhole) (arg3 : Memref sig .tc .vmem S2048 .i32) (harg3 : arg3.IsWhole) (arg4 : Memref sig .tc .vmem S128x64 .bf16) (harg4 : arg4.IsWhole) (arg5 : Memref sig .tc .vmem S64 .f32) (harg5 : arg5.IsWhole) (arg6 : Memref sig .tc .vmem S128x64 .bf16) (harg6 : arg6.IsWhole) (arg7 : Memref sig .tc .vmem S1x128x128 .f32) (harg7 : arg7.IsWhole) (hc0 : cond1_0 i)
    (x0 : Vec F S2048x128 .f32) (x1 : Vec F S2048 .i32) (x2 : Vec F S128x64 .bf16) (x3 : Vec F S64 .f32) (x4 : Vec F S128x64 .bf16) :
    out1_A_5 c i arg2 harg2 arg3 harg3 arg4 harg4 arg5 harg5 arg6 harg6 arg7 harg7 hc0 x0 x1 x2 x3 x4 = k1_pay1 (k1_pay3 x0 x1 x2 x3 x4 (k1_pay2 (F := F))) := by
  -- two stores, the later covering: its payload is what is left; its load of the block reads the first store's zero
  unfold out1_A_5
  rw [View.read_writes_eq_canon _ _ _ (cover1_A_5 c i arg2 harg2 arg3 harg3 arg4 harg4 arg5 harg5 arg6 harg6 arg7 harg7 hc0 x0 x1 x2 x3 x4)]
  unfold kernelRun1_A
  dsimp only
  sl_unfold_words
  rw [View.canon_cons_unit_zero (S := S1x128x128) hz3, View.readCov_unit_zero (S := S1x128x128) _ hz3]
  simp only [View.readAt_eq_ld, harg2.read_unread, harg3.read_unread, harg4.read_unread, harg5.read_unread, harg6.read_unread,
    View.ld_unit_zero (S := S2048x128) hz2, View.ld_unit_zero (S := S2048) hz1,
    View.ld_unit_zero (S := S128x64) hz2, View.ld_unit_zero (S := S64) hz1]

/-- Region 1, a later tile of a shard: the tile's partial aggregate is added to what the tile before left. -/
theorem out1_B (c : Dev nD) (i : grid1.Coords) (arg2 : Memref sig .tc .vmem S2048x128 .f32) (harg2 : arg2.IsWhole) (arg3 : Memref sig .tc .vmem S2048 .i32) (harg3 : arg3.IsWhole) (arg4 : Memref sig .tc .vmem S128x64 .bf16) (harg4 : arg4.IsWhole) (arg5 : Memref sig .tc .vmem S64 .f32) (harg5 : arg5.IsWhole) (arg6 : Memref sig .tc .vmem S128x64 .bf16) (harg6 : arg6.IsWhole) (arg7 : Memref sig .tc .vmem S1x128x128 .f32) (harg7 : arg7.IsWhole) (hc0 : ¬cond1_0 i)
    (x0 : Vec F S2048x128 .f32) (x1 : Vec F S2048 .i32) (x2 : Vec F S128x64 .bf16) (x3 : Vec F S64 .f32) (x4 : Vec F S128x64 .bf16) (xo5 : Vec F S1x128x128 .f32) :
    out1_B_5 c i arg2 harg2 arg3 harg3 arg4 harg4 arg5 harg5 arg6 harg6 arg7 harg7 hc0 x0 x1 x2 x3 x4 xo5 = k1_pay1 (k1_pay3 x0 x1 x2 x3 x4 xo5) := by
  -- the one covering store's payload, read back whole; each of its loads reads a whole block at the origin
  unfold out1_B_5
  rw [View.read_writes_eq_canon _ _ _ (cover1_B_5 c i arg2 harg2 arg3 harg3 arg4 harg4 arg5 harg5 arg6 harg6 arg7 harg7 hc0 x0 x1 x2 x3 x4 xo5)]
  unfold kernelRun1_B
  dsimp only
  sl_unfold_words
  rw [View.canon_unit_zero hz3]
  simp only [View.readAt_eq_ld, harg2.read_unread, harg3.read_unread, harg4.read_unread, harg5.read_unread, harg6.read_unread,
    harg7.read_unread, View.ld_unit_zero (S := S2048x128) hz2, View.ld_unit_zero (S := S2048) hz1,
    View.ld_unit_zero (S := S128x64) hz2, View.ld_unit_zero (S := S64) hz1, View.ld_unit_zero (S := S1x128x128) hz3]

end Cert.KernelIdeal.Seg

end
-- ==== Proof.PayAgg.lean ====
/-
  An aggregation kernel's arithmetic read at one entry of its output block, over the extended reals.

  A row's one-hot vector against the 128 graph numbers selects its graph's query row (a matrix product with the
  query table) and routes its gated feature to its graph (a transposed matrix product); a row whose id is no graph
  number has the zero vector and adds nothing.
-/
import proofs.«419372_j26302379720747_1_alg».proof.Proof.Gen.KernelIdeal.Skeleton
import proofs.«419372_j26302379720747_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Seg

open Idealize.ShloMosaic Idealize.ShloMosaic.TcCoe Idealize.SL.Sem Idealize.ShloMosaic.ValueIdx Cert.KernelIdeal Cert.KernelIdeal.Gen

/-! ## Layout: a vector as a column, and a column spread over the lanes -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One id against one graph number -/

/-- A 32-bit word is the word of a graph number `b < 128` exactly when its signed value is `b`. -/
private theorem word_eq_iff_toInt (id : BitVec 32) (b : Fin 128) :
    id = BitVec.ofNat 32 b.val ↔ id.toInt = (b.val : ℤ) := by
  have hb := b.isLt
  have h1 : id = BitVec.ofNat 32 b.val ↔ id.toNat = b.val := by
    rw [← BitVec.toNat_inj, BitVec.toNat_ofNat, Nat.mod_eq_of_lt (by omega)]
  rw [h1, BitVec.toInt_eq_toNat_cond]
  have := id.isLt
  split <;> omega

private theorem cmpi_eq_one (x y : BitVec 32) (h : x = y) : IntOp.cmpi .eq x y = 1#1 := by
  subst h; simp [IntOp.cmpi]

private theorem cmpi_eq_zero (x y : BitVec 32) (h : ¬x = y) : IntOp.cmpi .eq x y = 0#1 := by
  have e : (x == y) = false := beq_eq_false_iff_ne.mpr h
  show BitVec.ofBool (x == y) = 0#1
  rw [e]; rfl

/-- The one-hot entry: the comparison bit of an id with a graph number, widened and converted, is `1` where the id's
    signed value is the graph number and `0` elsewhere. -/
private theorem onehot_word (id : BitVec 32) (b : Fin 128) :
    (FloatOps.sitofp (F := Ideal) .f32 ((IntOp.cmpi .eq id (BitVec.ofNat 32 b.val)).setWidth 32) : EReal)
      = if id.toInt = (b.val : ℤ) then 1 else 0 := by
  show ((((IntOp.cmpi .eq id (BitVec.ofNat 32 b.val)).setWidth 32).toInt : ℝ) : EReal) = _
  by_cases h : id = BitVec.ofNat 32 b.val
  · have e : ((1#1 : BitVec 1).setWidth 32).toInt = 1 := by decide
    rw [cmpi_eq_one _ _ h, if_pos ((word_eq_iff_toInt id b).mp h), e]
    norm_num
  · have e : ((0#1 : BitVec 1).setWidth 32).toInt = 0 := by decide
    rw [cmpi_eq_zero _ _ h, if_neg (fun h' => h ((word_eq_iff_toInt id b).mpr h')), e]
    norm_num

/-- Against a one-hot row the sum over the graph numbers picks the id's graph. -/
private theorem sum_onehot_mul (id : BitVec 32) (b : Fin 128) (hb : id.toInt = (b.val : ℤ)) (X : Fin 128 → EReal) :
    ∑ b' : Fin 128, (if id.toInt = (b'.val : ℤ) then (1 : EReal) else 0) * X b' = X b := by
  rw [Finset.sum_eq_single b]
  · rw [if_pos hb, one_mul]
  · intro b' _ hne
    rw [if_neg (fun h => hne (Fin.ext (by omega))), zero_mul]
  · intro h; exact absurd (Finset.mem_univ b) h

/-! ## The edge kernel (4096 rows a tile) -/

/-! ### Its two matrix products at an index -/

private theorem lhs_rows0_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
private theorem lhs_rows0_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
private theorem rhs_rows0_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
private theorem rhs_rows0_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- Rows by columns into the zero block: entry `(r, h)` is the sum over the 128 inner coordinates. -/
private theorem matmul_rows0_apply (A : FVec Ideal S4096x128 .bf16) (B : FVec Ideal S128x64 .bf16) (r : Fin 4096) (h : Fin 64) :
    matmul dot_S4096x128_S128x64_S4096x64_1_0_0_1_n_n none A B (constant (F := Ideal) S4096x64 .f32 0x00000000#32) (ix2 r h)
      = ∑ k : Fin 128, A (ix2 r k) * B (ix2 k h) := by
  simp only [matmul]
  rw [Ideal.matmul_constant_zero_apply, ← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ix2 r h) ((ValueIdx.contrEquiv1 dot_S4096x128_S128x64_S4096x64_1_0_0_1_n_n 128 rfl rfl).symm k) = ix2 r k := funext fun a => Fin.ext (by
    match a with
    | ⟨0, _⟩ => exact lhs_rows0_0 _ _
    | ⟨1, _⟩ => exact (lhs_rows0_1 _ _).trans hk)
  have er : dot_S4096x128_S128x64_S4096x64_1_0_0_1_n_n.rhsIdx (ix2 r h) ((ValueIdx.contrEquiv1 dot_S4096x128_S128x64_S4096x64_1_0_0_1_n_n 128 rfl rfl).symm k) = ix2 k h := funext fun a => Fin.ext (by
    match a with
    | ⟨0, _⟩ => exact (rhs_rows0_0 _ _).trans hk
    | ⟨1, _⟩ => exact rhs_rows0_1 _ _)
  rw [el, er]

private theorem lhs_cols0_0 (i : S128x128.Idx) (q : dot_S4096x128_S4096x128_S128x128_0_0_1_1_n_n.contr.Idx) :
    (dot_S4096x128_S4096x128_S128x128_0_0_1_1_n_n.lhsIdx i q 0).val = (q ⟨0, by decide⟩).val :=
  dot_S4096x128_S4096x128_S128x128_0_0_1_1_n_n.lhsIdx_val_of_single rfl i q
private theorem lhs_cols0_1 (i : S128x128.Idx) (q : dot_S4096x128_S4096x128_S128x128_0_0_1_1_n_n.contr.Idx) :
    (dot_S4096x128_S4096x128_S128x128_0_0_1_1_n_n.lhsIdx i q 1).val = (i 0).val := by
  unfold DotDims.lhsIdx
  rw [dif_neg (show ¬(1 : Fin S4096x128.rank) ∈ dot_S4096x128_S4096x128_S128x128_0_0_1_1_n_n.lhsBatch by decide), dif_pos (show (1 : Fin S4096x128.rank) ∈ dot_S4096x128_S4096x128_S128x128_0_0_1_1_n_n.lhsNonContracting by decide)]
  rfl
private theorem rhs_cols0_0 (i : S128x128.Idx) (q : dot_S4096x128_S4096x128_S128x128_0_0_1_1_n_n.contr.Idx) :
    (dot_S4096x128_S4096x128_S128x128_0_0_1_1_n_n.rhsIdx i q 0).val = (q ⟨0, by decide⟩).val :=
  dot_S4096x128_S4096x128_S128x128_0_0_1_1_n_n.rhsIdx_val_of_single rfl i q
private theorem rhs_cols0_1 (i : S128x128.Idx) (q : dot_S4096x128_S4096x128_S128x128_0_0_1_1_n_n.contr.Idx) :
    (dot_S4096x128_S4096x128_S128x128_0_0_1_1_n_n.rhsIdx i q 1).val = (i 1).val := by
  unfold DotDims.rhsIdx
  rw [dif_neg (show ¬(1 : Fin S4096x128.rank) ∈ dot_S4096x128_S4096x128_S128x128_0_0_1_1_n_n.rhsBatch by decide), dif_pos (show (1 : Fin S4096x128.rank) ∈ dot_S4096x128_S4096x128_S128x128_0_0_1_1_n_n.rhsNonContracting by decide)]
  rfl

/-- Columns by columns into the zero block, the row axis contracted: entry `(b, f)` is the sum over the 4096 rows. -/
private theorem matmul_cols0_apply (A : FVec Ideal S4096x128 .bf16) (B : FVec Ideal S4096x128 .bf16) (b f : Fin 128) :
    matmul dot_S4096x128_S4096x128_S128x128_0_0_1_1_n_n none A B (constant (F := Ideal) S128x128 .f32 0x00000000#32) (ix2 b f)
      = ∑ r : Fin 4096, A (ix2 r b) * B (ix2 r f) := by
  simp only [matmul]
  rw [Ideal.matmul_constant_zero_apply, ← Equiv.sum_comp (ValueIdx.contrEquiv1 dot_S4096x128_S4096x128_S128x128_0_0_1_1_n_n 4096 rfl rfl).symm]
  refine Finset.sum_congr rfl fun k _ => ?_
  have hk := ValueIdx.contrEquiv1_symm_val dot_S4096x128_S4096x128_S128x128_0_0_1_1_n_n 4096 rfl rfl k
  have el : dot_S4096x128_S4096x128_S128x128_0_0_1_1_n_n.lhsIdx (ix2 b f) ((ValueIdx.contrEquiv1 dot_S4096x128_S4096x128_S128x128_0_0_1_1_n_n 4096 rfl rfl).symm k) = ix2 k b := funext fun a => Fin.ext (by
    match a with
    | ⟨0, _⟩ => exact (lhs_cols0_0 _ _).trans hk
    | ⟨1, _⟩ => exact lhs_cols0_1 _ _)
  have er : dot_S4096x128_S4096x128_S128x128_0_0_1_1_n_n.rhsIdx (ix2 b f) ((ValueIdx.contrEquiv1 dot_S4096x128_S4096x128_S128x128_0_0_1_1_n_n 4096 rfl rfl).symm k) = ix2 k f := funext fun a => Fin.ext (by
    match a with
    | ⟨0, _⟩ => exact (rhs_cols0_0 _ _).trans hk
    | ⟨1, _⟩ => exact rhs_cols0_1 _ _)
  rw [el, er]

/-! ### Its stages -/

/-- The tile's ids, each spread over the 128 lanes. -/
private def ids0 (x1 : Vec Ideal S4096 .i32) : IVec S4096x128 32 :=
  broadcastTo S4096x128 (shapeCast S4096x1 (shapeCast S4096 x1 shapeCasts_S4096_S4096 : IVec S4096 32) shapeCasts_S4096_S4096x1 : IVec S4096x1 32) broadcasts_S4096x1_S4096x128

/-- The graph numbers along the lanes, the same in every row. -/
private def nums0 : IVec S4096x128 32 :=
  broadcastTo S4096x128 (iota .tc S1x128 32 [1] iota_S1x128_d1_w32 : IVec S1x128 32) broadcasts_S1x128_S4096x128

/-- The one-hot matrix of the ids against the graph numbers. -/
private def oh0 (x1 : Vec Ideal S4096 .i32) : FVec Ideal S4096x128 .bf16 :=
  truncf .bf16 (sitofp .f32 (extui 32 (cmpi .eq (ids0 x1) nums0) natLt_1_32 : IVec S4096x128 32) : FVec Ideal S4096x128 .f32) bitsLt_bf16_f32

/-- The rows' key projections. -/
private def key0 (x0 : Vec Ideal S4096x128 .f32) (x2 : Vec Ideal S128x64 .bf16) (x3 : Vec Ideal S64 .f32) : FVec Ideal S4096x64 .f32 :=
  addf (matmul dot_S4096x128_S128x64_S4096x64_1_0_0_1_n_n none
      (truncf .bf16 (shapeCast S4096x128 x0 shapeCasts_S4096x128_S4096x128 : FVec Ideal S4096x128 .f32) bitsLt_bf16_f32 : FVec Ideal S4096x128 .bf16)
      (shapeCast S128x64 x2 shapeCasts_S128x64_S128x64 : FVec Ideal S128x64 .bf16)
      (constant S4096x64 .f32 0x00000000#32))
    (broadcastTo S4096x64 (shapeCast S1x64 x3 shapeCasts_S64_S1x64 : FVec Ideal S1x64 .f32) broadcasts_S1x64_S4096x64)

/-- The rows' query rows: the one-hot matrix against the query table. -/
private def qry0 (x1 : Vec Ideal S4096 .i32) (x4 : Vec Ideal S128x64 .bf16) : FVec Ideal S4096x64 .f32 :=
  matmul dot_S4096x128_S128x64_S4096x64_1_0_0_1_n_n none (oh0 x1)
    (shapeCast S128x64 x4 shapeCasts_S128x64_S128x64 : FVec Ideal S128x64 .bf16) (constant S4096x64 .f32 0x00000000#32)

/-- The rows' gates, as a column. -/
private def gat0 (x0 : Vec Ideal S4096x128 .f32) (x1 : Vec Ideal S4096 .i32) (x2 : Vec Ideal S128x64 .bf16) (x3 : Vec Ideal S64 .f32)
    (x4 : Vec Ideal S128x64 .bf16) : FVec Ideal S4096x1 .f32 :=
  logistic (shapeCast S4096x1
    (multiReduction .add [1] S4096 (mulf (key0 x0 x2 x3) (qry0 x1 x4)) 0x00000000#32 reduces_S4096x64_S4096 (.inl rfl) rfl : FVec Ideal S4096 .f32)
    shapeCasts_S4096_S4096x1)

/-- The rows' gated features. -/
private def wgt0 (x0 : Vec Ideal S4096x128 .f32) (x1 : Vec Ideal S4096 .i32) (x2 : Vec Ideal S128x64 .bf16) (x3 : Vec Ideal S64 .f32)
    (x4 : Vec Ideal S128x64 .bf16) : FVec Ideal S4096x128 .bf16 :=
  truncf .bf16 (mulf (broadcastTo S4096x128 (gat0 x0 x1 x2 x3 x4) broadcasts_S4096x1_S4096x128)
    (shapeCast S4096x128 x0 shapeCasts_S4096x128_S4096x128 : FVec Ideal S4096x128 .f32)) bitsLt_bf16_f32

/-- The kernel's arithmetic is these stages composed. -/
private theorem pay3_0_eq (x0 : Vec Ideal S4096x128 .f32) (x1 : Vec Ideal S4096 .i32) (x2 : Vec Ideal S128x64 .bf16)
    (x3 : Vec Ideal S64 .f32) (x4 : Vec Ideal S128x64 .bf16) (xo : Vec Ideal S1x128x128 .f32) :
    k0_pay3 x0 x1 x2 x3 x4 xo
      = addf (shapeCast S128x128 xo shapeCasts_S1x128x128_S128x128 : FVec Ideal S128x128 .f32)
          (matmul dot_S4096x128_S4096x128_S128x128_0_0_1_1_n_n none (oh0 x1) (wgt0 x0 x1 x2 x3 x4) (constant S128x128 .f32 0x00000000#32)) :=
  rfl

/-! ### The stages at an index -/

private theorem oh0_apply (x1 : Vec Ideal S4096 .i32) (r : Fin 4096) (b : Fin 128) :
    oh0 x1 (ix2 r b) = if (x1 (ix1 r)).toInt = (b.val : ℤ) then 1 else 0 := by
  have e1 : ids0 x1 (ix2 r b) = x1 (ix1 r) := by
    unfold ids0
    rw [broadcastTo_a1_ab_apply, shapeCast_a_a1_apply, shapeCast_self]
  have e2 : nums0 (ix2 r b) = BitVec.ofNat 32 b.val := by
    unfold nums0
    rw [broadcastTo_1b_ab_apply, iota_single_apply]
  show FloatOps.sitofp (F := Ideal) .f32 ((IntOp.cmpi .eq (ids0 x1 (ix2 r b)) (nums0 (ix2 r b))).setWidth 32) = _
  rw [e1, e2]
  exact onehot_word _ b

private theorem key0_apply (x0 : Vec Ideal S4096x128 .f32) (x2 : Vec Ideal S128x64 .bf16) (x3 : Vec Ideal S64 .f32) (r : Fin 4096) (h : Fin 64) :
    key0 x0 x2 x3 (ix2 r h) = ∑ f' : Fin 128, x0 (ix2 r f') * x2 (ix2 f' h) + x3 (ix1 h) := by
  unfold key0
  rw [addf_apply, matmul_rows0_apply, broadcastTo_1b_ab_apply, shapeCast_a_1a_apply,
    shapeCast_self x0 shapeCasts_S4096x128_S4096x128, shapeCast_self x2 shapeCasts_S128x64_S128x64]
  rfl

private theorem qry0_apply (x1 : Vec Ideal S4096 .i32) (x4 : Vec Ideal S128x64 .bf16) (r : Fin 4096) (h : Fin 64) :
    qry0 x1 x4 (ix2 r h) = ∑ b' : Fin 128, (if (x1 (ix1 r)).toInt = (b'.val : ℤ) then (1 : EReal) else 0) * x4 (ix2 b' h) := by
  unfold qry0
  rw [matmul_rows0_apply, shapeCast_self x4 shapeCasts_S128x64_S128x64]
  exact Finset.sum_congr rfl fun b' _ => congrArg (· * x4 (ix2 b' h)) (oh0_apply x1 r b')

private theorem gat0_apply (x0 : Vec Ideal S4096x128 .f32) (x1 : Vec Ideal S4096 .i32) (x2 : Vec Ideal S128x64 .bf16) (x3 : Vec Ideal S64 .f32)
    (x4 : Vec Ideal S128x64 .bf16) (r : Fin 4096) :
    gat0 x0 x1 x2 x3 x4 (ix2 r (0 : Fin 1)) = Ideal.logistic (∑ h : Fin 64, key0 x0 x2 x3 (ix2 r h) * qry0 x1 x4 (ix2 r h)) := by
  unfold gat0
  show Ideal.logistic (shapeCast S4096x1 _ shapeCasts_S4096_S4096x1 (ix2 r (0 : Fin 1))) = _
  rw [shapeCast_a_a1_apply]
  refine congrArg Ideal.logistic ?_
  refine (Ideal.multiReduction_add_single (mulf (key0 x0 x2 x3) (qry0 x1 x4)) 0x00000000#32 reduces_S4096x64_S4096 (.inl rfl) rfl (ix1 r)).trans ?_
  refine Finset.sum_congr rfl fun (h : Fin 64) _ => ?_
  have e : reduces_S4096x64_S4096.lift (ix1 r) h = ix2 r h := funext fun a => Fin.ext (by
    match a with
    | ⟨0, _⟩ => rfl
    | ⟨1, _⟩ => rfl)
  rw [e]
  rfl

private theorem wgt0_apply (x0 : Vec Ideal S4096x128 .f32) (x1 : Vec Ideal S4096 .i32) (x2 : Vec Ideal S128x64 .bf16) (x3 : Vec Ideal S64 .f32)
    (x4 : Vec Ideal S128x64 .bf16) (r : Fin 4096) (f : Fin 128) :
    wgt0 x0 x1 x2 x3 x4 (ix2 r f)
      = Ideal.logistic (∑ h : Fin 64, key0 x0 x2 x3 (ix2 r h) * qry0 x1 x4 (ix2 r h)) * x0 (ix2 r f) := by
  unfold wgt0
  rw [truncf_apply, mulf_apply, broadcastTo_a1_ab_apply, gat0_apply, shapeCast_self x0 shapeCasts_S4096x128_S4096x128]

/-- The zero block a shard's first tile starts from. -/
theorem pay0_zero (b f : Fin 128) : (k0_pay2 (F := Ideal)) (ix3 (0 : Fin 1) b f) = 0 := by
  refine (shapeCast_ab_1ab_apply (broadcast S128x128 (Scalar.ofBits (F := Ideal) .f32 0x00000000#32)) shapeCasts_S128x128_S1x128x128 0 b f).trans ?_
  exact Ideal.ofBits_zero_f32

/-- The body's result at graph `b`, feature `f`: the previous contents plus, over the tile's 4096 rows, each row's
    contribution — its gated feature if its id is `b`. -/
theorem pay0 (x0 : Vec Ideal S4096x128 .f32) (x1 : Vec Ideal S4096 .i32) (x2 : Vec Ideal S128x64 .bf16)
    (x3 : Vec Ideal S64 .f32) (x4 : Vec Ideal S128x64 .bf16) (xo : Vec Ideal S1x128x128 .f32) (b f : Fin 128) :
    k0_pay1 (k0_pay3 x0 x1 x2 x3 x4 xo) (ix3 (0 : Fin 1) b f)
      = xo (ix3 (0 : Fin 1) b f) + ∑ r : Fin 4096, Cert.SegAttn.term (fun f' => x0 (ix2 r f')) (x1 (ix1 r))
          (fun f' h => x2 (ix2 f' h)) (fun h => x3 (ix1 h)) (fun b' h => x4 (ix2 b' h)) b f := by
  refine (shapeCast_ab_1ab_apply (k0_pay3 x0 x1 x2 x3 x4 xo) shapeCasts_S128x128_S1x128x128 0 b f).trans ?_
  rw [pay3_0_eq, addf_apply, shapeCast_1ab_ab_apply, matmul_cols0_apply]
  refine congrArg (xo (ix3 (0 : Fin 1) b f) + ·) (Finset.sum_congr rfl fun r _ => ?_)
  rw [oh0_apply, wgt0_apply]
  unfold Cert.SegAttn.term
  by_cases hb : (x1 (ix1 r)).toInt = (b.val : ℤ)
  · rw [if_pos hb, if_pos hb, one_mul]
    unfold Cert.SegAttn.gate
    refine congrArg (fun s => Ideal.logistic s * x0 (ix2 r f)) (Finset.sum_congr rfl fun h _ => ?_)
    rw [key0_apply, qry0_apply, sum_onehot_mul _ b hb]
  · rw [if_neg hb, if_neg hb, zero_mul]

/-! ## The node kernel (2048 rows a tile) -/

/-! ### Its two matrix products at an index -/

private theorem lhs_rows1_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
private theorem lhs_rows1_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
private theorem rhs_rows1_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
private theorem rhs_rows1_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- Rows by columns into the zero block: entry `(r, h)` is the sum over the 128 inner coordinates. -/
private theorem matmul_rows1_apply (A : FVec Ideal S2048x128 .bf16) (B : FVec Ideal S128x64 .bf16) (r : Fin 2048) (h : Fin 64) :
    matmul dot_S2048x128_S128x64_S2048x64_1_0_0_1_n_n none A B (constant (F := Ideal) S2048x64 .f32 0x00000000#32) (ix2 r h)
      = ∑ k : Fin 128, A (ix2 r k) * B (ix2 k h) := by
  simp only [matmul]
  rw [Ideal.matmul_constant_zero_apply, ← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 r h) ((ValueIdx.contrEquiv1 dot_S2048x128_S128x64_S2048x64_1_0_0_1_n_n 128 rfl rfl).symm k) = ix2 r k := funext fun a => Fin.ext (by
    match a with
    | ⟨0, _⟩ => exact lhs_rows1_0 _ _
    | ⟨1, _⟩ => exact (lhs_rows1_1 _ _).trans hk)
  have er : dot_S2048x128_S128x64_S2048x64_1_0_0_1_n_n.rhsIdx (ix2 r h) ((ValueIdx.contrEquiv1 dot_S2048x128_S128x64_S2048x64_1_0_0_1_n_n 128 rfl rfl).symm k) = ix2 k h := funext fun a => Fin.ext (by
    match a with
    | ⟨0, _⟩ => exact (rhs_rows1_0 _ _).trans hk
    | ⟨1, _⟩ => exact rhs_rows1_1 _ _)
  rw [el, er]

private theorem lhs_cols1_0 (i : S128x128.Idx) (q : dot_S2048x128_S2048x128_S128x128_0_0_1_1_n_n.contr.Idx) :
    (dot_S2048x128_S2048x128_S128x128_0_0_1_1_n_n.lhsIdx i q 0).val = (q ⟨0, by decide⟩).val :=
  dot_S2048x128_S2048x128_S128x128_0_0_1_1_n_n.lhsIdx_val_of_single rfl i q
private theorem lhs_cols1_1 (i : S128x128.Idx) (q : dot_S2048x128_S2048x128_S128x128_0_0_1_1_n_n.contr.Idx) :
    (dot_S2048x128_S2048x128_S128x128_0_0_1_1_n_n.lhsIdx i q 1).val = (i 0).val := by
  unfold DotDims.lhsIdx
  rw [dif_neg (show ¬(1 : Fin S2048x128.rank) ∈ dot_S2048x128_S2048x128_S128x128_0_0_1_1_n_n.lhsBatch by decide), dif_pos (show (1 : Fin S2048x128.rank) ∈ dot_S2048x128_S2048x128_S128x128_0_0_1_1_n_n.lhsNonContracting by decide)]
  rfl
private theorem rhs_cols1_0 (i : S128x128.Idx) (q : dot_S2048x128_S2048x128_S128x128_0_0_1_1_n_n.contr.Idx) :
    (dot_S2048x128_S2048x128_S128x128_0_0_1_1_n_n.rhsIdx i q 0).val = (q ⟨0, by decide⟩).val :=
  dot_S2048x128_S2048x128_S128x128_0_0_1_1_n_n.rhsIdx_val_of_single rfl i q
private theorem rhs_cols1_1 (i : S128x128.Idx) (q : dot_S2048x128_S2048x128_S128x128_0_0_1_1_n_n.contr.Idx) :
    (dot_S2048x128_S2048x128_S128x128_0_0_1_1_n_n.rhsIdx i q 1).val = (i 1).val := by
  unfold DotDims.rhsIdx
  rw [dif_neg (show ¬(1 : Fin S2048x128.rank) ∈ dot_S2048x128_S2048x128_S128x128_0_0_1_1_n_n.rhsBatch by decide), dif_pos (show (1 : Fin S2048x128.rank) ∈ dot_S2048x128_S2048x128_S128x128_0_0_1_1_n_n.rhsNonContracting by decide)]
  rfl

/-- Columns by columns into the zero block, the row axis contracted: entry `(b, f)` is the sum over the 2048 rows. -/
private theorem matmul_cols1_apply (A : FVec Ideal S2048x128 .bf16) (B : FVec Ideal S2048x128 .bf16) (b f : Fin 128) :
    matmul dot_S2048x128_S2048x128_S128x128_0_0_1_1_n_n none A B (constant (F := Ideal) S128x128 .f32 0x00000000#32) (ix2 b f)
      = ∑ r : Fin 2048, A (ix2 r b) * B (ix2 r f) := by
  simp only [matmul]
  rw [Ideal.matmul_constant_zero_apply, ← Equiv.sum_comp (ValueIdx.contrEquiv1 dot_S2048x128_S2048x128_S128x128_0_0_1_1_n_n 2048 rfl rfl).symm]
  refine Finset.sum_congr rfl fun k _ => ?_
  have hk := ValueIdx.contrEquiv1_symm_val dot_S2048x128_S2048x128_S128x128_0_0_1_1_n_n 2048 rfl rfl k
  have el : dot_S2048x128_S2048x128_S128x128_0_0_1_1_n_n.lhsIdx (ix2 b f) ((ValueIdx.contrEquiv1 dot_S2048x128_S2048x128_S128x128_0_0_1_1_n_n 2048 rfl rfl).symm k) = ix2 k b := funext fun a => Fin.ext (by
    match a with
    | ⟨0, _⟩ => exact (lhs_cols1_0 _ _).trans hk
    | ⟨1, _⟩ => exact lhs_cols1_1 _ _)
  have er : dot_S2048x128_S2048x128_S128x128_0_0_1_1_n_n.rhsIdx (ix2 b f) ((ValueIdx.contrEquiv1 dot_S2048x128_S2048x128_S128x128_0_0_1_1_n_n 2048 rfl rfl).symm k) = ix2 k f := funext fun a => Fin.ext (by
    match a with
    | ⟨0, _⟩ => exact (rhs_cols1_0 _ _).trans hk
    | ⟨1, _⟩ => exact rhs_cols1_1 _ _)
  rw [el, er]

/-! ### Its stages -/

/-- The tile's ids, each spread over the 128 lanes. -/
private def ids1 (x1 : Vec Ideal S2048 .i32) : IVec S2048x128 32 :=
  broadcastTo S2048x128 (shapeCast S2048x1 (shapeCast S2048 x1 shapeCasts_S2048_S2048 : IVec S2048 32) shapeCasts_S2048_S2048x1 : IVec S2048x1 32) broadcasts_S2048x1_S2048x128

/-- The graph numbers along the lanes, the same in every row. -/
private def nums1 : IVec S2048x128 32 :=
  broadcastTo S2048x128 (iota .tc S1x128 32 [1] iota_S1x128_d1_w32 : IVec S1x128 32) broadcasts_S1x128_S2048x128

/-- The one-hot matrix of the ids against the graph numbers. -/
private def oh1 (x1 : Vec Ideal S2048 .i32) : FVec Ideal S2048x128 .bf16 :=
  truncf .bf16 (sitofp .f32 (extui 32 (cmpi .eq (ids1 x1) nums1) natLt_1_32 : IVec S2048x128 32) : FVec Ideal S2048x128 .f32) bitsLt_bf16_f32

/-- The rows' key projections. -/
private def key1 (x0 : Vec Ideal S2048x128 .f32) (x2 : Vec Ideal S128x64 .bf16) (x3 : Vec Ideal S64 .f32) : FVec Ideal S2048x64 .f32 :=
  addf (matmul dot_S2048x128_S128x64_S2048x64_1_0_0_1_n_n none
      (truncf .bf16 (shapeCast S2048x128 x0 shapeCasts_S2048x128_S2048x128 : FVec Ideal S2048x128 .f32) bitsLt_bf16_f32 : FVec Ideal S2048x128 .bf16)
      (shapeCast S128x64 x2 shapeCasts_S128x64_S128x64 : FVec Ideal S128x64 .bf16)
      (constant S2048x64 .f32 0x00000000#32))
    (broadcastTo S2048x64 (shapeCast S1x64 x3 shapeCasts_S64_S1x64 : FVec Ideal S1x64 .f32) broadcasts_S1x64_S2048x64)

/-- The rows' query rows: the one-hot matrix against the query table. -/
private def qry1 (x1 : Vec Ideal S2048 .i32) (x4 : Vec Ideal S128x64 .bf16) : FVec Ideal S2048x64 .f32 :=
  matmul dot_S2048x128_S128x64_S2048x64_1_0_0_1_n_n none (oh1 x1)
    (shapeCast S128x64 x4 shapeCasts_S128x64_S128x64 : FVec Ideal S128x64 .bf16) (constant S2048x64 .f32 0x00000000#32)

/-- The rows' gates, as a column. -/
private def gat1 (x0 : Vec Ideal S2048x128 .f32) (x1 : Vec Ideal S2048 .i32) (x2 : Vec Ideal S128x64 .bf16) (x3 : Vec Ideal S64 .f32)
    (x4 : Vec Ideal S128x64 .bf16) : FVec Ideal S2048x1 .f32 :=
  logistic (shapeCast S2048x1
    (multiReduction .add [1] S2048 (mulf (key1 x0 x2 x3) (qry1 x1 x4)) 0x00000000#32 reduces_S2048x64_S2048 (.inl rfl) rfl : FVec Ideal S2048 .f32)
    shapeCasts_S2048_S2048x1)

/-- The rows' gated features. -/
private def wgt1 (x0 : Vec Ideal S2048x128 .f32) (x1 : Vec Ideal S2048 .i32) (x2 : Vec Ideal S128x64 .bf16) (x3 : Vec Ideal S64 .f32)
    (x4 : Vec Ideal S128x64 .bf16) : FVec Ideal S2048x128 .bf16 :=
  truncf .bf16 (mulf (broadcastTo S2048x128 (gat1 x0 x1 x2 x3 x4) broadcasts_S2048x1_S2048x128)
    (shapeCast S2048x128 x0 shapeCasts_S2048x128_S2048x128 : FVec Ideal S2048x128 .f32)) bitsLt_bf16_f32

/-- The kernel's arithmetic is these stages composed. -/
private theorem pay3_1_eq (x0 : Vec Ideal S2048x128 .f32) (x1 : Vec Ideal S2048 .i32) (x2 : Vec Ideal S128x64 .bf16)
    (x3 : Vec Ideal S64 .f32) (x4 : Vec Ideal S128x64 .bf16) (xo : Vec Ideal S1x128x128 .f32) :
    k1_pay3 x0 x1 x2 x3 x4 xo
      = addf (shapeCast S128x128 xo shapeCasts_S1x128x128_S128x128 : FVec Ideal S128x128 .f32)
          (matmul dot_S2048x128_S2048x128_S128x128_0_0_1_1_n_n none (oh1 x1) (wgt1 x0 x1 x2 x3 x4) (constant S128x128 .f32 0x00000000#32)) :=
  rfl

/-! ### The stages at an index -/

private theorem oh1_apply (x1 : Vec Ideal S2048 .i32) (r : Fin 2048) (b : Fin 128) :
    oh1 x1 (ix2 r b) = if (x1 (ix1 r)).toInt = (b.val : ℤ) then 1 else 0 := by
  have e1 : ids1 x1 (ix2 r b) = x1 (ix1 r) := by
    unfold ids1
    rw [broadcastTo_a1_ab_apply, shapeCast_a_a1_apply, shapeCast_self]
  have e2 : nums1 (ix2 r b) = BitVec.ofNat 32 b.val := by
    unfold nums1
    rw [broadcastTo_1b_ab_apply, iota_single_apply]
  show FloatOps.sitofp (F := Ideal) .f32 ((IntOp.cmpi .eq (ids1 x1 (ix2 r b)) (nums1 (ix2 r b))).setWidth 32) = _
  rw [e1, e2]
  exact onehot_word _ b

private theorem key1_apply (x0 : Vec Ideal S2048x128 .f32) (x2 : Vec Ideal S128x64 .bf16) (x3 : Vec Ideal S64 .f32) (r : Fin 2048) (h : Fin 64) :
    key1 x0 x2 x3 (ix2 r h) = ∑ f' : Fin 128, x0 (ix2 r f') * x2 (ix2 f' h) + x3 (ix1 h) := by
  unfold key1
  rw [addf_apply, matmul_rows1_apply, broadcastTo_1b_ab_apply, shapeCast_a_1a_apply,
    shapeCast_self x0 shapeCasts_S2048x128_S2048x128, shapeCast_self x2 shapeCasts_S128x64_S128x64]
  rfl

private theorem qry1_apply (x1 : Vec Ideal S2048 .i32) (x4 : Vec Ideal S128x64 .bf16) (r : Fin 2048) (h : Fin 64) :
    qry1 x1 x4 (ix2 r h) = ∑ b' : Fin 128, (if (x1 (ix1 r)).toInt = (b'.val : ℤ) then (1 : EReal) else 0) * x4 (ix2 b' h) := by
  unfold qry1
  rw [matmul_rows1_apply, shapeCast_self x4 shapeCasts_S128x64_S128x64]
  exact Finset.sum_congr rfl fun b' _ => congrArg (· * x4 (ix2 b' h)) (oh1_apply x1 r b')

private theorem gat1_apply (x0 : Vec Ideal S2048x128 .f32) (x1 : Vec Ideal S2048 .i32) (x2 : Vec Ideal S128x64 .bf16) (x3 : Vec Ideal S64 .f32)
    (x4 : Vec Ideal S128x64 .bf16) (r : Fin 2048) :
    gat1 x0 x1 x2 x3 x4 (ix2 r (0 : Fin 1)) = Ideal.logistic (∑ h : Fin 64, key1 x0 x2 x3 (ix2 r h) * qry1 x1 x4 (ix2 r h)) := by
  unfold gat1
  show Ideal.logistic (shapeCast S2048x1 _ shapeCasts_S2048_S2048x1 (ix2 r (0 : Fin 1))) = _
  rw [shapeCast_a_a1_apply]
  refine congrArg Ideal.logistic ?_
  refine (Ideal.multiReduction_add_single (mulf (key1 x0 x2 x3) (qry1 x1 x4)) 0x00000000#32 reduces_S2048x64_S2048 (.inl rfl) rfl (ix1 r)).trans ?_
  refine Finset.sum_congr rfl fun (h : Fin 64) _ => ?_
  have e : reduces_S2048x64_S2048.lift (ix1 r) h = ix2 r h := funext fun a => Fin.ext (by
    match a with
    | ⟨0, _⟩ => rfl
    | ⟨1, _⟩ => rfl)
  rw [e]
  rfl

private theorem wgt1_apply (x0 : Vec Ideal S2048x128 .f32) (x1 : Vec Ideal S2048 .i32) (x2 : Vec Ideal S128x64 .bf16) (x3 : Vec Ideal S64 .f32)
    (x4 : Vec Ideal S128x64 .bf16) (r : Fin 2048) (f : Fin 128) :
    wgt1 x0 x1 x2 x3 x4 (ix2 r f)
      = Ideal.logistic (∑ h : Fin 64, key1 x0 x2 x3 (ix2 r h) * qry1 x1 x4 (ix2 r h)) * x0 (ix2 r f) := by
  unfold wgt1
  rw [truncf_apply, mulf_apply, broadcastTo_a1_ab_apply, gat1_apply, shapeCast_self x0 shapeCasts_S2048x128_S2048x128]

/-- The zero block a shard's first tile starts from. -/
theorem pay1_zero (b f : Fin 128) : (k1_pay2 (F := Ideal)) (ix3 (0 : Fin 1) b f) = 0 := by
  refine (shapeCast_ab_1ab_apply (broadcast S128x128 (Scalar.ofBits (F := Ideal) .f32 0x00000000#32)) shapeCasts_S128x128_S1x128x128 0 b f).trans ?_
  exact Ideal.ofBits_zero_f32

/-- The body's result at graph `b`, feature `f`: the previous contents plus, over the tile's 2048 rows, each row's
    contribution — its gated feature if its id is `b`. -/
theorem pay1 (x0 : Vec Ideal S2048x128 .f32) (x1 : Vec Ideal S2048 .i32) (x2 : Vec Ideal S128x64 .bf16)
    (x3 : Vec Ideal S64 .f32) (x4 : Vec Ideal S128x64 .bf16) (xo : Vec Ideal S1x128x128 .f32) (b f : Fin 128) :
    k1_pay1 (k1_pay3 x0 x1 x2 x3 x4 xo) (ix3 (0 : Fin 1) b f)
      = xo (ix3 (0 : Fin 1) b f) + ∑ r : Fin 2048, Cert.SegAttn.term (fun f' => x0 (ix2 r f')) (x1 (ix1 r))
          (fun f' h => x2 (ix2 f' h)) (fun h => x3 (ix1 h)) (fun b' h => x4 (ix2 b' h)) b f := by
  refine (shapeCast_ab_1ab_apply (k1_pay3 x0 x1 x2 x3 x4 xo) shapeCasts_S128x128_S1x128x128 0 b f).trans ?_
  rw [pay3_1_eq, addf_apply, shapeCast_1ab_ab_apply, matmul_cols1_apply]
  refine congrArg (xo (ix3 (0 : Fin 1) b f) + ·) (Finset.sum_congr rfl fun r _ => ?_)
  rw [oh1_apply, wgt1_apply]
  unfold Cert.SegAttn.term
  by_cases hb : (x1 (ix1 r)).toInt = (b.val : ℤ)
  · rw [if_pos hb, if_pos hb, one_mul]
    unfold Cert.SegAttn.gate
    refine congrArg (fun s => Ideal.logistic s * x0 (ix2 r f)) (Finset.sum_congr rfl fun h _ => ?_)
    rw [key1_apply, qry1_apply, sum_onehot_mul _ b hb]
  · rw [if_neg hb, if_neg hb, zero_mul]

end Cert.KernelIdeal.Seg

end
-- ==== Proof.AccumE.lean ====
/-
  What an aggregation region leaves in its result array: shard `s`'s block holds, at graph `b` and feature `f`, the sum
  over the shard's tiles and each tile's rows of the row's contribution.

  The output block of a shard stays resident across the shard's tiles: zeroed at the first, each tile adding its
  partial aggregate, written back after the last.  By induction over the grid points the block after tile j of a
  shard is the sum over tiles 0..j; the array is then read off the write-backs.
-/
import proofs.«419372_j26302379720747_1_alg».proof.Proof.Gen.KernelIdeal.Frame
import proofs.«419372_j26302379720747_1_alg».proof.Proof.Arrays
import proofs.«419372_j26302379720747_1_alg».proof.Proof.Bodies
import proofs.«419372_j26302379720747_1_alg».proof.Proof.PayAgg
import Idealize.ShloMosaic.Lib.Pipeline.Value
import Idealize.ShloMosaic.Lib.ValueIdx

noncomputable section

namespace Cert.KernelIdeal.Seg

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-! ## Where each window's block sits -/

/-- The block indices at grid point `t` (shard `t / 196`, tile `t % 196`): the row windows sit at block `t` of the
    padded rows, the weight, bias and query windows at the origin, the output window at block `t / 196`. -/
theorem AccumE_idx : ∀ t : Fin cfg0.N,
    win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 3) = t.val / 196 ∧ win0_5.index t (1 : Fin 3) = 0 ∧ win0_5.index t (2 : Fin 3) = 0 :=
  (by decide +kernel : ∀ t : Fin grid0.N, _)

/-- The five input blocks at point `t`, at their literal types. -/
abbrev AccumE_blk0 (c : Dev nD) (t : Fin cfg0.N) : Vec Ideal S4096x128 .f32 := iblk0 V c 0 t
abbrev AccumE_blk1 (c : Dev nD) (t : Fin cfg0.N) : Vec Ideal S4096 .i32 := iblk0 V c 1 t
abbrev AccumE_blk2 (c : Dev nD) (t : Fin cfg0.N) : Vec Ideal S128x64 .bf16 := iblk0 V c 2 t
abbrev AccumE_blk3 (c : Dev nD) (t : Fin cfg0.N) : Vec Ideal S64 .f32 := iblk0 V c 3 t
abbrev AccumE_blk4 (c : Dev nD) (t : Fin cfg0.N) : Vec Ideal S128x64 .bf16 := iblk0 V c 4 t

/-- Row `r` of the feature block at point `t` is padded row `4096 t + r`. -/
theorem AccumE_read0 (c : Dev nD) (t : Fin cfg0.N) (r : Fin 4096) (f' : Fin 128) (n : Fin 1605632)
    (hn : n.val = t.val * 4096 + r.val) :
    AccumE_blk0 V c t (ix2 r f') = featE V c (ix2 n f') := by
  show V c main_v11 (((cfg0.win 0).blk t).view.emb (ix2 r f')) = V c main_v11 (ix2 n f')
  refine congrArg (V c main_v11) ?_
  funext a
  apply Fin.ext
  match a with
  | ⟨0, _⟩ =>
    show win0_0.index t (0 : Fin 2) * 4096 + 1 * r.val = n.val
    rw [(AccumE_idx t).1]; omega
  | ⟨1, _⟩ =>
    show win0_0.index t (1 : Fin 2) * 128 + 1 * f'.val = f'.val
    rw [(AccumE_idx t).2.1]; omega

/-- Entry `r` of the id block at point `t` is the id of padded row `4096 t + r`. -/
theorem AccumE_read1 (c : Dev nD) (t : Fin cfg0.N) (r : Fin 4096) (n : Fin 1605632)
    (hn : n.val = t.val * 4096 + r.val) :
    AccumE_blk1 V c t (ix1 r) = idsE V c (ix1 n) := by
  show V c main_v12 (((cfg0.win 1).blk t).view.emb (ix1 r)) = V c main_v12 (ix1 n)
  refine congrArg (V c main_v12) ?_
  funext a
  apply Fin.ext
  match a with
  | ⟨0, _⟩ =>
    show win0_1.index t (0 : Fin 1) * 4096 + 1 * r.val = n.val
    rw [(AccumE_idx t).2.2.1]; omega

/-- The key weights' block is the whole weight array at every point. -/
theorem AccumE_read2 (c : Dev nD) (t : Fin cfg0.N) (f' : Fin 128) (h : Fin 64) :
    AccumE_blk2 V c t (ix2 f' h) = wkE V c (ix2 f' h) := by
  show V c main_v13 (((cfg0.win 2).blk t).view.emb (ix2 f' h)) = V c main_v13 (ix2 f' h)
  refine congrArg (V c main_v13) ?_
  funext a
  apply Fin.ext
  match a with
  | ⟨0, _⟩ =>
    show win0_2.index t (0 : Fin 2) * 128 + 1 * f'.val = f'.val
    rw [(AccumE_idx t).2.2.2.1]; omega
  | ⟨1, _⟩ =>
    show win0_2.index t (1 : Fin 2) * 64 + 1 * h.val = h.val
    rw [(AccumE_idx t).2.2.2.2.1]; omega

/-- The key bias's block is the whole bias array at every point. -/
theorem AccumE_read3 (c : Dev nD) (t : Fin cfg0.N) (h : Fin 64) :
    AccumE_blk3 V c t (ix1 h) = bkE V c (ix1 h) := by
  show V c main_arg6 (((cfg0.win 3).blk t).view.emb (ix1 h)) = V c main_arg6 (ix1 h)
  refine congrArg (V c main_arg6) ?_
  funext a
  apply Fin.ext
  match a with
  | ⟨0, _⟩ =>
    show win0_3.index t (0 : Fin 1) * 64 + 1 * h.val = h.val
    rw [(AccumE_idx t).2.2.2.2.2.1]; omega

/-- The query rows' block is the whole query array at every point. -/
theorem AccumE_read4 (c : Dev nD) (t : Fin cfg0.N) (b' : Fin 128) (h : Fin 64) :
    AccumE_blk4 V c t (ix2 b' h) = qE V c (ix2 b' h) := by
  show V c main_v14 (((cfg0.win 4).blk t).view.emb (ix2 b' h)) = V c main_v14 (ix2 b' h)
  refine congrArg (V c main_v14) ?_
  funext a
  apply Fin.ext
  match a with
  | ⟨0, _⟩ =>
    show win0_4.index t (0 : Fin 2) * 128 + 1 * b'.val = b'.val
    rw [(AccumE_idx t).2.2.2.2.2.2.1]; omega
  | ⟨1, _⟩ =>
    show win0_4.index t (1 : Fin 2) * 64 + 1 * h.val = h.val
    rw [(AccumE_idx t).2.2.2.2.2.2.2.1]; omega

/-! ## One tile's contribution -/

/-- A row's contribution depends only on the values of its arguments. -/
theorem AccumE_term_congr {x x' : Fin 128 → EReal} {id id' : BitVec 32} {Wk Wk' : Fin 128 → Fin 64 → EReal}
    {bk bk' : Fin 64 → EReal} {Q Q' : Fin 128 → Fin 64 → EReal}
    (hx : ∀ f, x f = x' f) (hid : id = id') (hW : ∀ f h, Wk f h = Wk' f h) (hb : ∀ h, bk h = bk' h)
    (hQ : ∀ b h, Q b h = Q' b h) (b f : Fin 128) :
    Cert.SegAttn.term x id Wk bk Q b f = Cert.SegAttn.term x' id' Wk' bk' Q' b f := by
  obtain rfl : x = x' := funext hx
  subst hid
  obtain rfl : Wk = Wk' := funext fun f => funext (hW f)
  obtain rfl : bk = bk' := funext hb
  obtain rfl : Q = Q' := funext fun b => funext (hQ b)
  rfl

/-- What the 4096 rows of tile number `p` (counted through both shards, `p < 392`) add to graph `b` at feature `f`. -/
def AccumE_tile (c : Dev nD) (p : ℕ) (b f : Fin 128) : EReal :=
  if h : p < 392 then ∑ r : Fin 4096, termE V c ⟨p * 4096 + r.val, by have := r.isLt; omega⟩ b f else 0

/-- The sum the body forms over the rows of its blocks at point `t` is tile `t`'s contribution. -/
theorem AccumE_tile_at (c : Dev nD) (t : Fin cfg0.N) (b f : Fin 128) :
    (∑ r : Fin 4096, Cert.SegAttn.term (fun f' => AccumE_blk0 V c t (ix2 r f')) (AccumE_blk1 V c t (ix1 r))
        (fun f' h => AccumE_blk2 V c t (ix2 f' h)) (fun h => AccumE_blk3 V c t (ix1 h))
        (fun b' h => AccumE_blk4 V c t (ix2 b' h)) b f)
      = AccumE_tile V c t.val b f := by
  have hN : t.val < 392 := lt_of_lt_of_eq t.isLt (show cfg0.N = 392 from N_0)
  unfold AccumE_tile
  rw [dif_pos hN]
  refine Finset.sum_congr rfl fun r _ => ?_
  unfold termE
  exact AccumE_term_congr (fun f' => AccumE_read0 V c t r f' _ rfl) (AccumE_read1 V c t r _ rfl)
    (fun f' h => AccumE_read2 V c t f' h) (fun h => AccumE_read3 V c t h) (fun b' h => AccumE_read4 V c t b' h) b f

/-! ## The output block after each point -/

/-- At a shard's first tile the block ends at that tile's contribution: the zero block plus it. -/
theorem AccumE_first (c : Dev nD) (t : Fin cfg0.N) (h0 : t.val % 196 = 0) (b f : Fin 128) :
    (outsAt0 V c t.val t.isLt : Vec Ideal S1x128x128 .f32) (ix3 (0 : Fin 1) b f) = AccumE_tile V c t.val b f := by
  rw [outsAt0_A V c t h0]
  refine (congrFun (out0_A (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) ((hcond0_0 t).mpr h0)
    (AccumE_blk0 V c t) (AccumE_blk1 V c t) (AccumE_blk2 V c t) (AccumE_blk3 V c t) (AccumE_blk4 V c t))
    (ix3 (0 : Fin 1) b f)).trans ?_
  refine (pay0 (AccumE_blk0 V c t) (AccumE_blk1 V c t) (AccumE_blk2 V c t) (AccumE_blk3 V c t) (AccumE_blk4 V c t)
    (k0_pay2 (F := Ideal)) b f).trans ?_
  rw [pay0_zero b f, zero_add]
  exact AccumE_tile_at V c t b f

/-- At a later tile of a shard the block ends at what the tile before left plus the tile's contribution. -/
theorem AccumE_later (c : Dev nD) (t : Fin cfg0.N) (h0 : ¬t.val % 196 = 0) (b f : Fin 128) :
    (outsAt0 V c t.val t.isLt : Vec Ideal S1x128x128 .f32) (ix3 (0 : Fin 1) b f)
      = ((outsAt0 V c (t.val - 1) (Nat.lt_of_le_of_lt (Nat.sub_le _ _) t.isLt) : Vec Ideal S1x128x128 .f32)
          (ix3 (0 : Fin 1) b f) : EReal) + AccumE_tile V c t.val b f := by
  rw [outsAt0_B V c t h0]
  refine (congrFun (out0_B (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (fun h => h0 ((hcond0_0 t).mp h))
    (AccumE_blk0 V c t) (AccumE_blk1 V c t) (AccumE_blk2 V c t) (AccumE_blk3 V c t) (AccumE_blk4 V c t)
    (outsAt0 V c (t.val - 1) (Nat.lt_of_le_of_lt (Nat.sub_le _ _) t.isLt)))
    (ix3 (0 : Fin 1) b f)).trans ?_
  refine (pay0 (AccumE_blk0 V c t) (AccumE_blk1 V c t) (AccumE_blk2 V c t) (AccumE_blk3 V c t) (AccumE_blk4 V c t)
    (outsAt0 V c (t.val - 1) (Nat.lt_of_le_of_lt (Nat.sub_le _ _) t.isLt)) b f).trans ?_
  rw [AccumE_tile_at V c t b f]

/-- The sum of a shard's tiles up to and including point `n`'s. -/
def AccumE_partial (c : Dev nD) (n : ℕ) (b f : Fin 128) : EReal :=
  ∑ j' ∈ Finset.range (n % 196 + 1), AccumE_tile V c (n / 196 * 196 + j') b f

/-- At a shard's first tile the partial sum is that tile's contribution. -/
theorem AccumE_partial_first (c : Dev nD) (n : ℕ) (h0 : n % 196 = 0) (b f : Fin 128) :
    AccumE_partial V c n b f = AccumE_tile V c n b f := by
  unfold AccumE_partial
  rw [h0, Nat.zero_add, Finset.sum_range_one, show n / 196 * 196 + 0 = n by omega]

/-- At a later tile the partial sum is the one before plus the tile's contribution. -/
theorem AccumE_partial_later (c : Dev nD) (n : ℕ) (h0 : ¬(n + 1) % 196 = 0) (b f : Fin 128) :
    AccumE_partial V c (n + 1) b f = AccumE_partial V c n b f + AccumE_tile V c (n + 1) b f := by
  unfold AccumE_partial
  rw [show (n + 1) % 196 + 1 = (n % 196 + 1) + 1 by omega, show (n + 1) / 196 = n / 196 by omega,
    Finset.sum_range_succ (fun j' => AccumE_tile V c (n / 196 * 196 + j') b f) (n % 196 + 1),
    show n / 196 * 196 + (n % 196 + 1) = n + 1 by omega]

/-- After point `n` the output block holds, at graph `b` and feature `f`, the sum of its shard's tiles so far:
    by induction on the point, a shard's first tile restarting the sum. -/
theorem AccumE_outsAt (c : Dev nD) (b f : Fin 128) : ∀ (n : ℕ) (hn : n < cfg0.N),
    (outsAt0 V c n hn : Vec Ideal S1x128x128 .f32) (ix3 (0 : Fin 1) b f) = AccumE_partial V c n b f
  | 0, hn => (AccumE_first V c ⟨0, hn⟩ rfl b f).trans (AccumE_partial_first V c 0 rfl b f).symm
  | n + 1, hn => by
    by_cases h0 : (n + 1) % 196 = 0
    · exact (AccumE_first V c ⟨n + 1, hn⟩ h0 b f).trans (AccumE_partial_first V c (n + 1) h0 b f).symm
    · have ih := AccumE_outsAt c b f n (Nat.lt_of_succ_lt hn)
      have hl := AccumE_later V c ⟨n + 1, hn⟩ h0 b f
      rw [AccumE_partial_later V c n h0 b f, ← ih]
      exact hl

/-- After a shard's last tile the partial sum is the sum over all the shard's tiles and their rows. -/
theorem AccumE_partial_last (c : Dev nD) (s : Fin 2) (n : ℕ) (hn : n = s.val * 196 + 195) (b f : Fin 128) :
    AccumE_partial V c n b f = ∑ j : Fin 196, ∑ r : Fin 4096, termE V c (rowE s j r) b f := by
  subst hn
  unfold AccumE_partial
  rw [show (s.val * 196 + 195) % 196 + 1 = 196 by omega, show (s.val * 196 + 195) / 196 = s.val by omega,
    Finset.sum_range]
  refine Finset.sum_congr rfl fun j _ => ?_
  have hp : s.val * 196 + j.val < 392 := by have := j.isLt; have := s.isLt; omega
  unfold AccumE_tile
  rw [dif_pos hp]
  rfl

/-! ## The result array -/

/-- The array the region leaves: at shard `s`, graph `b`, feature `f`, the sum over the shard's tiles and rows. -/
def AccumE_arr (c : Dev nD) : Vec Ideal S2x128x128 .f32 := fun i =>
  ∑ j : Fin 196, ∑ r : Fin 4096, termE V c (rowE (i 0) j r) (i 1) (i 2)

/-- What a shard's last point writes back is the shard's block of that array. -/
theorem AccumE_flushed (c : Dev nD) (t : Fin cfg0.N) (hf : (cfg0.win 5).flush t = true) :
    (dat0 (F := Ideal) V c).flushed 5 t = ((cfg0.win 5).blk t).view.read (Elt Ideal) (AccumE_arr V c) := by
  have hN : t.val < 392 := lt_of_lt_of_eq t.isLt (show cfg0.N = 392 from N_0)
  have h195 : t.val % 196 = 195 := (flush0_5 t).mp hf
  have hs : t.val / 196 < 2 := by omega
  show (cfg0.win 5).cut (grid0.coords t) ((dat0 (F := Ideal) V c).after 5 t) = _
  rw [after0_5 V c t]
  funext y
  obtain ⟨a, b, f, rfl⟩ : ∃ (a : Fin 1) (b f : Fin 128), y = ix3 a b f := ⟨y 0, y 1, y 2, eq_ix3 y⟩
  obtain rfl : a = 0 := Subsingleton.elim _ _
  have hemb : ((cfg0.win 5).blk t).view.emb (ix3 (0 : Fin 1) b f) = ix3 (⟨t.val / 196, hs⟩ : Fin 2) b f := by
    funext a
    apply Fin.ext
    match a with
    | ⟨0, _⟩ =>
      show win0_5.index t (0 : Fin 3) * 1 + 1 * 0 = t.val / 196
      rw [(AccumE_idx t).2.2.2.2.2.2.2.2.1]; omega
    | ⟨1, _⟩ =>
      show win0_5.index t (1 : Fin 3) * 128 + 1 * b.val = b.val
      rw [(AccumE_idx t).2.2.2.2.2.2.2.2.2.1]; omega
    | ⟨2, _⟩ =>
      show win0_5.index t (2 : Fin 3) * 128 + 1 * f.val = f.val
      rw [(AccumE_idx t).2.2.2.2.2.2.2.2.2.2]; omega
  show (outsAt0 V c t.val t.isLt : Vec Ideal S1x128x128 .f32) (ix3 (0 : Fin 1) b f)
    = AccumE_arr V c (((cfg0.win 5).blk t).view.emb (ix3 (0 : Fin 1) b f))
  rw [hemb, AccumE_outsAt V c b f t.val t.isLt]
  exact AccumE_partial_last V c ⟨t.val / 196, hs⟩ t.val (by show t.val = t.val / 196 * 196 + 195; omega) b f

/-- An index of the array is in point `t`'s block iff each coordinate is in the block's range on its axis. -/
theorem AccumE_mem_blk (t : Fin cfg0.N) (i : S2x128x128.Idx) :
    i ∈ ((cfg0.win 5).blk t).view.set ↔ ∀ a : Fin 3, win0_5.index t a * S1x128x128.size a ≤ (i a).val
      ∧ (i a).val < win0_5.index t a * S1x128x128.size a + S1x128x128.size a := by
  show i ∈ ((View.whole main_v15).slice (win0_5.rect t)).set ↔ _
  rw [View.set_slice_whole, Rect.mem_set_unit]
  exact Iff.rfl

/-- Every index of the array lies in the block its shard's last point writes back. -/
theorem AccumE_cover (i : S2x128x128.Idx) :
    ∃ t : Fin cfg0.N, (cfg0.win 5).flush t = true ∧ i ∈ ((cfg0.win 5).blk t).view.set := by
  have h0 : (i 0).val < 2 := (i 0).isLt
  have h1 : (i 1).val < 128 := (i 1).isLt
  have h2 : (i 2).val < 128 := (i 2).isLt
  have hN : cfg0.N = 392 := N_0
  have hb : (i 0).val * 196 + 195 < cfg0.N := by rw [hN]; omega
  obtain ⟨t, ht⟩ : ∃ t : Fin cfg0.N, t.val = (i 0).val * 196 + 195 := ⟨⟨_, hb⟩, rfl⟩
  obtain ⟨-, -, -, -, -, -, -, -, e0, e1, e2⟩ := AccumE_idx t
  refine ⟨t, (flush0_5 t).mpr (by omega), ?_⟩
  rw [AccumE_mem_blk]
  intro a
  match a with
  | ⟨0, _⟩ =>
    show win0_5.index t (0 : Fin 3) * 1 ≤ (i 0).val ∧ (i 0).val < win0_5.index t (0 : Fin 3) * 1 + 1
    rw [e0]; omega
  | ⟨1, _⟩ =>
    show win0_5.index t (1 : Fin 3) * 128 ≤ (i 1).val ∧ (i 1).val < win0_5.index t (1 : Fin 3) * 128 + 128
    rw [e1]; omega
  | ⟨2, _⟩ =>
    show win0_5.index t (2 : Fin 3) * 128 ≤ (i 2).val ∧ (i 2).val < win0_5.index t (2 : Fin 3) * 128 + 128
    rw [e2]; omega

/-- So the result array ends holding, shard by shard, the sums over the shard's tiles and rows. -/
theorem AccumE_final (c : Dev nD) : (dat0 (F := Ideal) V c).arrAt 5 cfg0.N = AccumE_arr V c :=
  (dat0 (F := Ideal) V c).arrAt_eq_of_cover 5 (AccumE_arr V c) (fun t hf => AccumE_flushed V c t hf) AccumE_cover

/-- The edge region's result array, shard by shard. -/
theorem arr0 (c : Dev nD) (s : Fin 2) (b f : Fin 128) :
    ((dat0 (F := Ideal) V c).arrAt 5 cfg0.N : Vec Ideal S2x128x128 .f32) (ix3 s b f)
      = ∑ j : Fin 196, ∑ r : Fin 4096, termE V c (rowE s j r) b f := by
  refine (congrFun (AccumE_final V c) (ix3 s b f)).trans ?_
  rfl

end Cert.KernelIdeal.Seg

end
-- ==== Proof.AccumX.lean ====
/-
  What an aggregation region leaves in its result array: shard `s`'s block holds, at graph `b` and feature `f`, the sum
  over the shard's tiles and each tile's rows of the row's contribution.

  The output block of a shard stays resident across the shard's tiles: zeroed at the first, each tile adding its
  partial aggregate, written back after the last.  By induction over the grid points the block after tile j of a
  shard is the sum over tiles 0..j; the array is then read off the write-backs.
-/
import proofs.«419372_j26302379720747_1_alg».proof.Proof.Gen.KernelIdeal.Frame
import proofs.«419372_j26302379720747_1_alg».proof.Proof.Arrays
import proofs.«419372_j26302379720747_1_alg».proof.Proof.Bodies
import proofs.«419372_j26302379720747_1_alg».proof.Proof.PayAgg
import Idealize.ShloMosaic.Lib.Pipeline.Value
import Idealize.ShloMosaic.Lib.ValueIdx

noncomputable section

namespace Cert.KernelIdeal.Seg

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-! ## Where each grid point's blocks sit -/

/-- The block indices of the node region's six windows at grid point `t` (of 50: shard `t / 25`, tile `t % 25`), decided
    once over the grid: the feature and id tiles are the `t`-th of the padded rows, the key weights, key bias and query
    rows are read whole, and the output block is the point's shard. -/
theorem AccumX_idx : ∀ t : Fin cfg1.N,
    win1_0.index t (0 : Fin 2) = t.val ∧ win1_0.index t (1 : Fin 2) = 0
    ∧ win1_1.index t (0 : Fin 1) = t.val
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 3) = t.val / 25 ∧ win1_5.index t (1 : Fin 3) = 0 ∧ win1_5.index t (2 : Fin 3) = 0 :=
  (by decide +kernel : ∀ t : Fin grid1.N, _)

/-- Row `r` of the `p`-th tile (the 50 tiles counted shard by shard), among the padded node rows. -/
def AccumX_row (p : ℕ) (r : Fin 2048) : Fin 102400 := ⟨(p * 2048 + r.val) % 102400, Nat.mod_lt _ (by decide)⟩

/-- Tile `j` of shard `s` is the `(25 s + j)`-th tile. -/
theorem AccumX_row_eq (s : Fin 2) (j : Fin 25) (r : Fin 2048) : AccumX_row (s.val * 25 + j.val) r = rowX s j r := by
  apply Fin.ext
  show ((s.val * 25 + j.val) * 2048 + r.val) % 102400 = (s.val * 25 + j.val) * 2048 + r.val
  have hs := s.isLt
  have hj := j.isLt
  have hr := r.isLt
  omega

/-- The feature tile at point `t`: rows `2048 t … 2048 t + 2047` of the padded node features. -/
theorem AccumX_read0 (c : Dev nD) (t : Fin cfg1.N) (r : Fin 2048) (f' : Fin 128) :
    (iblk1 V c 0 t : Vec Ideal S2048x128 .f32) (ix2 r f') = featX V c (ix2 (AccumX_row t.val r) f') := by
  have hN : cfg1.N = 50 := N_1
  have ht := t.isLt
  have hr := r.isLt
  obtain ⟨e0, e1, -⟩ := AccumX_idx t
  show V c main_v17 (((cfg1.win 0).blk t).view.emb (ix2 r f')) = V c main_v17 (ix2 (AccumX_row t.val r) f')
  refine congrArg (V c main_v17) ?_
  funext a
  apply Fin.ext
  match a with
  | ⟨0, _⟩ =>
    show win1_0.index t (0 : Fin 2) * 2048 + 1 * r.val = (t.val * 2048 + r.val) % 102400
    rw [e0]; omega
  | ⟨1, _⟩ =>
    show win1_0.index t (1 : Fin 2) * 128 + 1 * f'.val = f'.val
    rw [e1]; omega

/-- The id tile at point `t`: the same rows of the padded graph ids. -/
theorem AccumX_read1 (c : Dev nD) (t : Fin cfg1.N) (r : Fin 2048) :
    (iblk1 V c 1 t : Vec Ideal S2048 .i32) (ix1 r) = idsX V c (ix1 (AccumX_row t.val r)) := by
  have hN : cfg1.N = 50 := N_1
  have ht := t.isLt
  have hr := r.isLt
  obtain ⟨-, -, e0, -⟩ := AccumX_idx t
  show V c main_v18 (((cfg1.win 1).blk t).view.emb (ix1 r)) = V c main_v18 (ix1 (AccumX_row t.val r))
  refine congrArg (V c main_v18) ?_
  funext a
  apply Fin.ext
  match a with
  | ⟨0, _⟩ =>
    show win1_1.index t (0 : Fin 1) * 2048 + 1 * r.val = (t.val * 2048 + r.val) % 102400
    rw [e0]; omega

/-- The key weights are read whole at every point. -/
theorem AccumX_read2 (c : Dev nD) (t : Fin cfg1.N) (f' : Fin 128) (h : Fin 64) :
    (iblk1 V c 2 t : Vec Ideal S128x64 .bf16) (ix2 f' h) = wkX V c (ix2 f' h) := by
  obtain ⟨-, -, -, e0, e1, -⟩ := AccumX_idx t
  show V c main_v19 (((cfg1.win 2).blk t).view.emb (ix2 f' h)) = V c main_v19 (ix2 f' h)
  refine congrArg (V c main_v19) ?_
  funext a
  apply Fin.ext
  match a with
  | ⟨0, _⟩ =>
    show win1_2.index t (0 : Fin 2) * 128 + 1 * f'.val = f'.val
    rw [e0]; omega
  | ⟨1, _⟩ =>
    show win1_2.index t (1 : Fin 2) * 64 + 1 * h.val = h.val
    rw [e1]; omega

/-- The key bias is read whole at every point. -/
theorem AccumX_read3 (c : Dev nD) (t : Fin cfg1.N) (h : Fin 64) :
    (iblk1 V c 3 t : Vec Ideal S64 .f32) (ix1 h) = bkX V c (ix1 h) := by
  obtain ⟨-, -, -, -, -, e0, -⟩ := AccumX_idx t
  show V c main_arg10 (((cfg1.win 3).blk t).view.emb (ix1 h)) = V c main_arg10 (ix1 h)
  refine congrArg (V c main_arg10) ?_
  funext a
  apply Fin.ext
  match a with
  | ⟨0, _⟩ =>
    show win1_3.index t (0 : Fin 1) * 64 + 1 * h.val = h.val
    rw [e0]; omega

/-- The graphs' query rows are read whole at every point. -/
theorem AccumX_read4 (c : Dev nD) (t : Fin cfg1.N) (b' : Fin 128) (h : Fin 64) :
    (iblk1 V c 4 t : Vec Ideal S128x64 .bf16) (ix2 b' h) = qX V c (ix2 b' h) := by
  obtain ⟨-, -, -, -, -, -, e0, e1, -⟩ := AccumX_idx t
  show V c main_v20 (((cfg1.win 4).blk t).view.emb (ix2 b' h)) = V c main_v20 (ix2 b' h)
  refine congrArg (V c main_v20) ?_
  funext a
  apply Fin.ext
  match a with
  | ⟨0, _⟩ =>
    show win1_4.index t (0 : Fin 2) * 128 + 1 * b'.val = b'.val
    rw [e0]; omega
  | ⟨1, _⟩ =>
    show win1_4.index t (1 : Fin 2) * 64 + 1 * h.val = h.val
    rw [e1]; omega

/-! ## One tile's partial aggregate -/

/-- What the `p`-th tile adds to graph `b` at feature `f`: the contributions of its 2048 rows. -/
def AccumX_tile (c : Dev nD) (p : ℕ) (b f : Fin 128) : EReal := ∑ r : Fin 2048, termX V c (AccumX_row p r) b f

/-- A row's contribution depends only on the row's features and id and on the three tables. -/
theorem AccumX_term_congr {x x' : Fin 128 → EReal} {id id' : BitVec 32} {Wk Wk' : Fin 128 → Fin 64 → EReal}
    {bk bk' : Fin 64 → EReal} {Q Q' : Fin 128 → Fin 64 → EReal} (hx : x = x') (hid : id = id') (hW : Wk = Wk')
    (hb : bk = bk') (hQ : Q = Q') (b f : Fin 128) :
    Cert.SegAttn.term x id Wk bk Q b f = Cert.SegAttn.term x' id' Wk' bk' Q' b f := by
  subst hx hid hW hb hQ
  rfl

/-- The body at point `t`, on the blocks the point's windows hold and an output block holding `xo`: at graph `b`,
    feature `f` it leaves `xo`'s entry plus the `t`-th tile's partial aggregate. -/
theorem AccumX_pay (c : Dev nD) (t : Fin cfg1.N) (xo : Vec Ideal S1x128x128 .f32) (b f : Fin 128) :
    k1_pay1 (F := Ideal) (k1_pay3 (F := Ideal) (iblk1 V c 0 t) (iblk1 V c 1 t) (iblk1 V c 2 t) (iblk1 V c 3 t) (iblk1 V c 4 t) xo)
        (ix3 (0 : Fin 1) b f)
      = xo (ix3 (0 : Fin 1) b f) + AccumX_tile V c t.val b f := by
  refine (pay1 (iblk1 V c 0 t) (iblk1 V c 1 t) (iblk1 V c 2 t) (iblk1 V c 3 t) (iblk1 V c 4 t) xo b f).trans ?_
  refine congrArg (fun z : EReal => xo (ix3 (0 : Fin 1) b f) + z) ?_
  unfold AccumX_tile
  refine Finset.sum_congr rfl fun r _ => ?_
  unfold termX
  exact AccumX_term_congr (funext fun f' => AccumX_read0 V c t r f') (AccumX_read1 V c t r)
    (funext fun f' => funext fun h => AccumX_read2 V c t f' h) (funext fun h => AccumX_read3 V c t h)
    (funext fun b' => funext fun h => AccumX_read4 V c t b' h) b f

/-! ## The resident output block, point by point -/

/-- At a shard's first tile the block is reset and holds that tile's partial aggregate alone. -/
theorem AccumX_stepA (c : Dev nD) (b f : Fin 128) (t : Fin cfg1.N) (h0 : t.val % 25 = 0) :
    (outsAt1 V c t.val t.isLt : Vec Ideal S1x128x128 .f32) (ix3 (0 : Fin 1) b f) = AccumX_tile V c t.val b f := by
  rw [outsAt1_A V c t h0]
  refine (congrFun (out1_A (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) ((hcond1_0 t).mpr h0)
    (iblk1 V c 0 t) (iblk1 V c 1 t) (iblk1 V c 2 t) (iblk1 V c 3 t) (iblk1 V c 4 t)) (ix3 (0 : Fin 1) b f)).trans ?_
  refine (AccumX_pay V c t (k1_pay2 (F := Ideal)) b f).trans ?_
  rw [pay1_zero b f, zero_add]

/-- At a later tile of a shard the block holds what the tile before left plus this tile's partial aggregate. -/
theorem AccumX_stepB (c : Dev nD) (b f : Fin 128) (t : Fin cfg1.N) (h0 : ¬t.val % 25 = 0) :
    (outsAt1 V c t.val t.isLt : Vec Ideal S1x128x128 .f32) (ix3 (0 : Fin 1) b f)
      = (outsAt1 V c (t.val - 1) (Nat.lt_of_le_of_lt (Nat.sub_le _ _) t.isLt) : Vec Ideal S1x128x128 .f32) (ix3 (0 : Fin 1) b f)
        + AccumX_tile V c t.val b f := by
  rw [outsAt1_B V c t h0]
  refine (congrFun (out1_B (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t) (fun h => h0 ((hcond1_0 t).mp h))
    (iblk1 V c 0 t) (iblk1 V c 1 t) (iblk1 V c 2 t) (iblk1 V c 3 t) (iblk1 V c 4 t)
    (outsAt1 V c (t.val - 1) (Nat.lt_of_le_of_lt (Nat.sub_le _ _) t.isLt))) (ix3 (0 : Fin 1) b f)).trans ?_
  exact AccumX_pay V c t (outsAt1 V c (t.val - 1) (Nat.lt_of_le_of_lt (Nat.sub_le _ _) t.isLt)) b f

/-- After point `n` (shard `n / 25`, tile `n % 25`) the block holds the partial aggregates of the shard's tiles
    `0 … n % 25`, summed — by induction on the point. -/
theorem AccumX_outs (c : Dev nD) (b f : Fin 128) : ∀ (n : ℕ) (hn : n < cfg1.N),
    (outsAt1 V c n hn : Vec Ideal S1x128x128 .f32) (ix3 (0 : Fin 1) b f)
      = ∑ j' ∈ Finset.range (n % 25 + 1), AccumX_tile V c (n / 25 * 25 + j') b f := by
  intro n
  induction n with
  | zero =>
    intro hn
    refine (AccumX_stepA V c b f ⟨0, hn⟩ rfl).trans ?_
    show AccumX_tile V c 0 b f = ∑ j' ∈ Finset.range 1, AccumX_tile V c (0 + j') b f
    rw [Finset.sum_range_one]
  | succ k ih =>
    intro hn
    by_cases h0 : (k + 1) % 25 = 0
    · refine (AccumX_stepA V c b f ⟨k + 1, hn⟩ h0).trans ?_
      show AccumX_tile V c (k + 1) b f = _
      have hr : (k + 1) % 25 + 1 = 1 := by omega
      have he : (k + 1) / 25 * 25 + 0 = k + 1 := by omega
      rw [hr, Finset.sum_range_one, he]
    · refine (AccumX_stepB V c b f ⟨k + 1, hn⟩ h0).trans ?_
      show (outsAt1 V c k (Nat.lt_of_succ_lt hn) : Vec Ideal S1x128x128 .f32) (ix3 (0 : Fin 1) b f)
        + AccumX_tile V c (k + 1) b f = _
      have hr : (k + 1) % 25 + 1 = (k % 25 + 1) + 1 := by omega
      have hq : (k + 1) / 25 = k / 25 := by omega
      have he : k / 25 * 25 + (k % 25 + 1) = k + 1 := by omega
      rw [hr, Finset.sum_range_succ, hq, he, ih (Nat.lt_of_succ_lt hn)]

/-! ## The array the write-backs assemble -/

/-- Shard `s`'s aggregate at graph `b`, feature `f`: its 25 tiles' partial aggregates, summed. -/
def AccumX_shard (c : Dev nD) (s : Fin 2) (b f : Fin 128) : EReal :=
  ∑ j' ∈ Finset.range 25, AccumX_tile V c (s.val * 25 + j') b f

/-- The result array: block `s` is shard `s`'s aggregate. -/
def AccumX_G (c : Dev nD) : Vec Ideal S2x128x128 .f32 := fun i => AccumX_shard V c (i 0) (i 1) (i 2)

/-- After a shard's last tile the block holds the shard's aggregate. -/
theorem AccumX_last (c : Dev nD) (b f : Fin 128) (t : Fin cfg1.N) (h24 : t.val % 25 = 24) (s : Fin 2)
    (hs : s.val = t.val / 25) :
    (outsAt1 V c t.val t.isLt : Vec Ideal S1x128x128 .f32) (ix3 (0 : Fin 1) b f) = AccumX_shard V c s b f := by
  refine (AccumX_outs V c b f t.val t.isLt).trans ?_
  unfold AccumX_shard
  have h25 : t.val % 25 + 1 = 25 := by omega
  rw [h25, hs]

/-- What a shard's last point writes back is the shard's block of the result array: entry `(0, b, f)` of the resident
    block goes to `(s, b, f)`, `s` the point's shard. -/
theorem AccumX_flushed (c : Dev nD) (t : Fin cfg1.N) (hf : (cfg1.win 5).flush t = true) :
    (dat1 V c).flushed 5 t = ((cfg1.win 5).blk t).view.read (Elt Ideal) (AccumX_G V c) := by
  have hN : cfg1.N = 50 := N_1
  have ht := t.isLt
  have h24 : t.val % 25 = 24 := (flush1_5 t).mp hf
  obtain ⟨-, -, -, -, -, -, -, -, e0, e1, e2⟩ := AccumX_idx t
  show (cfg1.win 5).cut (grid1.coords t) ((dat1 V c).after 5 t) = _
  rw [after1_5]
  funext y
  have hy0 : (y 0).val < 1 := (y 0).isLt
  have hy1 : (y 1).val < 128 := (y 1).isLt
  have hy2 : (y 2).val < 128 := (y 2).isLt
  have hs : t.val / 25 < 2 := by omega
  have hL : (cfg1.win 5).xinj (grid1.coords t) y = ix3 (0 : Fin 1) (⟨(y 1).val, hy1⟩ : Fin 128) (⟨(y 2).val, hy2⟩ : Fin 128) := by
    funext a
    apply Fin.ext
    match a with
    | ⟨0, _⟩ => show (y 0).val = 0; omega
    | ⟨1, _⟩ => rfl
    | ⟨2, _⟩ => rfl
  have hR : ((cfg1.win 5).blk t).view.emb y
      = ix3 (⟨t.val / 25, hs⟩ : Fin 2) (⟨(y 1).val, hy1⟩ : Fin 128) (⟨(y 2).val, hy2⟩ : Fin 128) := by
    funext a
    apply Fin.ext
    match a with
    | ⟨0, _⟩ =>
      show win1_5.index t (0 : Fin 3) * 1 + 1 * (y 0).val = t.val / 25
      rw [e0]; omega
    | ⟨1, _⟩ =>
      show win1_5.index t (1 : Fin 3) * 128 + 1 * (y 1).val = (y 1).val
      rw [e1]; omega
    | ⟨2, _⟩ =>
      show win1_5.index t (2 : Fin 3) * 128 + 1 * (y 2).val = (y 2).val
      rw [e2]; omega
  show (outsAt1 V c t.val t.isLt : Vec Ideal S1x128x128 .f32) ((cfg1.win 5).xinj (grid1.coords t) y)
    = AccumX_G V c (((cfg1.win 5).blk t).view.emb y)
  refine (congrArg (outsAt1 V c t.val t.isLt : Vec Ideal S1x128x128 .f32) hL).trans ?_
  refine Eq.trans ?_ (congrArg (AccumX_G V c) hR).symm
  exact AccumX_last V c ⟨(y 1).val, hy1⟩ ⟨(y 2).val, hy2⟩ t h24 ⟨t.val / 25, hs⟩ rfl

/-- Every entry `(s, b, f)` of the result array lies in the block that shard `s`'s last point writes back. -/
theorem AccumX_cover (i : S2x128x128.Idx) :
    ∃ t : Fin cfg1.N, (cfg1.win 5).flush t = true ∧ i ∈ ((cfg1.win 5).blk t).view.set := by
  have hN : cfg1.N = 50 := N_1
  have hi0 : (i 0).val < 2 := (i 0).isLt
  have hi1 : (i 1).val < 128 := (i 1).isLt
  have hi2 : (i 2).val < 128 := (i 2).isLt
  obtain ⟨t, ht⟩ : ∃ t : Fin cfg1.N, t.val = (i 0).val * 25 + 24 := ⟨⟨(i 0).val * 25 + 24, by omega⟩, rfl⟩
  obtain ⟨-, -, -, -, -, -, -, -, e0, e1, e2⟩ := AccumX_idx t
  refine ⟨t, (flush1_5 t).mpr (by omega), ?_⟩
  show i ∈ ((View.whole main_v21).slice (win1_5.rect t)).set
  rw [View.set_slice_whole, Rect.mem_set_unit]
  intro a
  match a with
  | ⟨0, _⟩ =>
    show win1_5.index t (0 : Fin 3) * 1 ≤ (i 0).val ∧ (i 0).val < win1_5.index t (0 : Fin 3) * 1 + 1
    rw [e0]; omega
  | ⟨1, _⟩ =>
    show win1_5.index t (1 : Fin 3) * 128 ≤ (i 1).val ∧ (i 1).val < win1_5.index t (1 : Fin 3) * 128 + 128
    rw [e1]; omega
  | ⟨2, _⟩ =>
    show win1_5.index t (2 : Fin 3) * 128 ≤ (i 2).val ∧ (i 2).val < win1_5.index t (2 : Fin 3) * 128 + 128
    rw [e2]; omega

/-- The node region's result array, shard by shard. -/
theorem arr1 (c : Dev nD) (s : Fin 2) (b f : Fin 128) :
    ((dat1 (F := Ideal) V c).arrAt 5 cfg1.N : Vec Ideal S2x128x128 .f32) (ix3 s b f)
      = ∑ j : Fin 25, ∑ r : Fin 2048, termX V c (rowX s j r) b f := by
  have h := (dat1 (F := Ideal) V c).arrAt_eq_of_cover 5 (AccumX_G V c) (AccumX_flushed V c) AccumX_cover
  refine (congrFun h (ix3 s b f)).trans ?_
  show AccumX_shard V c s b f = _
  unfold AccumX_shard
  rw [Finset.sum_range]
  refine Finset.sum_congr rfl fun j _ => ?_
  unfold AccumX_tile
  refine Finset.sum_congr rfl fun r _ => ?_
  rw [AccumX_row_eq]

end Cert.KernelIdeal.Seg

end
-- ==== Proof.PayFinal.lean ====
/-
  The final kernel's arithmetic read at one entry: the three 128-wide blocks side by side, times the weight matrix,
  plus the bias.
-/
import proofs.«419372_j26302379720747_1_alg».proof.Proof.Gen.KernelIdeal.Skeleton
import proofs.«419372_j26302379720747_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Seg

open Idealize.ShloMosaic Idealize.ShloMosaic.TcCoe Idealize.SL.Sem Idealize.ShloMosaic.ValueIdx Cert.KernelIdeal Cert.KernelIdeal.Gen

/-! ## The matrix product's operand indices -/

/-- The left operand's row is the output's row. -/
theorem lhs_final_0 (i : S128x128.Idx) (q : dot_S128x384_S384x128_S128x128_1_0_0_1_n_n.contr.Idx) :
    (dot_S128x384_S384x128_S128x128_1_0_0_1_n_n.lhsIdx i q 0).val = (i 0).val := by
  unfold DotDims.lhsIdx
  rw [dif_neg (show ¬(0 : Fin S128x384.rank) ∈ dot_S128x384_S384x128_S128x128_1_0_0_1_n_n.lhsBatch by decide), dif_pos (show (0 : Fin S128x384.rank) ∈ dot_S128x384_S384x128_S128x128_1_0_0_1_n_n.lhsNonContracting by decide)]
  rfl

/-- The left operand's column is the contraction coordinate. -/
theorem lhs_final_1 (i : S128x128.Idx) (q : dot_S128x384_S384x128_S128x128_1_0_0_1_n_n.contr.Idx) :
    (dot_S128x384_S384x128_S128x128_1_0_0_1_n_n.lhsIdx i q 1).val = (q ⟨0, by decide⟩).val :=
  dot_S128x384_S384x128_S128x128_1_0_0_1_n_n.lhsIdx_val_of_single rfl i q

/-- The right operand's row is the contraction coordinate. -/
theorem rhs_final_0 (i : S128x128.Idx) (q : dot_S128x384_S384x128_S128x128_1_0_0_1_n_n.contr.Idx) :
    (dot_S128x384_S384x128_S128x128_1_0_0_1_n_n.rhsIdx i q 0).val = (q ⟨0, by decide⟩).val :=
  dot_S128x384_S384x128_S128x128_1_0_0_1_n_n.rhsIdx_val_of_single rfl i q

/-- The right operand's column is the output's column. -/
theorem rhs_final_1 (i : S128x128.Idx) (q : dot_S128x384_S384x128_S128x128_1_0_0_1_n_n.contr.Idx) :
    (dot_S128x384_S384x128_S128x128_1_0_0_1_n_n.rhsIdx i q 1).val = (i 1).val := by
  unfold DotDims.rhsIdx
  rw [dif_neg (show ¬(1 : Fin S384x128.rank) ∈ dot_S128x384_S384x128_S128x128_1_0_0_1_n_n.rhsBatch by decide), dif_pos (show (1 : Fin S384x128.rank) ∈ dot_S128x384_S384x128_S128x128_1_0_0_1_n_n.rhsNonContracting by decide)]
  rfl

/-- The product into a zero accumulator at entry (`b`, `o`): the sum over the 384 columns of the left operand's row
    `b` times the right operand's column `o`. -/
theorem matmul_final_apply (l : FVec Ideal S128x384 .bf16) (r : FVec Ideal S384x128 .bf16) (b o : Fin 128) :
    FloatOps.matmul dot_S128x384_S384x128_S128x128_1_0_0_1_n_n none l r (constant (F := Ideal) S128x128 .f32 0x00000000#32) (ix2 b o)
      = ∑ k : Fin 384, l (ix2 b k) * r (ix2 k o) := by
  rw [Ideal.matmul_constant_zero_apply, ← Equiv.sum_comp (ValueIdx.contrEquiv1 dot_S128x384_S384x128_S128x128_1_0_0_1_n_n 384 rfl rfl).symm]
  refine Finset.sum_congr rfl fun k _ => ?_
  have hk := ValueIdx.contrEquiv1_symm_val dot_S128x384_S384x128_S128x128_1_0_0_1_n_n 384 rfl rfl k
  have el : dot_S128x384_S384x128_S128x128_1_0_0_1_n_n.lhsIdx (ix2 b o) ((ValueIdx.contrEquiv1 dot_S128x384_S384x128_S128x128_1_0_0_1_n_n 384 rfl rfl).symm k) = ix2 b k := funext fun a => Fin.ext (by
    match a with
    | ⟨0, _⟩ => exact lhs_final_0 _ _
    | ⟨1, _⟩ => exact (lhs_final_1 _ _).trans hk)
  have er : dot_S128x384_S384x128_S128x128_1_0_0_1_n_n.rhsIdx (ix2 b o) ((ValueIdx.contrEquiv1 dot_S128x384_S384x128_S128x128_1_0_0_1_n_n 384 rfl rfl).symm k) = ix2 k o := funext fun a => Fin.ext (by
    match a with
    | ⟨0, _⟩ => exact (rhs_final_0 _ _).trans hk
    | ⟨1, _⟩ => exact rhs_final_1 _ _)
  rw [el, er]

/-! ## The concatenation at an index -/

/-- Three 128-wide blocks laid side by side, read at (`b`, `k`): the block that holds column `k`, at `k` less the
    widths before it. -/
theorem concat_final_apply (x0 x1 x2 : S128x128.Idx → EReal) (b : Fin 128) (k : Fin 384) :
    concatenate S128x384 1 [⟨S128x128, x0⟩, ⟨S128x128, x1⟩, ⟨S128x128, x2⟩]
        concatenates_S128x128_S128x128_S128x128_S128x384_d1 (ix2 b k)
      = Cert.SegAttn.cat (fun b' k' => x0 (ix2 b' k')) (fun b' k' => x1 (ix2 b' k')) (fun b' k' => x2 (ix2 b' k')) b k := by
  unfold Cert.SegAttn.cat
  by_cases h1 : k.val < 128
  · rw [dif_pos h1]
    refine concatenate_apply_piece (1 : Fin S128x384.rank) [⟨S128x128, x0⟩, ⟨S128x128, x1⟩, ⟨S128x128, x2⟩] concatenates_S128x128_S128x128_S128x128_S128x384_d1 (ix2 b k) 0 (show (0 : ℕ) < 3 by decide) S128x128 x0 rfl rfl 0 rfl
      (ix2 b ⟨k.val, h1⟩) (fun a => ?_) ?_
    · match a with
      | ⟨0, _⟩ => exact fun _ => rfl
      | ⟨1, _⟩ => exact fun h => absurd (Fin.ext rfl) h
    · show 0 + k.val = k.val
      omega
  · rw [dif_neg h1]
    by_cases h2 : k.val < 256
    · rw [dif_pos h2]
      refine concatenate_apply_piece (1 : Fin S128x384.rank) [⟨S128x128, x0⟩, ⟨S128x128, x1⟩, ⟨S128x128, x2⟩] concatenates_S128x128_S128x128_S128x128_S128x384_d1 (ix2 b k) 1 (show (1 : ℕ) < 3 by decide) S128x128 x1 rfl rfl 128 rfl
        (ix2 b ⟨k.val - 128, by omega⟩) (fun a => ?_) ?_
      · match a with
        | ⟨0, _⟩ => exact fun _ => rfl
        | ⟨1, _⟩ => exact fun h => absurd (Fin.ext rfl) h
      · show 128 + (k.val - 128) = k.val
        omega
    · rw [dif_neg h2]
      refine concatenate_apply_piece (1 : Fin S128x384.rank) [⟨S128x128, x0⟩, ⟨S128x128, x1⟩, ⟨S128x128, x2⟩] concatenates_S128x128_S128x128_S128x128_S128x384_d1 (ix2 b k) 2 (show (2 : ℕ) < 3 by decide) S128x128 x2 rfl rfl 256 rfl
        (ix2 b ⟨k.val - 256, by have := k.isLt; omega⟩) (fun a => ?_) ?_
      · match a with
        | ⟨0, _⟩ => exact fun _ => rfl
        | ⟨1, _⟩ => exact fun h => absurd (Fin.ext rfl) h
      · show 256 + (k.val - 256) = k.val
        omega

/-- Entry (`b`, `o`) of the final kernel's block: the affine layer on the concatenation of the node aggregate, the
    edge aggregate and the graphs' features. -/
theorem pay2 (v0 v2 v4 : Vec Ideal S128x128 .f32) (v6 : Vec Ideal S384x128 .f32) (v8 : Vec Ideal S128 .f32)
    (b o : Fin 128) :
    k2_pay1 v0 v2 v4 v6 v8 (ix2 b o)
      = Cert.SegAttn.out (fun b' k => v0 (ix2 b' k)) (fun b' k => v2 (ix2 b' k)) (fun b' k => v4 (ix2 b' k))
          (fun k o' => v6 (ix2 k o')) (fun o' => v8 (ix1 o')) b o := by
  unfold k2_pay1
  simp only [matmul]
  rw [addf_apply, matmul_final_apply, broadcastTo_1b_ab_apply, shapeCast_a_1a_apply]
  unfold Cert.SegAttn.out
  congr 1
  refine Finset.sum_congr rfl fun k _ => ?_
  rw [truncf_apply, truncf_apply, concat_final_apply, shapeCast_self, shapeCast_self]

end Cert.KernelIdeal.Seg

end
-- ==== Proof.LibSums.lean ====
/-
  Finite sums over a range laid out as shards of tiles of rows, and over a range padded with zero terms.

  General lemmas: a triple sum over (shard, tile, row) of a function of the flat position
  (shard · J + tile) · T + row is the single sum over the S · J · T positions; a sum over a padded range whose
  terms vanish past the first L positions is the sum over those L; and a running sum over the first positions of
  a tile row, the form an accumulation across a grid takes.
-/
import Mathlib.Algebra.BigOperators.Fin
import Mathlib.Algebra.BigOperators.Intervals
import Mathlib.Logic.Equiv.Fin.Basic

namespace Cert.SegAttn

/-- Tiles of rows are the flat positions: a double sum over (tile, row) of a function of the flat position
    tile · n + row is the single sum over the m · n positions. -/
theorem sum_blocks_two {M : Type*} [AddCommMonoid M] (m n : ℕ) (g : ℕ → M) :
    ∑ i : Fin m, ∑ j : Fin n, g (i.val * n + j.val) = ∑ k : Fin (m * n), g k.val := by
  -- the pairs (tile, row) are in bijection with the flat positions, by (i, j) ↦ j + n · i
  rw [← Fintype.sum_prod_type' (fun (i : Fin m) (j : Fin n) => g (i.val * n + j.val))]
  refine Fintype.sum_equiv finProdFinEquiv _ _ ?_
  rintro ⟨i, j⟩
  show g (i.val * n + j.val) = g (j.val + n * i.val)
  rw [Nat.add_comm, Nat.mul_comm]

/-- Shards of tiles of rows are the flat positions. -/
theorem sum_blocks {M : Type*} [AddCommMonoid M] (S J T : ℕ) (g : ℕ → M) :
    ∑ s : Fin S, ∑ j : Fin J, ∑ r : Fin T, g ((s.val * J + j.val) * T + r.val) = ∑ n : Fin (S * J * T), g n.val := by
  -- merge the two inner sums at each (shard, tile), then merge (shard, tile) into the flat tile number
  calc ∑ s : Fin S, ∑ j : Fin J, ∑ r : Fin T, g ((s.val * J + j.val) * T + r.val)
      = ∑ q : Fin (S * J), ∑ r : Fin T, g (q.val * T + r.val) :=
        sum_blocks_two S J (fun q : ℕ => ∑ r : Fin T, g (q * T + r.val))
    _ = ∑ n : Fin (S * J * T), g n.val := sum_blocks_two (S * J) T g

/-- A sum over `Fin n` is the sum over `range n`. -/
theorem sum_fin_eq_range {M : Type*} [AddCommMonoid M] (n : ℕ) (g : ℕ → M) :
    ∑ k : Fin n, g k.val = ∑ k ∈ Finset.range n, g k :=
  (Finset.sum_range g).symm

/-- Positions past the first `L` carry zero terms. -/
theorem sum_pad {M : Type*} [AddCommMonoid M] {L P : ℕ} (hLP : L ≤ P) (g : ℕ → M)
    (hz : ∀ n, L ≤ n → n < P → g n = 0) : ∑ n : Fin P, g n.val = ∑ n : Fin L, g n.val := by
  -- over ranges of naturals: the first L positions are among the first P, and the others carry zero
  rw [sum_fin_eq_range, sum_fin_eq_range]
  refine (Finset.sum_subset ?_ ?_).symm
  · intro k hk
    rw [Finset.mem_range] at hk ⊢
    exact Nat.lt_of_lt_of_le hk hLP
  · intro k hkP hkL
    rw [Finset.mem_range] at hkP hkL
    exact hz k (Nat.le_of_not_lt hkL) hkP

/-- The triple sum with the two inner sums merged: each shard sums over its J · T positions. -/
theorem sum_blocks_inner {M : Type*} [AddCommMonoid M] (S J T : ℕ) (g : ℕ → M) :
    ∑ s : Fin S, ∑ j : Fin J, ∑ r : Fin T, g ((s.val * J + j.val) * T + r.val)
      = ∑ s : Fin S, ∑ k : Fin (J * T), g (s.val * (J * T) + k.val) := by
  refine Fintype.sum_congr _ _ (fun s => ?_)
  rw [← sum_blocks_two J T (fun q : ℕ => g (s.val * (J * T) + q))]
  refine Fintype.sum_congr _ _ (fun j => Fintype.sum_congr _ _ (fun r => ?_))
  show g ((s.val * J + j.val) * T + r.val) = g (s.val * (J * T) + (j.val * T + r.val))
  rw [Nat.add_mul, Nat.mul_assoc, Nat.add_assoc]

/-- Shards of merged positions are the flat positions. -/
theorem sum_blocks_outer {M : Type*} [AddCommMonoid M] (S J T : ℕ) (g : ℕ → M) :
    ∑ s : Fin S, ∑ k : Fin (J * T), g (s.val * (J * T) + k.val) = ∑ n : Fin (S * J * T), g n.val := by
  rw [← sum_blocks_inner, sum_blocks]

end Cert.SegAttn
-- ==== Proof.SpecSums.lean ====
/-
  Sums of row contributions over padded and tiled row ranges.

  A padding row has zero features, so whatever its id and gate its contribution is gate · 0 = 0 (on the extended
  reals a product with zero is zero without any finiteness): the sum over the padded rows is the aggregate over the
  real rows.  The rows of a tiled range, summed shard by shard, tile by tile, are the rows of the flat range.
-/
import proofs.«419372_j26302379720747_1_alg».proof.Proof.Spec
import proofs.«419372_j26302379720747_1_alg».proof.Proof.LibSums

noncomputable section

namespace Cert.SegAttn

/-- A row whose features are all zero contributes nothing. -/
theorem term_zero_row (x : Fin 128 → EReal) (hx : ∀ f, x f = 0) (id : BitVec 32) (Wk : Fin 128 → Fin 64 → EReal)
    (bk : Fin 64 → EReal) (Q : Fin 128 → Fin 64 → EReal) (b f : Fin 128) : term x id Wk bk Q b f = 0 := by
  unfold term
  split
  · rw [hx f, mul_zero]
  · rfl

/-- The sum over a padded row range whose padding rows are zero is the aggregate over the real rows. -/
theorem agg_of_padded {L P : ℕ} (hLP : L ≤ P) (X : Fin P → Fin 128 → EReal) (ids : Fin P → BitVec 32)
    (Wk : Fin 128 → Fin 64 → EReal) (bk : Fin 64 → EReal) (Q : Fin 128 → Fin 64 → EReal)
    (hpad : ∀ n : Fin P, L ≤ n.val → ∀ f, X n f = 0) (b f : Fin 128) :
    ∑ n : Fin P, term (X n) (ids n) Wk bk Q b f
      = agg (fun i : Fin L => X ⟨i.val, lt_of_lt_of_le i.isLt hLP⟩) (fun i : Fin L => ids ⟨i.val, lt_of_lt_of_le i.isLt hLP⟩)
          Wk bk Q b f := by
  let g : ℕ → EReal := fun n => if h : n < P then term (X ⟨n, h⟩) (ids ⟨n, h⟩) Wk bk Q b f else 0
  have hl : ∑ n : Fin P, term (X n) (ids n) Wk bk Q b f = ∑ n : Fin P, g n.val :=
    Finset.sum_congr rfl fun n _ => by simp only [g, dif_pos n.isLt]
  have hr : agg (fun i : Fin L => X ⟨i.val, lt_of_lt_of_le i.isLt hLP⟩) (fun i : Fin L => ids ⟨i.val, lt_of_lt_of_le i.isLt hLP⟩)
      Wk bk Q b f = ∑ i : Fin L, g i.val := by
    unfold agg
    exact Finset.sum_congr rfl fun i _ => by simp only [g, dif_pos (lt_of_lt_of_le i.isLt hLP)]
  rw [hl, hr]
  refine sum_pad hLP g fun n hLn hnP => ?_
  simp only [g, dif_pos hnP]
  exact term_zero_row _ (fun f' => hpad ⟨n, hnP⟩ hLn f') _ _ _ _ _ _

/-- Rows summed shard by shard and tile by tile are the rows of the flat range: for a function of the flat row. -/
theorem sum_tiles {S J T P : ℕ} (hP : S * J * T = P) (F : Fin P → EReal)
    (row : Fin S → Fin J → Fin T → Fin P) (hrow : ∀ s j r, (row s j r).val = (s.val * J + j.val) * T + r.val) :
    ∑ s : Fin S, ∑ j : Fin J, ∑ r : Fin T, F (row s j r) = ∑ n : Fin P, F n := by
  subst hP
  let g : ℕ → EReal := fun n => if h : n < S * J * T then F ⟨n, h⟩ else 0
  have hl : ∑ s : Fin S, ∑ j : Fin J, ∑ r : Fin T, F (row s j r)
      = ∑ s : Fin S, ∑ j : Fin J, ∑ r : Fin T, g ((s.val * J + j.val) * T + r.val) :=
    Finset.sum_congr rfl fun s _ => Finset.sum_congr rfl fun j _ => Finset.sum_congr rfl fun r _ => by
      have h := hrow s j r
      have hlt : (s.val * J + j.val) * T + r.val < S * J * T := h ▸ (row s j r).isLt
      simp only [g, dif_pos hlt]
      exact congrArg F (Fin.ext h)
  have hr : ∑ n : Fin (S * J * T), F n = ∑ n : Fin (S * J * T), g n.val :=
    Finset.sum_congr rfl fun n _ => by simp only [g, dif_pos n.isLt]
  rw [hl, hr]
  exact sum_blocks S J T g

end Cert.SegAttn

end
-- ==== Proof.KernelValue.lean ====
/-
  The kernel program's result, as the specification's function of its arguments.

  Each aggregate the final region finds is the sum over two shards of an aggregation region's result array; a
  shard's block is the sum over its tiles and their rows of the rows' contributions; shard by shard and tile by
  tile these are all the padded rows; the padding rows have zero features and contribute nothing; and a real row's
  features, id, key weights and query rows are the program's arguments (an edge's id the take of the node table at
  its source index, which inside the precondition's range is the clamped read).  The final region applies the
  affine layer to the two aggregates and the graphs' features.
-/
import proofs.«419372_j26302379720747_1_alg».proof.Proof.Region2
import proofs.«419372_j26302379720747_1_alg».proof.Proof.Glue2
import proofs.«419372_j26302379720747_1_alg».proof.Proof.GlueE
import proofs.«419372_j26302379720747_1_alg».proof.Proof.GlueX
import proofs.«419372_j26302379720747_1_alg».proof.Proof.AccumE
import proofs.«419372_j26302379720747_1_alg».proof.Proof.AccumX
import proofs.«419372_j26302379720747_1_alg».proof.Proof.PayFinal
import proofs.«419372_j26302379720747_1_alg».proof.Proof.Take
import proofs.«419372_j26302379720747_1_alg».proof.Proof.SpecSums
import proofs.«419372_j26302379720747_1_alg».proof.Proof.Arrays

noncomputable section

namespace Cert.KernelIdeal.Seg

open Idealize.ShloMosaic Idealize.ShloMosaic.TcCoe Idealize.SL.Sem Idealize.ShloMosaic.ValueIdx Cert.KernelIdeal Cert.KernelIdeal.Gen
open Cert.SegAttn (agg qproj term takeAt out result)

variable (m : (ℓ : Loc nD τ sig) → Buf (Elt Ideal) ℓ) (ρ : Dev nD → PrngReg)

/-- The node aggregate the final region finds is the specification's aggregate of the node rows. -/
theorem xagg_value (c : Dev nD) (b f : Fin 128) :
    xaggV m ρ c (ix2 b f)
      = agg (fun (i : Fin 100000) f' => m ((c.tc : Thread nD τ).loc main_arg0) (ix2 i f')) (fun (i : Fin 100000) => m ((c.tc : Thread nD τ).loc main_arg4) (ix1 i))
          (fun f' h => m ((c.tc : Thread nD τ).loc main_arg9) (ix2 f' h)) (fun h => m ((c.tc : Thread nD τ).loc main_arg10) (ix1 h))
          (qproj (fun b' k => m ((c.tc : Thread nD τ).loc main_arg2) (ix2 b' k)) (fun k h => m ((c.tc : Thread nD τ).loc main_arg11) (ix2 k h)) (fun h => m ((c.tc : Thread nD τ).loc main_arg12) (ix1 h))) b f := by
  rw [xagg_at]
  have h1 : ∀ s : Fin 2, arrX m ρ c (ix3 s b f) = ∑ j : Fin 25, ∑ r : Fin 2048, termX (V13 m ρ) c (rowX s j r) b f :=
    fun s => arr1 (V13 m ρ) c s b f
  rw [Finset.sum_congr rfl fun s _ => h1 s]
  rw [Cert.SegAttn.sum_tiles (S := 2) (J := 25) (T := 2048) (P := 102400) (by norm_num)
    (fun n => termX (V13 m ρ) c n b f) rowX (fun s j r => rfl)]
  unfold termX
  rw [Cert.SegAttn.agg_of_padded (L := 100000) (P := 102400) (by norm_num)
    (fun n f' => featX (V13 m ρ) c (ix2 n f')) (fun n => idsX (V13 m ρ) c (ix1 n)) _ _ _
    (fun n hn f' => featX_pad m ρ c n hn f') b f]
  have hA : (fun (i : Fin 100000) f' => featX (V13 m ρ) c (ix2 (⟨i.val, lt_of_lt_of_le i.isLt (by norm_num)⟩ : Fin 102400) f'))
      = fun (i : Fin 100000) f' => m ((c.tc : Thread nD τ).loc main_arg0) (ix2 i f') := funext fun i => funext fun f' => featX_in m ρ c i f'
  have hB : (fun (i : Fin 100000) => idsX (V13 m ρ) c (ix1 (⟨i.val, lt_of_lt_of_le i.isLt (by norm_num)⟩ : Fin 102400)))
      = fun (i : Fin 100000) => m ((c.tc : Thread nD τ).loc main_arg4) (ix1 i) := funext fun i => idsX_in m ρ c i
  have hC : (fun f' h => wkX (V13 m ρ) c (ix2 f' h)) = fun (f' : Fin 128) (h : Fin 64) => m ((c.tc : Thread nD τ).loc main_arg9) (ix2 f' h) :=
    funext fun f' => funext fun h => wkX_eq m ρ c f' h
  have hD : (fun h => bkX (V13 m ρ) c (ix1 h)) = fun (h : Fin 64) => m ((c.tc : Thread nD τ).loc main_arg10) (ix1 h) := funext fun h => bkX_eq m ρ c h
  have hE : (fun b' h => qX (V13 m ρ) c (ix2 b' h))
      = qproj (fun b' k => m ((c.tc : Thread nD τ).loc main_arg2) (ix2 b' k)) (fun k h => m ((c.tc : Thread nD τ).loc main_arg11) (ix2 k h)) (fun h => m ((c.tc : Thread nD τ).loc main_arg12) (ix1 h)) :=
    funext fun b' => funext fun h => qX_eq m ρ c b' h
  rw [hA, hB, hC, hD, hE]

/-- Inside the precondition's range an edge's id as the kernel takes it is the node table read at the wrapped,
    clamped source index. -/
theorem idsE_value (hpre : Cert.Pre_KernelIdeal m) (c : Dev nD) (i : Fin 1600000) :
    idsE (V7 m ρ) c (ix1 (⟨i.val, lt_of_lt_of_le i.isLt (by norm_num)⟩ : Fin 1605632))
      = takeAt (by decide : 0 < 100000) (fun n => m ((c.tc : Thread nD τ).loc main_arg4) (ix1 n)) (m ((c.tc : Thread nD τ).loc main_arg3) (ix2 (0 : Fin 2) i)) := by
  have hr := range_of_pre m hpre c i
  rw [← srcOf_apply (m ((c.tc : Thread nD τ).loc main_arg3)) i] at hr ⊢
  exact (idsE_in m ρ c i).trans (takeK_apply _ _ i hr.1 hr.2)

/-- The edge aggregate the final region finds is the specification's aggregate of the edge rows. -/
theorem eagg_value (hpre : Cert.Pre_KernelIdeal m) (c : Dev nD) (b f : Fin 128) :
    eaggV m ρ c (ix2 b f)
      = agg (fun (i : Fin 1600000) f' => m ((c.tc : Thread nD τ).loc main_arg1) (ix2 i f'))
          (fun (i : Fin 1600000) => takeAt (by decide : 0 < 100000) (fun n => m ((c.tc : Thread nD τ).loc main_arg4) (ix1 n)) (m ((c.tc : Thread nD τ).loc main_arg3) (ix2 (0 : Fin 2) i)))
          (fun f' h => m ((c.tc : Thread nD τ).loc main_arg5) (ix2 f' h)) (fun h => m ((c.tc : Thread nD τ).loc main_arg6) (ix1 h))
          (qproj (fun b' k => m ((c.tc : Thread nD τ).loc main_arg2) (ix2 b' k)) (fun k h => m ((c.tc : Thread nD τ).loc main_arg7) (ix2 k h)) (fun h => m ((c.tc : Thread nD τ).loc main_arg8) (ix1 h))) b f := by
  rw [eagg_at]
  have h1 : ∀ s : Fin 2, arrE m ρ c (ix3 s b f) = ∑ j : Fin 196, ∑ r : Fin 4096, termE (V7 m ρ) c (rowE s j r) b f :=
    fun s => arr0 (V7 m ρ) c s b f
  rw [Finset.sum_congr rfl fun s _ => h1 s]
  rw [Cert.SegAttn.sum_tiles (S := 2) (J := 196) (T := 4096) (P := 1605632) (by norm_num)
    (fun n => termE (V7 m ρ) c n b f) rowE (fun s j r => rfl)]
  unfold termE
  rw [Cert.SegAttn.agg_of_padded (L := 1600000) (P := 1605632) (by norm_num)
    (fun n f' => featE (V7 m ρ) c (ix2 n f')) (fun n => idsE (V7 m ρ) c (ix1 n)) _ _ _
    (fun n hn f' => featE_pad m ρ c n hn f') b f]
  have hA : (fun (i : Fin 1600000) f' => featE (V7 m ρ) c (ix2 (⟨i.val, lt_of_lt_of_le i.isLt (by norm_num)⟩ : Fin 1605632) f'))
      = fun (i : Fin 1600000) f' => m ((c.tc : Thread nD τ).loc main_arg1) (ix2 i f') := funext fun i => funext fun f' => featE_in m ρ c i f'
  have hB : (fun (i : Fin 1600000) => idsE (V7 m ρ) c (ix1 (⟨i.val, lt_of_lt_of_le i.isLt (by norm_num)⟩ : Fin 1605632)))
      = fun (i : Fin 1600000) => takeAt (by decide : 0 < 100000) (fun n => m ((c.tc : Thread nD τ).loc main_arg4) (ix1 n)) (m ((c.tc : Thread nD τ).loc main_arg3) (ix2 (0 : Fin 2) i)) :=
    funext fun i => idsE_value m ρ hpre c i
  have hC : (fun f' h => wkE (V7 m ρ) c (ix2 f' h)) = fun (f' : Fin 128) (h : Fin 64) => m ((c.tc : Thread nD τ).loc main_arg5) (ix2 f' h) :=
    funext fun f' => funext fun h => wkE_eq m ρ c f' h
  have hD : (fun h => bkE (V7 m ρ) c (ix1 h)) = fun (h : Fin 64) => m ((c.tc : Thread nD τ).loc main_arg6) (ix1 h) := funext fun h => bkE_eq m ρ c h
  have hE : (fun b' h => qE (V7 m ρ) c (ix2 b' h))
      = qproj (fun b' k => m ((c.tc : Thread nD τ).loc main_arg2) (ix2 b' k)) (fun k h => m ((c.tc : Thread nD τ).loc main_arg7) (ix2 k h)) (fun h => m ((c.tc : Thread nD τ).loc main_arg8) (ix1 h)) :=
    funext fun b' => funext fun h => qE_eq m ρ c b' h
  rw [hA, hB, hC, hD, hE]

/-- The result array's contents after the last region, at their literal type. -/
abbrev outV (c : Dev nD) : Vec Ideal S128x128 .f32 := W16 m ρ c (Proc.devRef .tc main_v23)

/-- The kernel program's result is the specification's function of its arguments. -/
theorem kernel_value (hpre : Cert.Pre_KernelIdeal m) (c : Dev nD) (b o : Fin 128) :
    outV m ρ c (ix2 b o)
      = result (fun i f => m ((c.tc : Thread nD τ).loc main_arg0) (ix2 i f)) (fun i f => m ((c.tc : Thread nD τ).loc main_arg1) (ix2 i f)) (fun b' k => m ((c.tc : Thread nD τ).loc main_arg2) (ix2 b' k))
          (fun i => m ((c.tc : Thread nD τ).loc main_arg3) (ix2 (0 : Fin 2) i)) (fun n => m ((c.tc : Thread nD τ).loc main_arg4) (ix1 n))
          (fun f' h => m ((c.tc : Thread nD τ).loc main_arg5) (ix2 f' h)) (fun h => m ((c.tc : Thread nD τ).loc main_arg6) (ix1 h)) (fun k h => m ((c.tc : Thread nD τ).loc main_arg7) (ix2 k h)) (fun h => m ((c.tc : Thread nD τ).loc main_arg8) (ix1 h))
          (fun f' h => m ((c.tc : Thread nD τ).loc main_arg9) (ix2 f' h)) (fun h => m ((c.tc : Thread nD τ).loc main_arg10) (ix1 h)) (fun k h => m ((c.tc : Thread nD τ).loc main_arg11) (ix2 k h)) (fun h => m ((c.tc : Thread nD τ).loc main_arg12) (ix1 h))
          (fun k o' => m ((c.tc : Thread nD τ).loc main_arg13) (ix2 k o')) (fun o' => m ((c.tc : Thread nD τ).loc main_arg14) (ix1 o')) b o := by
  have h1 : outV m ρ c = res2 (V15 m ρ) c := (W16_arr m ρ c 5).trans (final2 (V15 m ρ) c)
  rw [h1]
  unfold res2
  rw [pay2]
  unfold result
  have hx : (fun b' k => (V15 m ρ c main_v22 : Vec Ideal S128x128 .f32) (ix2 b' k))
      = agg (fun (i : Fin 100000) f' => m ((c.tc : Thread nD τ).loc main_arg0) (ix2 i f')) (fun (i : Fin 100000) => m ((c.tc : Thread nD τ).loc main_arg4) (ix1 i))
          (fun f' h => m ((c.tc : Thread nD τ).loc main_arg9) (ix2 f' h)) (fun h => m ((c.tc : Thread nD τ).loc main_arg10) (ix1 h))
          (qproj (fun b' k => m ((c.tc : Thread nD τ).loc main_arg2) (ix2 b' k)) (fun k h => m ((c.tc : Thread nD τ).loc main_arg11) (ix2 k h)) (fun h => m ((c.tc : Thread nD τ).loc main_arg12) (ix1 h))) :=
    funext fun b' => funext fun k => xagg_value m ρ c b' k
  have he : (fun b' k => (V15 m ρ c main_v16 : Vec Ideal S128x128 .f32) (ix2 b' k))
      = agg (fun (i : Fin 1600000) f' => m ((c.tc : Thread nD τ).loc main_arg1) (ix2 i f'))
          (fun (i : Fin 1600000) => takeAt (by decide : 0 < 100000) (fun n => m ((c.tc : Thread nD τ).loc main_arg4) (ix1 n)) (m ((c.tc : Thread nD τ).loc main_arg3) (ix2 (0 : Fin 2) i)))
          (fun f' h => m ((c.tc : Thread nD τ).loc main_arg5) (ix2 f' h)) (fun h => m ((c.tc : Thread nD τ).loc main_arg6) (ix1 h))
          (qproj (fun b' k => m ((c.tc : Thread nD τ).loc main_arg2) (ix2 b' k)) (fun k h => m ((c.tc : Thread nD τ).loc main_arg7) (ix2 k h)) (fun h => m ((c.tc : Thread nD τ).loc main_arg8) (ix1 h))) :=
    funext fun b' => funext fun k => eagg_value m ρ hpre c b' k
  rw [hx, he, u_at m ρ c, wu_at m ρ c, bu_at m ρ c]

end Cert.KernelIdeal.Seg

end
-- ==== Proof.RefAggX.lean ====
/-
  The reference's two aggregates read at one entry, over the extended reals.

  A row's gate is the logistic (printed as 1 / (1 + exp (-s))) of the inner product of its key projection with the
  query row gathered at its id; the scatter-add sends the gated row to the graph its id names and drops it when
  the id names no graph, so graph b's entry is the sum over the rows whose id is b.  For such a row the gathered
  query row is graph b's own.
-/
import proofs.«419372_j26302379720747_1_alg».proof.Proof.Gen.ReferenceIdeal.Read
import proofs.«419372_j26302379720747_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Seg

open Idealize.ShloMosaic Idealize.ShloMosaic.TcCoe Idealize.SL.Sem Idealize.ShloMosaic.ValueIdx Cert.ReferenceIdeal Cert.ReferenceIdeal.Gen Cert.ReferenceIdeal.Read

namespace RefAggX

/-! ### The scatter's landing index

Update windows lie along axis 1, the one scattered axis of the operand is axis 0: update entry `(i, f')` lands at
row "the id of row `i`, read signed", column `f'`, when that row exists. -/

/-- The node scatter's dimension numbers. -/
abbrev sd : ScatterDims S128x128 S100000x1 S100000x128 := scatter_S128x128_S100000x1_S100000x128_1_0_0_1

/-- On axis 0 the window starts at the row's id, read signed. -/
theorem sd_start0 (i : Fin 100000) (f' : Fin 128) (idx : IVec S100000x1 32) :
    sd.start (ix2 i f') idx ⟨0, by decide⟩ = (idx (ix2 i 0)).toInt := by
  unfold ScatterDims.start
  rw [dif_pos (show (⟨0, by decide⟩ : Fin S128x128.rank) ∈ sd.scatterDimsToOperandDims by decide)]
  refine congrArg (fun z => (idx z).toInt) ?_
  funext a
  refine Fin.ext ?_
  match a with
  | ⟨0, _⟩ => rfl
  | ⟨1, _⟩ => rfl

/-- On axis 1 the window starts at column 0. -/
theorem sd_start1 (i : Fin 100000) (f' : Fin 128) (idx : IVec S100000x1 32) :
    sd.start (ix2 i f') idx ⟨1, by decide⟩ = 0 := by
  unfold ScatterDims.start
  rw [dif_neg (show ¬ (⟨1, by decide⟩ : Fin S128x128.rank) ∈ sd.scatterDimsToOperandDims by decide)]

/-- Axis 0 is inserted: no window coordinate. -/
theorem sd_window0 (i : Fin 100000) (f' : Fin 128) :
    sd.window (ix2 i f') ⟨0, by decide⟩ = 0 := by
  unfold ScatterDims.window
  rw [dif_neg (show ¬ (⟨0, by decide⟩ : Fin S128x128.rank) ∈ sd.sKept by decide)]

/-- On axis 1 the window coordinate is the update's column. -/
theorem sd_window1 (i : Fin 100000) (f' : Fin 128) :
    sd.window (ix2 i f') ⟨1, by decide⟩ = f'.val := by
  unfold ScatterDims.window
  rw [dif_pos (show (⟨1, by decide⟩ : Fin S128x128.rank) ∈ sd.sKept by decide)]
  rfl

/-- Where update entry `(i, f')` lands: at `(b, f)` exactly when row `i`'s id, read signed, is `b` and the column is `f`. -/
theorem sd_resultIdx (i : Fin 100000) (f' : Fin 128) (idx : IVec S100000x1 32) (b f : Fin 128) :
    sd.resultIdx? (ix2 i f') idx = some (ix2 b f) ↔ (idx (ix2 i 0)).toInt = (b.val : ℤ) ∧ f' = f := by
  have s0 := sd_start0 i f' idx
  have s1 := sd_start1 i f' idx
  have w0 := sd_window0 i f'
  have w1 := sd_window1 i f'
  have hb := b.isLt
  have hf := f'.isLt
  unfold ScatterDims.resultIdx?
  constructor
  · intro he
    split at he
    · rename_i h
      have he' := Option.some.inj he
      have e0 : (sd.start (ix2 i f') idx ⟨0, by decide⟩ + sd.window (ix2 i f') ⟨0, by decide⟩).toNat = b.val :=
        congrArg Fin.val (congrFun he' ⟨0, by decide⟩)
      have e1 : (sd.start (ix2 i f') idx ⟨1, by decide⟩ + sd.window (ix2 i f') ⟨1, by decide⟩).toNat = f.val :=
        congrArg Fin.val (congrFun he' ⟨1, by decide⟩)
      have h0 := (h ⟨0, by decide⟩).1
      rw [s0, w0] at e0 h0
      rw [s1, w1] at e1
      exact ⟨by omega, Fin.ext (by omega)⟩
    · exact absurd he (by simp)
  · rintro ⟨ht, rfl⟩
    have h : ∀ a, 0 ≤ sd.start (ix2 i f') idx a + sd.window (ix2 i f') a
        ∧ sd.start (ix2 i f') idx a + sd.window (ix2 i f') a < S128x128.size a := by
      intro a
      match a with
      | ⟨0, _⟩ =>
        rw [s0, w0, ht]
        show 0 ≤ (b.val : ℤ) + ((0 : ℕ) : ℤ) ∧ (b.val : ℤ) + ((0 : ℕ) : ℤ) < ((128 : ℕ) : ℤ)
        omega
      | ⟨1, _⟩ =>
        rw [s1, w1]
        show 0 ≤ (0 : ℤ) + ((f'.val : ℕ) : ℤ) ∧ (0 : ℤ) + ((f'.val : ℕ) : ℤ) < ((128 : ℕ) : ℤ)
        omega
    rw [dif_pos h]
    refine congrArg some (funext fun a => Fin.ext ?_)
    match a with
    | ⟨0, _⟩ =>
      show (sd.start (ix2 i f') idx ⟨0, by decide⟩ + sd.window (ix2 i f') ⟨0, by decide⟩).toNat = b.val
      rw [s0, w0, ht]
      omega
    | ⟨1, _⟩ =>
      show (sd.start (ix2 i f') idx ⟨1, by decide⟩ + sd.window (ix2 i f') ⟨1, by decide⟩).toNat = f'.val
      rw [s1, w1]
      omega

/-! ### The row gather

Offsets lie along axis 1 and axis 0 is collapsed: result entry `(i, h)` reads the operand's row "the id at `(i, 0)`,
read signed and clamped into the table", column `h`. -/

/-- The node gather's dimension numbers. -/
abbrev gd : GatherDims S128x64 S100000x1 S100000x64 := gather_S128x64_S100000x1_S100000x64_1_0_n_n_0_1_164

theorem gd_apply {α : Type} (x : S128x64.Idx → α) (idx : IVec S100000x1 32) (i : Fin 100000) (h : Fin 64) :
    Host.gather gd x idx (ix2 i h) = x (ix2 (⟨min (idx (ix2 i 0)).toInt.toNat 127, by omega⟩ : Fin 128) h) := by
  unfold Host.gather
  refine congrArg x (funext fun a => Fin.ext ?_)
  match a with
  | ⟨0, _⟩ =>
    show gd.start (ix2 i h) idx ⟨0, by decide⟩ + gd.batchCoord (ix2 i h) ⟨0, by decide⟩ + gd.offCoord (ix2 i h) ⟨0, by decide⟩ = _
    rw [GatherDims.batchCoord_eq_zero _ _ _ List.not_mem_nil,
      GatherDims.offCoord_eq_zero _ _ _ (show ¬ (⟨0, by decide⟩ : Fin S128x64.rank) ∈ gd.sKept by decide)]
    simp only [Nat.add_zero]
    unfold GatherDims.start
    rw [dif_pos (show (⟨0, by decide⟩ : Fin S128x64.rank) ∈ gd.startIndexMap by decide)]
    have hsi : gd.siIdx (ix2 i h) ⟨List.idxOf (⟨0, by decide⟩ : Fin S128x64.rank) gd.startIndexMap,
        List.idxOf_lt_length_iff.2 (show (⟨0, by decide⟩ : Fin S128x64.rank) ∈ gd.startIndexMap by decide)⟩ = ix2 i 0 := by
      funext c; refine Fin.ext ?_
      match c with
      | ⟨0, _⟩ => rfl
      | ⟨1, _⟩ => rfl
    rw [hsi]
    rfl
  | ⟨1, _⟩ =>
    show gd.start (ix2 i h) idx ⟨1, by decide⟩ + gd.batchCoord (ix2 i h) ⟨1, by decide⟩ + gd.offCoord (ix2 i h) ⟨1, by decide⟩ = h.val
    rw [GatherDims.batchCoord_eq_zero _ _ _ List.not_mem_nil]
    unfold GatherDims.start GatherDims.offCoord
    rw [dif_neg (show ¬ (⟨1, by decide⟩ : Fin S128x64.rank) ∈ gd.startIndexMap by decide),
      dif_pos (show (⟨1, by decide⟩ : Fin S128x64.rank) ∈ gd.sKept by decide)]
    rw [Nat.add_zero, Nat.zero_add]
    rfl

/-! ### The scatter-add at an entry -/

/-- The scatter-add read at `(b, f)`: the operand there plus, over the rows whose id (read signed) is `b`, the sum of
    the update's column `f`; a row whose id names no graph adds nothing. -/
theorem scatter_apply (x : FVec Ideal S128x128 .f32) (idx : IVec S100000x1 32) (upd : FVec Ideal S100000x128 .f32)
    (b f : Fin 128) :
    Host.scatterAdd (F := Ideal) sd x idx upd (ix2 b f)
      = x (ix2 b f) + ∑ i : Fin 100000, if (idx (ix2 i 0)).toInt = (b.val : ℤ) then upd (ix2 i f) else 0 := by
  unfold Host.scatterAdd
  rw [Ideal.hostScatterAdd_def]
  unfold Ideal.hostScatterAdd
  refine congrArg (x (ix2 b f) + ·) ?_
  rw [Finset.sum_filter, sum_idx2]
  refine Finset.sum_congr rfl fun i _ => ?_
  refine (Finset.sum_congr rfl fun f' _ => if_congr (sd_resultIdx i f' idx b f) rfl rfl).trans ?_
  by_cases hc : (idx (ix2 i 0)).toInt = (b.val : ℤ)
  · rw [if_pos hc]
    refine (Finset.sum_congr rfl fun f' _ => if_congr (and_iff_right hc) rfl rfl).trans ?_
    rw [Finset.sum_ite_eq' Finset.univ f (fun f' => upd (ix2 i f')), if_pos (Finset.mem_univ f)]
  · rw [if_neg hc]
    exact Finset.sum_eq_zero fun f' _ => if_neg (fun h => hc h.1)

/-! ### The stages at explicit coordinates -/

section Stages
variable (x0 : (⟨S100000x128, .f32⟩ : BufTy).Contents (Elt Ideal)) (x2 : (⟨S128x128, .f32⟩ : BufTy).Contents (Elt Ideal))
  (x4 : (⟨S100000, .i32⟩ : BufTy).Contents (Elt Ideal)) (x9 : (⟨S128x64, .f32⟩ : BufTy).Contents (Elt Ideal))
  (x10 : (⟨S64, .f32⟩ : BufTy).Contents (Elt Ideal)) (x11 : (⟨S128x64, .f32⟩ : BufTy).Contents (Elt Ideal))
  (x12 : (⟨S64, .f32⟩ : BufTy).Contents (Elt Ideal))

/-- The key projection at row `i`, head coordinate `k`. -/
theorem v41_at (i : Fin 100000) (k : Fin 64) :
    val_main_v41 (F := Ideal) x0 x9 x10 (ix2 i k) = (∑ f' : Fin 128, x0 (ix2 i f') * x9 (ix2 f' k)) + x10 (ix1 k) := by
  have e1 : ∀ f' : Fin 128, lidx_main_v38 (ix2 i k) f' = ix2 i f' := fun f' =>
    funext fun a => Fin.ext (by match a with | ⟨0, _⟩ => rfl | ⟨1, _⟩ => rfl)
  have e2 : ∀ f' : Fin 128, ridx_main_v38 (ix2 i k) f' = ix2 f' k := fun f' =>
    funext fun a => Fin.ext (by match a with | ⟨0, _⟩ => rfl | ⟨1, _⟩ => rfl)
  have e3 : idx_main_v39 (idx_main_v40 (ix2 i k)) = ix1 k :=
    funext fun a => Fin.ext (by match a with | ⟨0, _⟩ => rfl)
  rw [val_main_v41_apply, val_main_v38_apply, val_main_v40_apply, val_main_v39_apply, e3, Ideal.addf_def]
  simp only [e1, e2]

/-- The query projection at graph `b`, head coordinate `k`. -/
theorem v45_at (b : Fin 128) (k : Fin 64) :
    val_main_v45 (F := Ideal) x2 x11 x12 (ix2 b k)
      = Cert.SegAttn.qproj (fun b' k' => x2 (ix2 b' k')) (fun k' h => x11 (ix2 k' h)) (fun h => x12 (ix1 h)) b k := by
  have e1 : ∀ k' : Fin 128, lidx_main_v42 (ix2 b k) k' = ix2 b k' := fun k' =>
    funext fun a => Fin.ext (by match a with | ⟨0, _⟩ => rfl | ⟨1, _⟩ => rfl)
  have e2 : ∀ k' : Fin 128, ridx_main_v42 (ix2 b k) k' = ix2 k' k := fun k' =>
    funext fun a => Fin.ext (by match a with | ⟨0, _⟩ => rfl | ⟨1, _⟩ => rfl)
  have e3 : idx_main_v43 (idx_main_v44 (ix2 b k)) = ix1 k :=
    funext fun a => Fin.ext (by match a with | ⟨0, _⟩ => rfl)
  rw [val_main_v45_apply, val_main_v42_apply, val_main_v44_apply, val_main_v43_apply, e3, Ideal.addf_def]
  simp only [e1, e2]
  rfl

/-- The wrapped id of a row whose id names graph `b` is the id itself: it is not negative. -/
theorem v51_of_id (i : Fin 100000) (b : Fin 128) (hid : BitVec.toInt (x4 (ix1 i)) = (b.val : ℤ)) :
    val_main_v51 (F := Ideal) x4 (ix2 i 0) = x4 (ix1 i) := by
  have e : idx_main_v51 (ix2 i 0) = ix1 i := funext fun a => Fin.ext (by match a with | ⟨0, _⟩ => rfl)
  have hz : (0#32 : BitVec 32).toInt = 0 := by decide
  have hslt : BitVec.slt (x4 (ix1 i)) 0#32 = false := by
    unfold BitVec.slt
    rw [hid, hz]
    exact decide_eq_false (by omega)
  rw [val_main_v51_apply, e, val_main_v50_apply, val_main_v47_apply, val_main_v46_apply, val_main_c_6_apply]
  show Scalar.select (BitVec.ofBool (BitVec.slt (x4 (ix1 i)) 0#32)) _ _ = _
  rw [hslt]
  exact select_zero _ _

/-- The gathered query row of a row whose id names graph `b` is graph `b`'s: the clamp leaves `b` where it is. -/
theorem v52_of_id (i : Fin 100000) (k : Fin 64) (b : Fin 128) (hid : BitVec.toInt (x4 (ix1 i)) = (b.val : ℤ)) :
    val_main_v52 (F := Ideal) x2 x4 x11 x12 (ix2 i k) = val_main_v45 (F := Ideal) x2 x11 x12 (ix2 b k) := by
  unfold val_main_v52
  refine (gd_apply _ _ i k).trans ?_
  refine congrArg (fun r => val_main_v45 (F := Ideal) x2 x11 x12 (ix2 r k)) (Fin.ext ?_)
  show min (BitVec.toInt (val_main_v51 (F := Ideal) x4 (ix2 i 0))).toNat 127 = b.val
  rw [v51_of_id x4 i b hid, hid]
  have := b.isLt
  omega

/-- The inner product of a row's key projection with its gathered query row, for a row whose id names graph `b`. -/
theorem v54_of_id (i : Fin 100000) (b : Fin 128) (hid : BitVec.toInt (x4 (ix1 i)) = (b.val : ℤ)) :
    val_main_v54 (F := Ideal) x0 x2 x4 x9 x10 x11 x12 (ix1 i)
      = ∑ k : Fin 64, ((∑ f' : Fin 128, x0 (ix2 i f') * x9 (ix2 f' k)) + x10 (ix1 k))
          * Cert.SegAttn.qproj (fun b' k' => x2 (ix2 b' k')) (fun k' h => x11 (ix2 k' h)) (fun h => x12 (ix1 h)) b k := by
  have e : ∀ k : Fin 64, idx_main_v54 (ix1 i) k = ix2 i k := fun k =>
    funext fun a => Fin.ext (by match a with | ⟨0, _⟩ => rfl | ⟨1, _⟩ => rfl)
  rw [val_main_v54_apply, val_main_cst_8_apply, Ideal.ofBits_def, Ideal.ofBits_zero_f32, zero_add]
  refine Finset.sum_congr rfl fun k _ => ?_
  rw [e k, val_main_v53_apply, Ideal.mulf_def, v41_at, v52_of_id x2 x4 x11 x12 i k b hid, v45_at]

/-- The gated feature of a row whose id names graph `b`: the logistic, printed as `1 / (1 + exp (-s))`, of that inner
    product, times the feature. -/
theorem v63_of_id (i : Fin 100000) (b f : Fin 128) (hid : BitVec.toInt (x4 (ix1 i)) = (b.val : ℤ)) :
    val_main_v63 (F := Ideal) x0 x2 x4 x9 x10 x11 x12 (ix2 i f)
      = Cert.SegAttn.gate (fun f' => x0 (ix2 i f')) (fun f' h => x9 (ix2 f' h)) (fun h => x10 (ix1 h))
          (Cert.SegAttn.qproj (fun b' k' => x2 (ix2 b' k')) (fun k' h => x11 (ix2 k' h)) (fun h => x12 (ix1 h)) b)
        * x0 (ix2 i f) := by
  have e62 : idx_main_v62 (ix2 i f) = ix2 i 0 :=
    funext fun a => Fin.ext (by match a with | ⟨0, _⟩ => rfl | ⟨1, _⟩ => rfl)
  have e55 : idx_main_v55 (ix2 i 0) = ix1 i := funext fun a => Fin.ext (by match a with | ⟨0, _⟩ => rfl)
  rw [val_main_v63_apply, Ideal.mulf_def, val_main_v62_apply, e62, val_main_v61_apply, val_main_v60_apply,
    val_main_cst_10_apply, val_main_v59_apply, val_main_v58_apply, val_main_cst_9_apply, val_main_v57_apply,
    val_main_v56_apply, val_main_v55_apply, e55, v54_of_id x0 x2 x4 x9 x10 x11 x12 i b hid]
  simp only [Ideal.hostDivf_def, Ideal.ofBits_def, Ideal.ofBits_one_f32, Ideal.addf_def, Ideal.hostUnary_exp_def,
    Ideal.hostNegf_def, Ideal.negf_def]
  rfl

end Stages

end RefAggX

open RefAggX

/-- The node aggregate at graph `b`, feature `f`. -/
theorem ref_xagg (x0 : (⟨S100000x128, .f32⟩ : BufTy).Contents (Elt Ideal)) (x2 : (⟨S128x128, .f32⟩ : BufTy).Contents (Elt Ideal)) (x4 : (⟨S100000, .i32⟩ : BufTy).Contents (Elt Ideal)) (x9 : (⟨S128x64, .f32⟩ : BufTy).Contents (Elt Ideal)) (x10 : (⟨S64, .f32⟩ : BufTy).Contents (Elt Ideal)) (x11 : (⟨S128x64, .f32⟩ : BufTy).Contents (Elt Ideal)) (x12 : (⟨S64, .f32⟩ : BufTy).Contents (Elt Ideal)) (b f : Fin 128) :
    val_main_v66 (F := Ideal) x0 x2 x4 x9 x10 x11 x12 (ix2 b f)
      = Cert.SegAttn.agg (fun i f' => x0 (ix2 i f')) (fun i => x4 (ix1 i)) (fun f' h => x9 (ix2 f' h)) (fun h => x10 (ix1 h))
          (Cert.SegAttn.qproj (fun b' k => x2 (ix2 b' k)) (fun k h => x11 (ix2 k h)) (fun h => x12 (ix1 h))) b f := by
  unfold val_main_v66
  refine (scatter_apply _ _ _ b f).trans ?_
  have e64 : val_main_v64 (F := Ideal) (ix2 b f) = 0 := by
    rw [val_main_v64_apply, val_main_cst_11_apply, Ideal.ofBits_def, Ideal.ofBits_zero_f32]
  rw [e64, zero_add]
  unfold Cert.SegAttn.agg Cert.SegAttn.term
  refine Finset.sum_congr rfl fun i _ => ?_
  have e65 : val_main_v65 (F := Ideal) x4 (ix2 i 0) = x4 (ix1 i) := by
    rw [val_main_v65_apply]
    exact congrArg x4 (funext fun a => Fin.ext (by match a with | ⟨0, _⟩ => rfl))
  rw [e65]
  dsimp only
  by_cases hid : BitVec.toInt (x4 (ix1 i)) = (b.val : ℤ)
  · rw [if_pos hid, if_pos hid, v63_of_id x0 x2 x4 x9 x10 x11 x12 i b f hid]
  · rw [if_neg hid, if_neg hid]

end Cert.ReferenceIdeal.Seg

end
-- ==== Proof.RefAggE.lean ====
/-
  The reference's two aggregates read at one entry, over the extended reals.

  A row's gate is the logistic (printed as 1 / (1 + exp (-s))) of the inner product of its key projection with the
  query row gathered at its id; the scatter-add sends the gated row to the graph its id names and drops it when
  the id names no graph, so graph b's entry is the sum over the rows whose id is b.  For such a row the gathered
  query row is graph b's own.
-/
import proofs.«419372_j26302379720747_1_alg».proof.Proof.Gen.ReferenceIdeal.Read
import proofs.«419372_j26302379720747_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Seg

open Idealize.ShloMosaic Idealize.ShloMosaic.TcCoe Idealize.SL.Sem Idealize.ShloMosaic.ValueIdx Cert.ReferenceIdeal Cert.ReferenceIdeal.Gen Cert.ReferenceIdeal.Read

/-! ## The scatter's result index -/

private theorem RefAggE_sc_start0 (idx : IVec S1600000x1 32) (i : Fin 1600000) (f' : Fin 128) :
    scatter_S128x128_S1600000x1_S1600000x128_1_0_0_1.start (ix2 i f') idx 0 = (idx (ix2 i (0 : Fin 1))).toInt := by
  unfold ScatterDims.start
  rw [dif_pos (show (0 : Fin S128x128.rank) ∈ scatter_S128x128_S1600000x1_S1600000x128_1_0_0_1.scatterDimsToOperandDims by decide)]
  refine congrArg (fun k => (idx k).toInt) (funext fun a => Fin.ext ?_)
  match a with
  | ⟨0, _⟩ => rfl
  | ⟨1, _⟩ => rfl

private theorem RefAggE_sc_start1 (idx : IVec S1600000x1 32) (i : Fin 1600000) (f' : Fin 128) :
    scatter_S128x128_S1600000x1_S1600000x128_1_0_0_1.start (ix2 i f') idx 1 = 0 := by
  unfold ScatterDims.start
  rw [dif_neg (show ¬ (1 : Fin S128x128.rank) ∈ scatter_S128x128_S1600000x1_S1600000x128_1_0_0_1.scatterDimsToOperandDims by decide)]

private theorem RefAggE_sc_window0 (i : Fin 1600000) (f' : Fin 128) :
    scatter_S128x128_S1600000x1_S1600000x128_1_0_0_1.window (ix2 i f') 0 = 0 := by
  unfold ScatterDims.window
  rw [dif_neg (show ¬ (0 : Fin S128x128.rank) ∈ scatter_S128x128_S1600000x1_S1600000x128_1_0_0_1.sKept by decide)]

private theorem RefAggE_sc_window1 (i : Fin 1600000) (f' : Fin 128) :
    scatter_S128x128_S1600000x1_S1600000x128_1_0_0_1.window (ix2 i f') 1 = f'.val := by
  unfold ScatterDims.window
  rw [dif_pos (show (1 : Fin S128x128.rank) ∈ scatter_S128x128_S1600000x1_S1600000x128_1_0_0_1.sKept by decide)]
  rfl

/-- An update row lands on graph `b`'s entry exactly when its index word reads `b` and the features agree. -/
private theorem RefAggE_sc_resultIdx_iff (idx : IVec S1600000x1 32) (i : Fin 1600000) (f' b f : Fin 128) :
    scatter_S128x128_S1600000x1_S1600000x128_1_0_0_1.resultIdx? (ix2 i f') idx = some (ix2 b f)
      ↔ (idx (ix2 i (0 : Fin 1))).toInt = (b.val : ℤ) ∧ f' = f := by
  have hb := b.isLt
  have hf := f.isLt
  have hf' := f'.isLt
  unfold ScatterDims.resultIdx?
  split
  · next h =>
    rw [Option.some.injEq]
    constructor
    · intro he
      have h0 := congrArg (fun k => (k 0).val) he
      have h1 := congrArg (fun k => (k 1).val) he
      have g0 := (h 0).1
      simp only [RefAggE_sc_start0, RefAggE_sc_window0, RefAggE_sc_start1, RefAggE_sc_window1] at h0 h1 g0
      change ((idx (ix2 i (0 : Fin 1))).toInt + ((0 : ℕ) : ℤ)).toNat = b.val at h0
      change ((0 : ℤ) + ((f'.val : ℕ) : ℤ)).toNat = f.val at h1
      refine ⟨by omega, Fin.ext (by omega)⟩
    · rintro ⟨h0, h1⟩
      funext a
      refine Fin.ext ?_
      match a with
      | ⟨0, _⟩ =>
        show (scatter_S128x128_S1600000x1_S1600000x128_1_0_0_1.start (ix2 i f') idx 0 + (scatter_S128x128_S1600000x1_S1600000x128_1_0_0_1.window (ix2 i f') 0 : ℤ)).toNat = b.val
        rw [RefAggE_sc_start0, RefAggE_sc_window0, h0]; omega
      | ⟨1, _⟩ =>
        show (scatter_S128x128_S1600000x1_S1600000x128_1_0_0_1.start (ix2 i f') idx 1 + (scatter_S128x128_S1600000x1_S1600000x128_1_0_0_1.window (ix2 i f') 1 : ℤ)).toNat = f.val
        rw [RefAggE_sc_start1, RefAggE_sc_window1, h1]; omega
  · next h =>
    constructor
    · intro he; exact absurd he (by simp)
    · rintro ⟨h0, h1⟩
      exfalso
      apply h
      intro a
      match a with
      | ⟨0, _⟩ =>
        show 0 ≤ scatter_S128x128_S1600000x1_S1600000x128_1_0_0_1.start (ix2 i f') idx 0 + (scatter_S128x128_S1600000x1_S1600000x128_1_0_0_1.window (ix2 i f') 0 : ℤ)
          ∧ scatter_S128x128_S1600000x1_S1600000x128_1_0_0_1.start (ix2 i f') idx 0 + (scatter_S128x128_S1600000x1_S1600000x128_1_0_0_1.window (ix2 i f') 0 : ℤ) < ((128 : ℕ) : ℤ)
        rw [RefAggE_sc_start0, RefAggE_sc_window0, h0]; omega
      | ⟨1, _⟩ =>
        show 0 ≤ scatter_S128x128_S1600000x1_S1600000x128_1_0_0_1.start (ix2 i f') idx 1 + (scatter_S128x128_S1600000x1_S1600000x128_1_0_0_1.window (ix2 i f') 1 : ℤ)
          ∧ scatter_S128x128_S1600000x1_S1600000x128_1_0_0_1.start (ix2 i f') idx 1 + (scatter_S128x128_S1600000x1_S1600000x128_1_0_0_1.window (ix2 i f') 1 : ℤ) < ((128 : ℕ) : ℤ)
        rw [RefAggE_sc_start1, RefAggE_sc_window1]; omega

/-- The scatter-add read at graph `b`, feature `f`: the operand's entry plus the update rows whose index word reads `b`. -/
private theorem RefAggE_sc_read (x : S128x128.Idx → EReal) (idx : IVec S1600000x1 32) (upd : S1600000x128.Idx → EReal) (b f : Fin 128) :
    Ideal.hostScatterAdd scatter_S128x128_S1600000x1_S1600000x128_1_0_0_1 x idx upd (ix2 b f)
      = x (ix2 b f) + ∑ i : Fin 1600000, if (idx (ix2 i (0 : Fin 1))).toInt = (b.val : ℤ) then upd (ix2 i f) else 0 := by
  unfold Ideal.hostScatterAdd
  refine congrArg (x (ix2 b f) + ·) ?_
  rw [Finset.sum_filter, sum_idx2]
  refine Finset.sum_congr rfl fun i _ => ?_
  simp only [RefAggE_sc_resultIdx_iff]
  by_cases hA : (idx (ix2 i (0 : Fin 1))).toInt = (b.val : ℤ)
  · simp only [hA, true_and, if_true]
    exact Finset.sum_ite_eq' Finset.univ f (fun f' => upd (ix2 i f')) |>.trans (by simp)
  · simp only [hA, false_and, if_false]
    exact Finset.sum_const_zero

/-- The host's scatter-add is the float family's, at the single-device schedule. -/
private theorem RefAggE_scatterAdd_eq {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- The reference's scatter-add into the zero array, read at graph `b`, feature `f`: the update rows whose index word
    reads `b`. -/
private theorem RefAggE_scatter_zero (idx : IVec S1600000x1 32) (upd : S1600000x128.Idx → EReal) (b f : Fin 128) :
    Ideal.hostScatterAdd scatter_S128x128_S1600000x1_S1600000x128_1_0_0_1 (val_main_v35 (F := Ideal)) idx upd (ix2 b f)
      = ∑ i : Fin 1600000, if (idx (ix2 i (0 : Fin 1))).toInt = (b.val : ℤ) then upd (ix2 i f) else 0 := by
  rw [RefAggE_sc_read, val_main_v35_apply, val_main_cst_5_apply, Ideal.ofBits_def, Ideal.ofBits_zero_f32, zero_add]

/-! ## Index words -/

private theorem RefAggE_cmpi_slt (s t : BitVec 32) : IntOp.cmpi .slt s t = BitVec.ofBool (s.slt t) := rfl

/-- The printed wrap of a signed index into a table of 100000 entries is the specification's, at every word. -/
private theorem RefAggE_wrap_toInt (s : BitVec 32) :
    (Scalar.select (IntOp.cmpi .slt s 0#32) (IntOp.addi s 100000#32) s).toInt = Cert.SegAttn.wrapIdx 100000 s := by
  rw [RefAggE_cmpi_slt]
  unfold Cert.SegAttn.wrapIdx Scalar.select IntOp.addi
  have hlo : -2 ^ (32 - 1) ≤ s.toInt := BitVec.le_toInt s
  have hhi : s.toInt < 2 ^ (32 - 1) := BitVec.toInt_lt
  by_cases h : s.toInt < 0
  · have hs : s.slt 0#32 = true := by simp [BitVec.slt, h]
    rw [hs, if_pos h, BitVec.ofBool_true, if_pos rfl, BitVec.toInt_add]
    have h1 : (100000#32 : BitVec 32).toInt = 100000 := by decide
    rw [h1]
    simp only [Int.bmod]
    omega
  · have hs : s.slt 0#32 = false := by simp [BitVec.slt, h]
    rw [hs, if_neg h, BitVec.ofBool_false, if_neg (by decide)]

/-- A graph id that reads a graph number is its own wrap by 128 and its own clamp into the 128 graphs. -/
private theorem RefAggE_wrap128_of_eq (e : BitVec 32) (b : Fin 128) (h : e.toInt = (b.val : ℤ)) :
    min (Scalar.select (IntOp.cmpi .slt e 0#32) (IntOp.addi e 128#32) e).toInt.toNat 127 = b.val := by
  rw [RefAggE_cmpi_slt]
  unfold Scalar.select
  have hb := b.isLt
  have hs : e.slt 0#32 = false := by simp [BitVec.slt, h]
  rw [hs, BitVec.ofBool_false, if_neg (by decide), h]
  omega

/-! ## The two gathers read at an index -/

/-- The table gather at row `i`: the table at the row's start index, read signed and clamped into the table. -/
private theorem RefAggE_take_read {α : Type} (x : S100000.Idx → α) (idx : IVec S1600000x1 32) (i : Fin 1600000) :
    Host.gather gather_S100000_S1600000x1_S1600000_n_0_n_n_0_1_1 x idx (ix1 i)
      = x (ix1 ⟨min (idx (ix2 i (0 : Fin 1))).toInt.toNat (100000 - 1), by omega⟩) := by
  unfold Host.gather
  refine congrArg x (funext fun a => Fin.ext ?_)
  match a with
  | ⟨0, _⟩ =>
    show gather_S100000_S1600000x1_S1600000_n_0_n_n_0_1_1.start (ix1 i) idx (0 : Fin S100000.rank)
        + gather_S100000_S1600000x1_S1600000_n_0_n_n_0_1_1.batchCoord (ix1 i) (0 : Fin S100000.rank)
        + gather_S100000_S1600000x1_S1600000_n_0_n_n_0_1_1.offCoord (ix1 i) (0 : Fin S100000.rank)
      = min (idx (ix2 i (0 : Fin 1))).toInt.toNat (100000 - 1)
    rw [GatherDims.batchCoord_eq_zero _ _ _ (by decide), GatherDims.offCoord_eq_zero _ _ _ (by decide)]
    unfold GatherDims.start
    rw [dif_pos (show (0 : Fin S100000.rank) ∈ gather_S100000_S1600000x1_S1600000_n_0_n_n_0_1_1.startIndexMap by decide)]
    refine congrArg (fun k => min (idx k).toInt.toNat (100000 - 1)) (funext fun c => Fin.ext ?_)
    match c with
    | ⟨0, _⟩ => rfl
    | ⟨1, _⟩ => rfl

/-- The row gather at row `i`, head coordinate `k`: the 128-row table's row at the start index, read signed and
    clamped into the table, at `k`. -/
private theorem RefAggE_row_read {α : Type} (x : S128x64.Idx → α) (idx : IVec S1600000x1 32) (i : Fin 1600000) (k : Fin 64) :
    Host.gather gather_S128x64_S1600000x1_S1600000x64_1_0_n_n_0_1_164 x idx (ix2 i k)
      = x (ix2 (⟨min (idx (ix2 i (0 : Fin 1))).toInt.toNat 127, by omega⟩ : Fin 128) k) := by
  unfold Host.gather
  refine congrArg x (funext fun a => Fin.ext ?_)
  match a with
  | ⟨0, _⟩ =>
    show gather_S128x64_S1600000x1_S1600000x64_1_0_n_n_0_1_164.start (ix2 i k) idx (0 : Fin S128x64.rank)
        + gather_S128x64_S1600000x1_S1600000x64_1_0_n_n_0_1_164.batchCoord (ix2 i k) (0 : Fin S128x64.rank)
        + gather_S128x64_S1600000x1_S1600000x64_1_0_n_n_0_1_164.offCoord (ix2 i k) (0 : Fin S128x64.rank)
      = min (idx (ix2 i (0 : Fin 1))).toInt.toNat 127
    rw [GatherDims.batchCoord_eq_zero _ _ _ (by decide), GatherDims.offCoord_eq_zero _ _ _ (by decide)]
    unfold GatherDims.start
    rw [dif_pos (show (0 : Fin S128x64.rank) ∈ gather_S128x64_S1600000x1_S1600000x64_1_0_n_n_0_1_164.startIndexMap by decide)]
    refine congrArg (fun c => min (idx c).toInt.toNat 127) (funext fun c => Fin.ext ?_)
    match c with
    | ⟨0, _⟩ => rfl
    | ⟨1, _⟩ => rfl
  | ⟨1, _⟩ =>
    show gather_S128x64_S1600000x1_S1600000x64_1_0_n_n_0_1_164.start (ix2 i k) idx (1 : Fin S128x64.rank)
        + gather_S128x64_S1600000x1_S1600000x64_1_0_n_n_0_1_164.batchCoord (ix2 i k) (1 : Fin S128x64.rank)
        + gather_S128x64_S1600000x1_S1600000x64_1_0_n_n_0_1_164.offCoord (ix2 i k) (1 : Fin S128x64.rank)
      = k.val
    rw [GatherDims.batchCoord_eq_zero _ _ _ (by decide)]
    unfold GatherDims.start GatherDims.offCoord
    rw [dif_neg (show ¬ (1 : Fin S128x64.rank) ∈ gather_S128x64_S1600000x1_S1600000x64_1_0_n_n_0_1_164.startIndexMap by decide),
      dif_pos (show (1 : Fin S128x64.rank) ∈ gather_S128x64_S1600000x1_S1600000x64_1_0_n_n_0_1_164.sKept by decide)]
    show 0 + 0 + k.val = k.val
    omega

/-! ## The reference's stages read at an edge -/

/-- The edge's source index: row 0 of the edge table. -/
private theorem RefAggE_src (x3 : (⟨S2x1600000, .i32⟩ : BufTy).Contents (Elt Ideal)) (i : Fin 1600000) :
    val_main_v1 (F := Ideal) x3 (ix1 i) = x3 (ix2 (0 : Fin 2) i) := by
  rw [val_main_v1_apply, val_main_v0_apply]
  refine congrArg x3 (funext fun a => Fin.ext ?_)
  match a with
  | ⟨0, _⟩ => rfl
  | ⟨1, _⟩ => exact Nat.mod_eq_of_lt i.isLt

/-- The table gather's start index at edge `i`: the source index with a negative one counted from the end. -/
private theorem RefAggE_start (x3 : (⟨S2x1600000, .i32⟩ : BufTy).Contents (Elt Ideal)) (i : Fin 1600000) :
    val_main_v7 (F := Ideal) x3 (ix2 i (0 : Fin 1))
      = Scalar.select (IntOp.cmpi .slt (x3 (ix2 (0 : Fin 2) i)) 0#32) (IntOp.addi (x3 (ix2 (0 : Fin 2) i)) 100000#32)
          (x3 (ix2 (0 : Fin 2) i)) := by
  have e7 : idx_main_v7 (ix2 i (0 : Fin 1)) = ix1 i := funext fun a => Fin.ext (by match a with | ⟨0, _⟩ => rfl)
  rw [val_main_v7_apply, e7, val_main_v6_apply, val_main_v3_apply, val_main_v5_apply, val_main_v2_apply, val_main_v4_apply,
    val_main_c_apply, val_main_c_0_apply, RefAggE_src]

/-- An edge's graph id: the node table at its source index, wrapped and clamped. -/
private theorem RefAggE_ebatch (x3 : (⟨S2x1600000, .i32⟩ : BufTy).Contents (Elt Ideal)) (x4 : (⟨S100000, .i32⟩ : BufTy).Contents (Elt Ideal)) (i : Fin 1600000) :
    val_main_v8 (F := Ideal) x3 x4 (ix1 i)
      = Cert.SegAttn.takeAt (by decide : 0 < 100000) (fun n => x4 (ix1 n)) (x3 (ix2 (0 : Fin 2) i)) := by
  unfold val_main_v8 Cert.SegAttn.takeAt
  rw [RefAggE_take_read]
  refine congrArg (fun n => x4 (ix1 n)) (Fin.ext ?_)
  show min (val_main_v7 (F := Ideal) x3 (ix2 i (0 : Fin 1))).toInt.toNat (100000 - 1)
    = min (Cert.SegAttn.wrapIdx 100000 (x3 (ix2 (0 : Fin 2) i))).toNat (100000 - 1)
  rw [RefAggE_start, RefAggE_wrap_toInt]

/-- The key projection of edge `i` at head coordinate `k`. -/
private theorem RefAggE_key (x1 : (⟨S1600000x128, .f32⟩ : BufTy).Contents (Elt Ideal)) (x5 : (⟨S128x64, .f32⟩ : BufTy).Contents (Elt Ideal)) (x6 : (⟨S64, .f32⟩ : BufTy).Contents (Elt Ideal)) (i : Fin 1600000) (k : Fin 64) :
    val_main_v12 (F := Ideal) x1 x5 x6 (ix2 i k) = ∑ f : Fin 128, x1 (ix2 i f) * x5 (ix2 f k) + x6 (ix1 k) := by
  have el : ∀ f : Fin 128, lidx_main_v9 (ix2 i k) f = ix2 i f := fun f => funext fun a => Fin.ext (by
    match a with | ⟨0, _⟩ => rfl | ⟨1, _⟩ => rfl)
  have er : ∀ f : Fin 128, ridx_main_v9 (ix2 i k) f = ix2 f k := fun f => funext fun a => Fin.ext (by
    match a with | ⟨0, _⟩ => rfl | ⟨1, _⟩ => rfl)
  have e6 : idx_main_v10 (idx_main_v11 (ix2 i k)) = ix1 k := funext fun a => Fin.ext (by match a with | ⟨0, _⟩ => rfl)
  rw [val_main_v12_apply, val_main_v9_apply, val_main_v11_apply, val_main_v10_apply, e6, Ideal.addf_def]
  simp only [el, er]

/-- The graphs' query rows are the specification's. -/
private theorem RefAggE_query (x2 : (⟨S128x128, .f32⟩ : BufTy).Contents (Elt Ideal)) (x7 : (⟨S128x64, .f32⟩ : BufTy).Contents (Elt Ideal)) (x8 : (⟨S64, .f32⟩ : BufTy).Contents (Elt Ideal)) (r : Fin 128) (k : Fin 64) :
    val_main_v16 (F := Ideal) x2 x7 x8 (ix2 r k) = Cert.SegAttn.qproj (fun b' j => x2 (ix2 b' j)) (fun j h => x7 (ix2 j h)) (fun h => x8 (ix1 h)) r k := by
  have el : ∀ j : Fin 128, lidx_main_v13 (ix2 r k) j = ix2 r j := fun j => funext fun a => Fin.ext (by
    match a with | ⟨0, _⟩ => rfl | ⟨1, _⟩ => rfl)
  have er : ∀ j : Fin 128, ridx_main_v13 (ix2 r k) j = ix2 j k := fun j => funext fun a => Fin.ext (by
    match a with | ⟨0, _⟩ => rfl | ⟨1, _⟩ => rfl)
  have e8 : idx_main_v14 (idx_main_v15 (ix2 r k)) = ix1 k := funext fun a => Fin.ext (by match a with | ⟨0, _⟩ => rfl)
  rw [val_main_v16_apply, val_main_v13_apply, val_main_v15_apply, val_main_v14_apply, e8, Ideal.addf_def]
  simp only [el, er]
  rfl

/-- The row gather's start index at edge `i`: the edge's graph id with a negative one counted from the end. -/
private theorem RefAggE_start2 (x3 : (⟨S2x1600000, .i32⟩ : BufTy).Contents (Elt Ideal)) (x4 : (⟨S100000, .i32⟩ : BufTy).Contents (Elt Ideal)) (i : Fin 1600000) :
    val_main_v22 (F := Ideal) x3 x4 (ix2 i (0 : Fin 1))
      = Scalar.select (IntOp.cmpi .slt (val_main_v8 (F := Ideal) x3 x4 (ix1 i)) 0#32)
          (IntOp.addi (val_main_v8 (F := Ideal) x3 x4 (ix1 i)) 128#32) (val_main_v8 (F := Ideal) x3 x4 (ix1 i)) := by
  have e22 : idx_main_v22 (ix2 i (0 : Fin 1)) = ix1 i := funext fun a => Fin.ext (by match a with | ⟨0, _⟩ => rfl)
  rw [val_main_v22_apply, e22, val_main_v21_apply, val_main_v18_apply, val_main_v20_apply, val_main_v17_apply, val_main_v19_apply,
    val_main_c_1_apply, val_main_c_2_apply]

/-- For an edge whose graph id reads `b`, the gathered query row is graph `b`'s. -/
private theorem RefAggE_qrow (x2 : (⟨S128x128, .f32⟩ : BufTy).Contents (Elt Ideal)) (x3 : (⟨S2x1600000, .i32⟩ : BufTy).Contents (Elt Ideal)) (x4 : (⟨S100000, .i32⟩ : BufTy).Contents (Elt Ideal)) (x7 : (⟨S128x64, .f32⟩ : BufTy).Contents (Elt Ideal)) (x8 : (⟨S64, .f32⟩ : BufTy).Contents (Elt Ideal)) (i : Fin 1600000) (b : Fin 128) (k : Fin 64)
    (h : (val_main_v8 (F := Ideal) x3 x4 (ix1 i)).toInt = (b.val : ℤ)) :
    val_main_v23 (F := Ideal) x2 x3 x4 x7 x8 (ix2 i k) = Cert.SegAttn.qproj (fun b' j => x2 (ix2 b' j)) (fun j h => x7 (ix2 j h)) (fun h => x8 (ix1 h)) b k := by
  unfold val_main_v23
  rw [RefAggE_row_read, ← RefAggE_query]
  refine congrArg (fun r => val_main_v16 (F := Ideal) x2 x7 x8 (ix2 r k)) (Fin.ext ?_)
  show min (val_main_v22 (F := Ideal) x3 x4 (ix2 i (0 : Fin 1))).toInt.toNat 127 = b.val
  rw [RefAggE_start2]
  exact RefAggE_wrap128_of_eq _ b h

/-- The edge's score: the inner product of its key projection with its gathered query row. -/
private theorem RefAggE_score (x1 : (⟨S1600000x128, .f32⟩ : BufTy).Contents (Elt Ideal)) (x2 : (⟨S128x128, .f32⟩ : BufTy).Contents (Elt Ideal)) (x3 : (⟨S2x1600000, .i32⟩ : BufTy).Contents (Elt Ideal)) (x4 : (⟨S100000, .i32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (i : Fin 1600000) :
    val_main_v25 (F := Ideal) x1 x2 x3 x4 x5 x6 x7 x8 (ix1 i)
      = ∑ k : Fin 64, val_main_v12 (F := Ideal) x1 x5 x6 (ix2 i k) * val_main_v23 (F := Ideal) x2 x3 x4 x7 x8 (ix2 i k) := by
  have e25 : ∀ k : Fin 64, idx_main_v25 (ix1 i) k = ix2 i k := fun k => funext fun a => Fin.ext (by
    match a with | ⟨0, _⟩ => rfl | ⟨1, _⟩ => rfl)
  rw [val_main_v25_apply, val_main_cst_apply, Ideal.ofBits_def, Ideal.ofBits_zero_f32, zero_add]
  refine Finset.sum_congr rfl fun k _ => ?_
  rw [e25, val_main_v24_apply, Ideal.mulf_def]

/-- The edge's gate: the logistic of its score. -/
private theorem RefAggE_gate (x1 : (⟨S1600000x128, .f32⟩ : BufTy).Contents (Elt Ideal)) (x2 : (⟨S128x128, .f32⟩ : BufTy).Contents (Elt Ideal)) (x3 : (⟨S2x1600000, .i32⟩ : BufTy).Contents (Elt Ideal)) (x4 : (⟨S100000, .i32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (i : Fin 1600000) :
    val_main_v32 (F := Ideal) x1 x2 x3 x4 x5 x6 x7 x8 (ix2 i (0 : Fin 1))
      = Ideal.logistic (val_main_v25 (F := Ideal) x1 x2 x3 x4 x5 x6 x7 x8 (ix1 i)) := by
  have e26 : idx_main_v26 (ix2 i (0 : Fin 1)) = ix1 i := funext fun a => Fin.ext (by match a with | ⟨0, _⟩ => rfl)
  have h1 : Ideal.ofBits .f32 0x3F800000#32 = 1 := IdealRules.sign_bit.ideal_onePat .f32
  rw [val_main_v32_apply, val_main_v31_apply, val_main_cst_4_apply, val_main_v30_apply, val_main_v29_apply, val_main_cst_3_apply,
    val_main_v28_apply, val_main_v27_apply, val_main_v26_apply, e26]
  simp only [Ideal.hostDivf_def, Ideal.addf_def, Ideal.hostUnary_exp_def, Ideal.hostNegf_def, Ideal.negf_def, Ideal.ofBits_def, h1]
  rfl

/-- The gated row of an edge whose graph id reads `b`: the specification's gate against graph `b`'s query row, times
    the edge's feature. -/
private theorem RefAggE_upd (x1 : (⟨S1600000x128, .f32⟩ : BufTy).Contents (Elt Ideal)) (x2 : (⟨S128x128, .f32⟩ : BufTy).Contents (Elt Ideal)) (x3 : (⟨S2x1600000, .i32⟩ : BufTy).Contents (Elt Ideal)) (x4 : (⟨S100000, .i32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (i : Fin 1600000) (b f : Fin 128)
    (h : (val_main_v8 (F := Ideal) x3 x4 (ix1 i)).toInt = (b.val : ℤ)) :
    val_main_v34 (F := Ideal) x1 x2 x3 x4 x5 x6 x7 x8 (ix2 i f)
      = Cert.SegAttn.gate (fun f' => x1 (ix2 i f')) (fun f' h => x5 (ix2 f' h)) (fun h => x6 (ix1 h)) (Cert.SegAttn.qproj (fun b' j => x2 (ix2 b' j)) (fun j h => x7 (ix2 j h)) (fun h => x8 (ix1 h)) b)
          * x1 (ix2 i f) := by
  have e33 : idx_main_v33 (ix2 i f) = ix2 i (0 : Fin 1) := funext fun a => Fin.ext (by
    match a with | ⟨0, _⟩ => rfl | ⟨1, _⟩ => rfl)
  rw [val_main_v34_apply, val_main_v33_apply, e33, RefAggE_gate, RefAggE_score, Ideal.mulf_def]
  unfold Cert.SegAttn.gate
  refine congrArg (fun s => Ideal.logistic s * x1 (ix2 i f)) (Finset.sum_congr rfl fun k _ => ?_)
  rw [RefAggE_key, RefAggE_qrow x2 x3 x4 x7 x8 i b k h]

/-! ## The aggregate -/

/-- The edge aggregate at graph `b`, feature `f`: an edge's id is the node table read at its source index, wrapped
    and clamped. -/
theorem ref_eagg (x1 : (⟨S1600000x128, .f32⟩ : BufTy).Contents (Elt Ideal)) (x2 : (⟨S128x128, .f32⟩ : BufTy).Contents (Elt Ideal)) (x3 : (⟨S2x1600000, .i32⟩ : BufTy).Contents (Elt Ideal)) (x4 : (⟨S100000, .i32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (b f : Fin 128) :
    val_main_v37 (F := Ideal) x1 x2 x3 x4 x5 x6 x7 x8 (ix2 b f)
      = Cert.SegAttn.agg (fun i f' => x1 (ix2 i f'))
          (fun i => Cert.SegAttn.takeAt (by decide : 0 < 100000) (fun n => x4 (ix1 n)) (x3 (ix2 (0 : Fin 2) i)))
          (fun f' h => x5 (ix2 f' h)) (fun h => x6 (ix1 h))
          (Cert.SegAttn.qproj (fun b' k => x2 (ix2 b' k)) (fun k h => x7 (ix2 k h)) (fun h => x8 (ix1 h))) b f := by
  have e36 : ∀ i : Fin 1600000, idx_main_v36 (ix2 i (0 : Fin 1)) = ix1 i := fun i => funext fun a => Fin.ext (by
    match a with | ⟨0, _⟩ => rfl)
  unfold val_main_v37
  rw [RefAggE_scatterAdd_eq, Ideal.hostScatterAdd_def, RefAggE_scatter_zero]
  unfold Cert.SegAttn.agg
  refine Finset.sum_congr rfl fun i _ => ?_
  rw [val_main_v36_apply, e36 i]
  unfold Cert.SegAttn.term
  beta_reduce
  rw [← RefAggE_ebatch x3 x4 i]
  by_cases h : (val_main_v8 (F := Ideal) x3 x4 (ix1 i)).toInt = (b.val : ℤ)
  · rw [if_pos h, if_pos h, RefAggE_upd x1 x2 x3 x4 x5 x6 x7 x8 i b f h]
  · rw [if_neg h, if_neg h]

end Cert.ReferenceIdeal.Seg

end
-- ==== Proof.RefTail.lean ====
/-
  The reference's last four operations read at one entry: the two aggregates and the graphs' features side by
  side, times the weight matrix, plus the bias.
-/
import proofs.«419372_j26302379720747_1_alg».proof.Proof.Gen.ReferenceIdeal.Read
import proofs.«419372_j26302379720747_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Seg

open Idealize.ShloMosaic Idealize.ShloMosaic.TcCoe Idealize.SL.Sem Idealize.ShloMosaic.ValueIdx Cert.ReferenceIdeal Cert.ReferenceIdeal.Gen Cert.ReferenceIdeal.Read

/-- The three-block concatenation along the columns read at (`b`, `k`): the block whose span holds `k`, at
    `k` less the widths of the blocks before it. -/
theorem RefTail_cat_read (y0 y1 y2 : (⟨S128x128, .f32⟩ : BufTy).Contents (Elt Ideal)) (b : Fin 128) (k : Fin 384) :
    concatenate S128x384 1 [⟨S128x128, y0⟩, ⟨S128x128, y1⟩, ⟨S128x128, y2⟩]
        concatenates_S128x128_S128x128_S128x128_S128x384_d1 (ix2 b k)
      = Cert.SegAttn.cat (fun b' k' => y0 (ix2 b' k')) (fun b' k' => y1 (ix2 b' k')) (fun b' k' => y2 (ix2 b' k')) b k := by
  unfold Cert.SegAttn.cat
  by_cases h1 : k.val < 128
  · rw [dif_pos h1]
    refine concatenate_apply_piece (t := S128x384) 1 [⟨S128x128, y0⟩, ⟨S128x128, y1⟩, ⟨S128x128, y2⟩] concatenates_S128x128_S128x128_S128x128_S128x384_d1 (ix2 b k)
      0 (by show (0 : ℕ) < 3; omega) S128x128 y0 rfl rfl 0 rfl (ix2 b ⟨k.val, h1⟩) (fun c hc => ?_) ?_
    · match c with
      | ⟨0, _⟩ => rfl
      | ⟨1, _⟩ => exact absurd rfl hc
    · show 0 + k.val = k.val
      omega
  · rw [dif_neg h1]
    by_cases h2 : k.val < 256
    · rw [dif_pos h2]
      refine concatenate_apply_piece (t := S128x384) 1 [⟨S128x128, y0⟩, ⟨S128x128, y1⟩, ⟨S128x128, y2⟩] concatenates_S128x128_S128x128_S128x128_S128x384_d1 (ix2 b k)
        1 (by show (1 : ℕ) < 3; omega) S128x128 y1 rfl rfl 128 rfl (ix2 b ⟨k.val - 128, by omega⟩) (fun c hc => ?_) ?_
      · match c with
        | ⟨0, _⟩ => rfl
        | ⟨1, _⟩ => exact absurd rfl hc
      · show 128 + (k.val - 128) = k.val
        omega
    · rw [dif_neg h2]
      refine concatenate_apply_piece (t := S128x384) 1 [⟨S128x128, y0⟩, ⟨S128x128, y1⟩, ⟨S128x128, y2⟩] concatenates_S128x128_S128x128_S128x128_S128x384_d1 (ix2 b k)
        2 (by show (2 : ℕ) < 3; omega) S128x128 y2 rfl rfl 256 rfl (ix2 b ⟨k.val - 256, by have := k.isLt; omega⟩) (fun c hc => ?_) ?_
      · match c with
        | ⟨0, _⟩ => rfl
        | ⟨1, _⟩ => exact absurd rfl hc
      · show 256 + (k.val - 256) = k.val
        omega

/-- The contraction's left index at entry (`b`, `o`) and position `k` is (`b`, `k`). -/
theorem RefTail_lidx (b o : Fin 128) (k : Fin 384) : lidx_main_v68 (ix2 b o) k = ix2 b k :=
  funext fun a => Fin.ext (by match a with | ⟨0, _⟩ => rfl | ⟨1, _⟩ => rfl)

/-- The contraction's right index at entry (`b`, `o`) and position `k` is (`k`, `o`). -/
theorem RefTail_ridx (b o : Fin 128) (k : Fin 384) : ridx_main_v68 (ix2 b o) k = ix2 k o :=
  funext fun a => Fin.ext (by match a with | ⟨0, _⟩ => rfl | ⟨1, _⟩ => rfl)

/-- The bias, broadcast over the rows, is read at the column. -/
theorem RefTail_bidx (b o : Fin 128) : idx_main_v69 (idx_main_v70 (ix2 b o)) = ix1 o :=
  funext fun a => Fin.ext (by match a with | ⟨0, _⟩ => rfl)

/-- The reference's result at (`b`, `o`): the affine layer on the concatenation of its node aggregate, its edge
    aggregate and the graphs' features. -/
theorem ref_tail (x0 : (⟨S100000x128, .f32⟩ : BufTy).Contents (Elt Ideal)) (x1 : (⟨S1600000x128, .f32⟩ : BufTy).Contents (Elt Ideal)) (x2 : (⟨S128x128, .f32⟩ : BufTy).Contents (Elt Ideal)) (x3 : (⟨S2x1600000, .i32⟩ : BufTy).Contents (Elt Ideal)) (x4 : (⟨S100000, .i32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S128x64, .f32⟩ : BufTy).Contents (Elt Ideal)) (x12 : (⟨S64, .f32⟩ : BufTy).Contents (Elt Ideal)) (x13 : (⟨S384x128, .f32⟩ : BufTy).Contents (Elt Ideal)) (x14 : (⟨S128, .f32⟩ : BufTy).Contents (Elt Ideal)) (b o : Fin 128) :
    val_main_v71 (F := Ideal) x0 x1 x2 x3 x4 x5 x6 x7 x8 x9 x10 x11 x12 x13 x14 (ix2 b o)
      = Cert.SegAttn.out (fun b' k => val_main_v66 (F := Ideal) x0 x2 x4 x9 x10 x11 x12 (ix2 b' k))
          (fun b' k => val_main_v37 (F := Ideal) x1 x2 x3 x4 x5 x6 x7 x8 (ix2 b' k))
          (fun b' k => x2 (ix2 b' k)) (fun k o' => x13 (ix2 k o')) (fun o' => x14 (ix1 o')) b o := by
  rw [val_main_v71_apply, val_main_v68_apply, val_main_v70_apply, val_main_v69_apply, RefTail_bidx]
  unfold val_main_v67
  generalize val_main_v66 (F := Ideal) x0 x2 x4 x9 x10 x11 x12 = y0
  generalize val_main_v37 (F := Ideal) x1 x2 x3 x4 x5 x6 x7 x8 = y1
  simp only [RefTail_lidx, RefTail_ridx]
  rw [Ideal.addf_def]
  unfold Cert.SegAttn.out
  refine congrArg (· + x14 (ix1 o)) (Finset.sum_congr rfl fun k _ => ?_)
  exact congrArg (· * x13 (ix2 k o)) (RefTail_cat_read y0 y1 x2 b k)

end Cert.ReferenceIdeal.Seg

end
-- ==== Proof.RefValue.lean ====
/-
  The reference program's result, as the specification's function of its arguments: its last four operations apply
  the affine layer to its two aggregates and the graphs' features, and each aggregate is the specification's.
-/
import proofs.«419372_j26302379720747_1_alg».proof.Proof.RefAggX
import proofs.«419372_j26302379720747_1_alg».proof.Proof.RefAggE
import proofs.«419372_j26302379720747_1_alg».proof.Proof.RefTail

noncomputable section

namespace Cert.ReferenceIdeal.Seg

open Idealize.ShloMosaic Idealize.ShloMosaic.TcCoe Idealize.SL.Sem Idealize.ShloMosaic.ValueIdx Cert.ReferenceIdeal Cert.ReferenceIdeal.Gen Cert.ReferenceIdeal.Read
open Cert.SegAttn (agg qproj takeAt out result)

/-- The reference's result at (`b`, `o`). -/
theorem ref_value (x0 : (⟨S100000x128, .f32⟩ : BufTy).Contents (Elt Ideal)) (x1 : (⟨S1600000x128, .f32⟩ : BufTy).Contents (Elt Ideal)) (x2 : (⟨S128x128, .f32⟩ : BufTy).Contents (Elt Ideal)) (x3 : (⟨S2x1600000, .i32⟩ : BufTy).Contents (Elt Ideal)) (x4 : (⟨S100000, .i32⟩ : BufTy).Contents (Elt Ideal)) (x5 : (⟨S128x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S128x64, .f32⟩ : BufTy).Contents (Elt Ideal)) (x12 : (⟨S64, .f32⟩ : BufTy).Contents (Elt Ideal)) (x13 : (⟨S384x128, .f32⟩ : BufTy).Contents (Elt Ideal)) (x14 : (⟨S128, .f32⟩ : BufTy).Contents (Elt Ideal)) (b o : Fin 128) :
    val_main_v71 (F := Ideal) x0 x1 x2 x3 x4 x5 x6 x7 x8 x9 x10 x11 x12 x13 x14 (ix2 b o)
      = result (fun i f => x0 (ix2 i f)) (fun i f => x1 (ix2 i f)) (fun b' k => x2 (ix2 b' k))
          (fun i => x3 (ix2 (0 : Fin 2) i)) (fun n => x4 (ix1 n))
          (fun f' h => x5 (ix2 f' h)) (fun h => x6 (ix1 h)) (fun k h => x7 (ix2 k h)) (fun h => x8 (ix1 h))
          (fun f' h => x9 (ix2 f' h)) (fun h => x10 (ix1 h)) (fun k h => x11 (ix2 k h)) (fun h => x12 (ix1 h))
          (fun k o' => x13 (ix2 k o')) (fun o' => x14 (ix1 o')) b o := by
  rw [ref_tail]
  unfold result
  have hx : (fun b' k => val_main_v66 (F := Ideal) x0 x2 x4 x9 x10 x11 x12 (ix2 b' k))
      = agg (fun (i : Fin 100000) f' => x0 (ix2 i f')) (fun (i : Fin 100000) => x4 (ix1 i)) (fun f' h => x9 (ix2 f' h)) (fun h => x10 (ix1 h))
          (qproj (fun b' k => x2 (ix2 b' k)) (fun k h => x11 (ix2 k h)) (fun h => x12 (ix1 h))) :=
    funext fun b' => funext fun k => ref_xagg x0 x2 x4 x9 x10 x11 x12 b' k
  have he : (fun b' k => val_main_v37 (F := Ideal) x1 x2 x3 x4 x5 x6 x7 x8 (ix2 b' k))
      = agg (fun (i : Fin 1600000) f' => x1 (ix2 i f'))
          (fun (i : Fin 1600000) => takeAt (by decide : 0 < 100000) (fun n => x4 (ix1 n)) (x3 (ix2 (0 : Fin 2) i)))
          (fun f' h => x5 (ix2 f' h)) (fun h => x6 (ix1 h))
          (qproj (fun b' k => x2 (ix2 b' k)) (fun k h => x7 (ix2 k h)) (fun h => x8 (ix1 h))) :=
    funext fun b' => funext fun k => ref_eagg x1 x2 x3 x4 x5 x6 x7 x8 b' k
  rw [hx, he]

end Cert.ReferenceIdeal.Seg

end
-- ==== Proof.lean ====
/-
  A graph network's global update, as three TPU kernels against its jnp reference, over the extended reals.

  Every edge and every node carries a 128-feature row and belongs to one of 128 graphs (an edge to its source node's
  graph).  A row's gate is the logistic of the inner product of its key projection with its graph's query
  projection; each graph sums its gated rows; the node aggregate, the edge aggregate and the graphs' own features are
  concatenated and passed through one affine layer.  The kernel streams the rows in tiles over two shards, selects a
  row's query row and routes its gated features by products with the row's one-hot vector, accumulates a shard's
  tiles in a resident block, adds the shards on the host and applies the affine layer in a last kernel; the
  reference gathers the query rows and scatter-adds the gated rows.  Both are the one function `Cert.SegAttn.result`
  of the arguments (Proof/Spec.lean): a one-hot product is a selection, a row whose id names no graph adds nothing
  on either side, a padding row has zero features and adds gate · 0 = 0, and sums over the extended reals may be
  regrouped freely.  No float input's finiteness is used.  The one place the two programs differ is an edge whose
  source index lies outside the node table: the reference clamps the index, the kernel drops the edge; the
  precondition's last conjunct keeps every source index inside the table's signed range, where both read the same
  entry.

  The three frames are the generated frame certificates (the reference's its generated run with the result dropped);
  the ideal pass rewrote nothing, so the idealization claim is trivial.
-/
import proofs.«419372_j26302379720747_1_alg».proof.Defs
import proofs.«419372_j26302379720747_1_alg».proof.Proof.Gen.Kernel
import proofs.«419372_j26302379720747_1_alg».proof.Proof.Gen.Kernel.Skeleton
import proofs.«419372_j26302379720747_1_alg».proof.Proof.Gen.Kernel.Launch
import proofs.«419372_j26302379720747_1_alg».proof.Proof.Gen.Kernel.Points
import proofs.«419372_j26302379720747_1_alg».proof.Proof.Gen.Kernel.Frame
import proofs.«419372_j26302379720747_1_alg».proof.Proof.Gen.KernelIdeal
import proofs.«419372_j26302379720747_1_alg».proof.Proof.Gen.KernelIdeal.Skeleton
import proofs.«419372_j26302379720747_1_alg».proof.Proof.Gen.KernelIdeal.Launch
import proofs.«419372_j26302379720747_1_alg».proof.Proof.Gen.KernelIdeal.Points
import proofs.«419372_j26302379720747_1_alg».proof.Proof.Gen.KernelIdeal.Frame
import proofs.«419372_j26302379720747_1_alg».proof.Proof.Gen.ReferenceIdeal
import proofs.«419372_j26302379720747_1_alg».proof.Proof.Gen.Pre_finite_inputs
import proofs.«419372_j26302379720747_1_alg».proof.Proof.Gen.ReferenceIdeal.Run
import proofs.«419372_j26302379720747_1_alg».proof.Proof.Gen.ReferenceIdeal.Read
import proofs.«419372_j26302379720747_1_alg».proof.Proof.RunNamed
import proofs.«419372_j26302379720747_1_alg».proof.Proof.KernelValue
import proofs.«419372_j26302379720747_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification's function of the arguments, which agree. -/
theorem algebraic : Cert.algebraic_KernelIdeal_ReferenceIdeal := by
  intro m ρ m' ρ' hpre hagree
  refine ⟨fun c => Cert.KernelIdeal.Gen.W16 m ρ c (Proc.devRef .tc Cert.KernelIdeal.main_v23),
    Cert.KernelIdeal.Gen.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq]
  obtain ⟨h0, h1, h2, h3, h4, h5, h6, h7, h8, h9, h10, h11, h12, h13, h14⟩ := hagree c
  rw [h0, h1, h2, h3, h4, h5, h6, h7, h8, h9, h10, h11, h12, h13, h14]
  funext j
  obtain ⟨b, o, rfl⟩ : ∃ (b : Fin 128) (o : Fin 128), j = ix2 b o := ⟨j 0, j 1, eq_ix2 j⟩
  exact (Cert.ReferenceIdeal.Seg.ref_value _ _ _ _ _ _ _ _ _ _ _ _ _ _ _ b o).trans
    (Cert.KernelIdeal.Seg.kernel_value m ρ hpre c b o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
